-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S4x2048x3x16x64 : Shape := ⟨5, ![4, 2048, 3, 16, 64]⟩
abbrev S3x4x16x2048x64 : Shape := ⟨5, ![3, 4, 16, 2048, 64]⟩
abbrev S3x64x2048x64 : Shape := ⟨4, ![3, 64, 2048, 64]⟩
abbrev S4x2048x16x64 : Shape := ⟨4, ![4, 2048, 16, 64]⟩
abbrev S1x16x256x64 : Shape := ⟨4, ![1, 16, 256, 64]⟩
abbrev S1x256x16x64 : Shape := ⟨4, ![1, 256, 16, 64]⟩
abbrev S16x256x1 : Shape := ⟨3, ![16, 256, 1]⟩
abbrev S16x256x64 : Shape := ⟨3, ![16, 256, 64]⟩
abbrev S16x256x256 : Shape := ⟨3, ![16, 256, 256]⟩
abbrev S16x256 : Shape := ⟨2, ![16, 256]⟩
abbrev S256x16x64 : Shape := ⟨3, ![256, 16, 64]⟩
abbrev S1x1024 : Shape := ⟨2, ![1, 1024]⟩

abbrev nBuf : Space → Nat
  | .hbm => 20
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S8192x1024, .f32⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S8192x3072, .bf16⟩
  | .hbm, ⟨10, _⟩ => ⟨S4x2048x3x16x64, .bf16⟩
  | .hbm, ⟨11, _⟩ => ⟨S3x4x16x2048x64, .bf16⟩
  | .hbm, ⟨12, _⟩ => ⟨S3x64x2048x64, .bf16⟩
  | .hbm, ⟨13, _⟩ => ⟨S4x2048x16x64, .bf16⟩
  | .hbm, ⟨14, _⟩ => ⟨S8192x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S8192x1024, .f32⟩
  | .hbm, ⟨19, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x64, .bf16⟩
  | .local _ .vmem, ⟨9, _⟩ => ⟨S1x16x256x64, .bf16⟩
  | .local _ .vmem, ⟨10, _⟩ => ⟨S1x16x256x64, .bf16⟩
  | .local _ .vmem, ⟨11, _⟩ => ⟨S1x16x256x64, .bf16⟩
  | .local _ .vmem, ⟨12, _⟩ => ⟨S1x256x16x64, .bf16⟩
  | .local _ .vmem, ⟨13, _⟩ => ⟨S1x256x16x64, .bf16⟩
  | .local _ .vmem, ⟨14, _⟩ => ⟨S16x256x1, .f32⟩
  | .local _ .vmem, ⟨15, _⟩ => ⟨S16x256x1, .f32⟩
  | .local _ .vmem, ⟨16, _⟩ => ⟨S16x256x64, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 8, 8], ![false, false, false]⟩

def k1_cond2 (i : grid1.Coords) : BitVec 1 :=
  let arg2 : BitVec 32 := BitVec.ofNat 32 (i 2).val
  let c7_i32 : BitVec 32 := 7#32
  let v44 : BitVec 1 := Scalar.cmpi .eq arg2 c7_i32
  let v45 : BitVec 32 := Scalar.extui v44
  let c0_i32_37 : BitVec 32 := 0#32
  let v46 : BitVec 1 := Scalar.cmpi .ne v45 c0_i32_37
  v46

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg0.toNat, arg2.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x16x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x16x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x16x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x2048x1024_S8192x1024 : S4x2048x1024.ShapeCasts S8192x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  packedbf16_S1024x3072_S1024x3072_0_0 : (Rect.unit (s := S1024x3072) ![0, 0] S1024x3072.size inb_S1024x3072_S1024x3072_0_0).PackedRows (EltTy.packing .bf16)
  shapeCasts_S8192x3072_S4x2048x3x16x64 : S8192x3072.ShapeCasts S4x2048x3x16x64
  transposes_S4x2048x3x16x64_S3x4x16x2048x64_2_0_3_1_4 : S4x2048x3x16x64.Transposes [2, 0, 3, 1, 4] S3x4x16x2048x64
  shapeCasts_S3x4x16x2048x64_S3x64x2048x64 : S3x4x16x2048x64.ShapeCasts S3x64x2048x64
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  reduces_S16x256x256_S16x256 : S16x256x256.Reduces [2] S16x256
  shapeCasts_S16x256_S16x256x1 : S16x256.ShapeCasts S16x256x1
  broadcasts_S16x256x1_S16x256x256 : S16x256x1.Broadcasts S16x256x256
  broadcasts_S16x256x1_S16x256x64 : S16x256x1.Broadcasts S16x256x64
  transposes_S16x256x64_p1_0_2_S256x16x64 : S16x256x64.Transposes [1, 0, 2] S256x16x64
  inb_S1x256x16x64_S1x256x16x64_0_0_0_0 : ∀ a, (![0, 0, 0, 0] : Fin 4 → Nat) a + S1x256x16x64.size a ≤ S1x256x16x64.size a
  h_S1x256x16x64 : 0 < S1x256x16x64.numel
  shapeCasts_S1x256x16x64_S256x16x64 : S1x256x16x64.ShapeCasts S256x16x64
  shapeCasts_S256x16x64_S1x256x16x64 : S256x16x64.ShapeCasts S1x256x16x64
  packedbf16_S1x256x16x64_S1x256x16x64_0_0_0_0 : (Rect.unit (s := S1x256x16x64) ![0, 0, 0, 0] S1x256x16x64.size inb_S1x256x16x64_S1x256x16x64_0_0_0_0).PackedRows (EltTy.packing .bf16)
  shapeCasts_S4x2048x16x64_S8192x1024 : S4x2048x16x64.ShapeCasts S8192x1024
  transposes_S1024x1024_S1024x1024_1_0 : S1024x1024.Transposes [1, 0] S1024x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S1024x3072_S1024x3072_1_0_0_1_n_n_wf : DotDims.WF S1024x1024 S1024x3072 S1024x3072 [1] [0] [0] [1] [] []
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S8192x3072.size a
  hwx0_3 : ∀ i : grid0.Coords, EltTy.bits .bf16 = 32 ∨ (Rect.block (s := S8192x3072) S1024x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x64.size a ≤ S3x64x2048x64.size a
  hwx1_0 : ∀ i : grid1.Coords, EltTy.bits .bf16 = 32 ∨ (Rect.block (s := S3x64x2048x64) S1x16x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x256x64.size a ≤ S3x64x2048x64.size a
  hwx1_1 : ∀ i : grid1.Coords, EltTy.bits .bf16 = 32 ∨ (Rect.block (s := S3x64x2048x64) S1x16x256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x256x64.size a ≤ S3x64x2048x64.size a
  hwx1_2 : ∀ i : grid1.Coords, EltTy.bits .bf16 = 32 ∨ (Rect.block (s := S3x64x2048x64) S1x16x256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x16x64.size a ≤ S4x2048x16x64.size a
  hwx1_3 : ∀ i : grid1.Coords, EltTy.bits .bf16 = 32 ∨ (Rect.block (s := S4x2048x16x64) S1x256x16x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x16x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x16x256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v9) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x3x16x64 : Shape := ⟨5, ![4, 2048, 3, 16, 64]⟩
abbrev S4x2048x1x16x64 : Shape := ⟨5, ![4, 2048, 1, 16, 64]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x3x16x64, .f32⟩
  | .hbm, ⟨10, _⟩ => ⟨S4x2048x1x16x64, .f32⟩
  | .hbm, ⟨11, _⟩ => ⟨S4x2048x16x64, .f32⟩
  | .hbm, ⟨12, _⟩ => ⟨S4x16x2048x64, .f32⟩
  | .hbm, ⟨13, _⟩ => ⟨S4x2048x1x16x64, .f32⟩
  | .hbm, ⟨14, _⟩ => ⟨S4x2048x16x64, .f32⟩
  | .hbm, ⟨15, _⟩ => ⟨S4x16x2048x64, .f32⟩
  | .hbm, ⟨16, _⟩ => ⟨S4x2048x1x16x64, .f32⟩
  | .hbm, ⟨17, _⟩ => ⟨S4x2048x16x64, .f32⟩
  | .hbm, ⟨18, _⟩ => ⟨S4x16x2048x64, .f32⟩
  | .hbm, ⟨19, _⟩ => ⟨S4x16x2048x2048, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S_, .f32⟩
  | .hbm, ⟨24, _⟩ => ⟨S4x16x2048, .f32⟩
  | .hbm, ⟨25, _⟩ => ⟨S_, .f32⟩
  | .hbm, ⟨26, _⟩ => ⟨S4x16x2048, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S4x16x2048x1, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x3x16x64 : S4x2048x3072.ShapeCasts S4x2048x3x16x64
  slices_S4x2048x3x16x64_S4x2048x1x16x64_0_0_0_0_0 : S4x2048x3x16x64.Slices ![0, 0, 0, 0, 0] S4x2048x1x16x64
  shapeCasts_S4x2048x1x16x64_S4x2048x16x64 : S4x2048x1x16x64.ShapeCasts S4x2048x16x64
  transposes_S4x2048x16x64_S4x16x2048x64_0_2_1_3 : S4x2048x16x64.Transposes [0, 2, 1, 3] S4x16x2048x64
  slices_S4x2048x3x16x64_S4x2048x1x16x64_0_0_1_0_0 : S4x2048x3x16x64.Slices ![0, 0, 1, 0, 0] S4x2048x1x16x64
  slices_S4x2048x3x16x64_S4x2048x1x16x64_0_0_2_0_0 : S4x2048x3x16x64.Slices ![0, 0, 2, 0, 0] S4x2048x1x16x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Fr.Data.lean ====
/-
  The proof data of the three kernel regions, as plain definitions over the buffer contents `V` a region is entered
  from: for the two projections (a matrix product plus a bias row) the output block after a grid point is the body's
  one stored value of the point's three input blocks; for the attention region the running maximum, the running
  denominator and the running numerator after a grid point are one step of the online-softmax recurrence from what the
  point before left (from -inf, 0, 0 where the key/value coordinate is 0), and the output block is numerator over
  denominator. The three input windows of the attention region read ONE array, so each holds a part of its share.
-/
import proofs.«431026_j14723147891227_3_alg».proof.Proof.Gen.KernelIdeal.Launch
import proofs.«431026_j14723147891227_3_alg».proof.Proof.Gen.KernelIdeal.Skeleton
import proofs.«431026_j14723147891227_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The QKV projection (region 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After point `t`: the inputs' buffers at their blocks, the output's at rows·weights + bias of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## The output projection (region 2) -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 0 t) (iblk2 V c 1 t) (iblk2 V c 2 t) := by dsimp only [dat2]

/-! ## The attention region (region 1) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three scratch operands: whole scoped buffers of the kernel's own. -/
abbrev scM1_0 : Memref sig .tc .vmem S16x256x1 .f32 := Memref.whole cc1_scratch0
abbrev scM1_1 : Memref sig .tc .vmem S16x256x1 .f32 := Memref.whole cc1_scratch1
abbrev scM1_2 : Memref sig .tc .vmem S16x256x64 .f32 := Memref.whole cc1_scratch2

/-- Running maximum, running denominator, running numerator. -/
abbrev St1 (F : FTy → Type) [FloatOps F] : Type := Vec F S16x256x1 .f32 × Vec F S16x256x1 .f32 × Vec F S16x256x64 .f32

/-- What the reset at a first key/value tile stores: -inf, 0, 0. -/
def init1 : St1 F := (k1_pay5, k1_pay6, k1_pay7)

/-- One online-softmax step on a query block `q`, a key block `k`, a value block `v` from the state `s`. -/
def step1 (q k v : Vec F S1x16x256x64 .bf16) (s : St1 F) : St1 F :=
  (k1_pay3 (k1_pay10 q k s.1), k1_pay1 (k1_pay13 q k s.1 s.1 s.2.1), k1_pay2 (k1_pay8 v) (k1_pay11 q k s.1 s.1) (k1_pay12 q k s.1) s.2.2)

/-- The scratch contents after the body at position `n`: a step from the reset values where the key/value coordinate is 0
    (`n % 8 = 0`), else from what the point before left. -/
def mlaAt1 (c : Dev nD) : (n : ℕ) → n < cfg1.N → St1 F
  | 0, hn => step1 (iblk1 V c 0 ⟨0, hn⟩) (iblk1 V c 1 ⟨0, hn⟩) (iblk1 V c 2 ⟨0, hn⟩) init1
  | n + 1, hn =>
    step1 (iblk1 V c 0 ⟨n + 1, hn⟩) (iblk1 V c 1 ⟨n + 1, hn⟩) (iblk1 V c 2 ⟨n + 1, hn⟩)
      (if (n + 1) % 8 = 0 then init1 else mlaAt1 c n (Nat.lt_of_succ_lt hn))

/-- The output block a point's state gives: numerator over denominator, heads and rows exchanged. -/
def outOf1 (s : St1 F) : Vec F S1x256x16x64 .bf16 := k1_pay4 s.2.2 s.2.1

/-- The region invariant before position `n`: before the first point every scoped buffer no window stages at anything;
    afterwards the three scratch buffers at what the point before left, the other such buffers at anything; the generator
    register at some state throughout. -/
def PhiS1 (c : Dev nD) : (n : ℕ) → n ≤ cfg1.N → sProp 𝕄
  | 0, _ => Pipeline.ΦA spec1 c
  | n + 1, hn => iprop(iprop(
      (∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ owns (c : Thread nD τ) scM1_0 fullShare (mlaAt1 V c n hn).1
      ∗ owns (c : Thread nD τ) scM1_1 fullShare (mlaAt1 V c n hn).2.1
      ∗ owns (c : Thread nD τ) scM1_2 fullShare (mlaAt1 V c n hn).2.2
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f))
      ∗ (∃ r, prngReg c r))

/-- The parts of the one input array's share the three input windows hold. -/
def q1 : Fin cfg1.W → PosShare TreeShare := fun w => match w with
  | ⟨0, _⟩ => fullShare.left
  | ⟨1, _⟩ => fullShare.right.left
  | ⟨2, _⟩ => fullShare.right.right
  | ⟨3, _⟩ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf1 (mlaAt1 V c t.val t.isLt)
  Φ t := PhiS1 V c t.val (Nat.le_of_lt_succ t.isLt)
  q := q1
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outOf1 (mlaAt1 V c t.val t.isLt) := by dsimp only [dat1]

end Cert.KernelIdeal.Fr

end
-- ==== Proof.Fr.Bounds.lean ====
/-
  The buffer contents at each boundary of the program: as launched, after each stretch of host operations, and after
  each kernel region — a region changes exactly its output array, to what its write-backs leave. And the three regions'
  proof data, each at its region's entry contents.
-/
import proofs.«431026_j14723147891227_3_alg».proof.Proof.Fr.Data

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
/-- After the first host stretch (the QKV projection's entry): the input rows flattened, the weight transposed, the bias as a row. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the QKV projection: its output array at what its write-backs leave. -/
def W2 (c : Dev nD) : Valuation τ sig (Elt F) :=
  Function.update (W1 m c) (Proc.devRef .tc main_v4) ((dat0 (V1 m) c).arrAt 3 cfg0.N)
/-- After the second host stretch (the attention region's entry): q, k, v split by head. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention region. -/
def W4 (c : Dev nD) : Valuation τ sig (Elt F) :=
  Function.update (W3 m c) (Proc.devRef .tc main_v8) ((dat1 (V3 m) c).arrAt 3 cfg1.N)
/-- After the third host stretch (the output projection's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the output projection. -/
def W6 (c : Dev nD) : Valuation τ sig (Elt F) :=
  Function.update (W5 m c) (Proc.devRef .tc main_v13) ((dat2 (V5 m) c).arrAt 3 cfg2.N)
/-- At the return: the result reshaped to batch × rows × features. -/
abbrev W7 : Dev nD → Valuation τ sig (Elt F) := fun c => StableHlo.after hostOps3 (W6 m c)

theorem W2_out (c : Dev nD) : W2 m c (Proc.devRef .tc main_v4) = (dat0 (V1 m) c).arrAt 3 cfg0.N := by
  unfold W2; exact Function.update_self ..
theorem W2_of_ne (c : Dev nD) (b : Ref sig .tc) (hb : b ≠ main_v4) : W2 m c (Proc.devRef .tc b) = W1 m c (Proc.devRef .tc b) := by
  unfold W2; exact Function.update_of_ne (StableHlo.devRef_ne_of_ne hb) ..
theorem W4_out (c : Dev nD) : W4 m c (Proc.devRef .tc main_v8) = (dat1 (V3 m) c).arrAt 3 cfg1.N := by
  unfold W4; exact Function.update_self ..
theorem W4_of_ne (c : Dev nD) (b : Ref sig .tc) (hb : b ≠ main_v8) : W4 m c (Proc.devRef .tc b) = W3 m c (Proc.devRef .tc b) := by
  unfold W4; exact Function.update_of_ne (StableHlo.devRef_ne_of_ne hb) ..
theorem W6_out (c : Dev nD) : W6 m c (Proc.devRef .tc main_v13) = (dat2 (V5 m) c).arrAt 3 cfg2.N := by
  unfold W6; exact Function.update_self ..
theorem W6_of_ne (c : Dev nD) (b : Ref sig .tc) (hb : b ≠ main_v13) : W6 m c (Proc.devRef .tc b) = W5 m c (Proc.devRef .tc b) := by
  unfold W6; exact Function.update_of_ne (StableHlo.devRef_ne_of_ne hb) ..

/-- No pallas_call has a prefetched table. -/
abbrev adm : (p : Fin 3) → (pcfgs (F := F) p).Adm := fun p => (cfgs p).toPCfg_adm

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

end Cert.KernelIdeal.Fr

end
-- ==== Proof.Fr.Qkv.lean ====
/- The QKV projection's kernel body meets the pipeline's obligation at every grid point. -/
import proofs.«431026_j14723147891227_3_alg».proof.Proof.Fr.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point

The rows' window moves with the grid and is fetched at every point; the weight's and the bias's windows have constant
block indices and are fetched at the first point only. Either way an input window, whose block the body leaves in
place, holds at every point what a fetch there would put in it: where it is not fetched its block index has not moved. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's accesses: each buffer whole, through the rectangle at offset zero of the buffer's own sizes -/

abbrev rX : Rect S1024x1024 := Rect.unit (s := S1024x1024) ![0, 0] S1024x1024.size inb_S1024x1024_S1024x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

theorem off_zero : (![0, 0] : Fin 2 → Nat) = fun _ => 0 := funext fun a => by fin_cases a <;> rfl

/-- The one store covers the output buffer. -/
theorem coverOut (p : Vec F S1024x3072 .bf16) (y : S1024x3072.Idx) :
    ∃ pc ∈ ([⟨rW, p⟩] : List (View.Piece (Elt F) S1024x3072 .bf16)), y ∈ pc.1.set :=
  ⟨_, List.mem_singleton_self _, View.mem_set_unit_zero off_zero inb_S1024x3072_S1024x3072_0_0 y⟩

/-- What the one store leaves, read through whole-buffer loads of the inputs, is the product-plus-bias of the inputs'
    contents themselves: a load through the whole rectangle reads the contents, and one covering store leaves its payload. -/
theorem canon_pay (x0 : Vec F S1024x1024 .f32) (x1 : Vec F S1024x3072 .bf16) (x2 : Vec F S1x3072 .f32) :
    View.canon [(⟨rW, k0_pay1 (View.ld x0 rX) (View.ld x1 rW) (View.ld x2 rB)⟩ : View.Piece (Elt F) S1024x3072 .bf16)]
      = k0_pay1 x0 x1 x2 := by
  rw [View.canon_unit_zero off_zero]
  rw [View.ld_unit_zero (S := S1024x1024) off_zero, View.ld_unit_zero (S := S1024x3072) off_zero,
    View.ld_unit_zero (S := S1x3072) off_zero]

/-! ## The body's triple -/

set_option maxHeartbeats 1000000 in
/-- The kernel body on whole staging memrefs, the inputs' at contents x0 (rows), x1 (weights), x2 (bias) and the
    output's at anything, runs to the continuation holding the inputs' as they were and the output's at
    rows·weights + bias, rounded. -/
theorem sound_kernel0 (c : Dev nD) (E : Set ℕ) (i : grid0.Coords)
    (arg2 : Memref sig .tc .vmem S1024x1024 .f32) (harg2 : arg2.IsWhole)
    (arg3 : Memref sig .tc .vmem S1024x3072 .bf16) (harg3 : arg3.IsWhole)
    (arg4 : Memref sig .tc .vmem S1x3072 .f32) (harg4 : arg4.IsWhole)
    (arg5 : Memref sig .tc .vmem S1024x3072 .bf16) (harg5 : arg5.IsWhole)
    (x0 : Vec F S1024x1024 .f32) (x1 : Vec F S1024x3072 .bf16) (x2 : Vec F S1x3072 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k0_pay1 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ (coverOut _)).trans (canon_pay _ _ _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed amounts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.OutProj.lean ====
/- The output projection's kernel body meets the pipeline's obligation at every grid point. -/
import proofs.«431026_j14723147891227_3_alg».proof.Proof.Fr.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks

An input window's current staging buffer holds the window's block of the entry array at every grid point, whether
the pipeline fetched it there or not: where it did not, the block index has not moved since the last fetch (the
weight and the bias row have constant index maps and are fetched once, at the first point) and the body leaves its
inputs in place. Stated for any proof data over the entry contents `V` whose body keeps the block. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses

The body loads each of its four buffers whole and stores the output buffer whole: every access goes through the
rectangle of the buffer's own extents at offset zero. -/

/-- The whole 1024 x 1024 buffer as a rectangle of itself. -/
abbrev r2_mat : Rect S1024x1024 := Rect.unit (s := S1024x1024) ![0, 0] S1024x1024.size inb_S1024x1024_S1024x1024_0_0
/-- The whole 1 x 1024 bias row as a rectangle of itself. -/
abbrev r2_row : Rect S1x1024 := Rect.unit (s := S1x1024) ![0, 0] S1x1024.size inb_S1x1024_S1x1024_0_0

/-- Both offsets are zero. -/
theorem off2_zero : (![0, 0] : Fin 2 → Nat) = fun _ => 0 := by
  funext a; fin_cases a <;> rfl

/-- The one store covers the output buffer: every index lies in the whole-buffer rectangle. -/
theorem cover2_3 (p0 : Vec F S1024x1024 .f32) (y : S1024x1024.Idx) :
    ∃ pc ∈ ([⟨r2_mat, p0⟩] : List (View.Piece (Elt F) S1024x1024 .f32)), y ∈ pc.1.set :=
  ⟨_, List.mem_singleton_self _, View.mem_set_unit_zero off2_zero inb_S1024x1024_S1024x1024_0_0 y⟩

/-! ## The body's triple -/

set_option maxHeartbeats 1000000 in
/-- The kernel body on whole staging memrefs — the activations' at `x0`, the weight's at `x1`, the bias row's at
    `x2`, the output's at anything — runs to the continuation holding the three inputs as they were and the output
    at the product of `x0` and `x1` plus the row `x2` broadcast down the rows (`k2_pay1 x0 x1 x2`): the three loads
    read the buffers whole, the load of the output buffer is not used, and the one store overwrites it whole. -/
theorem sound_kernel2 (c : Dev nD) (E : Set ℕ) (i : grid2.Coords)
    (arg0 : Memref sig .tc .vmem S1024x1024 .bf16) (harg0 : arg0.IsWhole)
    (arg1 : Memref sig .tc .vmem S1024x1024 .bf16) (harg1 : arg1.IsWhole)
    (arg2 : Memref sig .tc .vmem S1x1024 .f32) (harg2 : arg2.IsWhole)
    (arg3 : Memref sig .tc .vmem S1024x1024 .f32) (harg3 : arg3.IsWhole)
    (x0 : Vec F S1024x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (k2_pay1 x0 x1 x2)) -∗ K ⟨⟩))
      ⊢ wp frame (wpE (defs₀ (F := F)) Variants.none c none) E (cc2__linear_kernel i arg0 harg0 arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _), View.canon_unit_zero off2_zero]
  simp only [View.readAt_eq_ld, View.ld_unit_zero (S := S1024x1024) off2_zero, View.ld_unit_zero (S := S1x1024) off2_zero]

/-! ## The body obligation, at a generic point -/

/-- What the body is called with at point `t`: the region invariant, nothing owed, and each window's current
    staging buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant, nothing owed, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three input buffers hold their blocks, so the body's triple applies at those blocks;
    the invariant and the (empty) debt pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Fr.AttnRuns.lean ====
/- The attention kernel's body as three runs, one per control case (first key/value tile: the reset taken; a middle tile:
   neither branch; the last tile: the finalize taken): on whole memrefs holding a query, a key and a value block and the
   running maximum, denominator and numerator, the body runs to one step of the online-softmax recurrence in the three
   scratch memrefs, and on the last tile to numerator over denominator in the output's. -/
import proofs.«431026_j14723147891227_3_alg».proof.Proof.Fr.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, in closed form over the grid -/

/-- The reset's condition: the key/value coordinate is 0. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The finalize's condition: the key/value coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Zero offsets, however spelt; the recurrence's components -/

theorem hz1_3 : (![0, 0, 0] : Fin 3 → Nat) = fun _ => 0 := funext fun a => by fin_cases a <;> rfl
theorem hz1_4 : (![0, 0, 0, 0] : Fin 4 → Nat) = fun _ => 0 := funext fun a => by fin_cases a <;> rfl

theorem step1_m (q k v : Vec F S1x16x256x64 .bf16) (s : St1 F) : (step1 q k v s).1 = k1_pay3 (k1_pay10 q k s.1) := rfl
theorem step1_l (q k v : Vec F S1x16x256x64 .bf16) (s : St1 F) : (step1 q k v s).2.1 = k1_pay1 (k1_pay13 q k s.1 s.1 s.2.1) := rfl
theorem step1_a (q k v : Vec F S1x16x256x64 .bf16) (s : St1 F) :
    (step1 q k v s).2.2 = k1_pay2 (k1_pay8 v) (k1_pay11 q k s.1 s.1) (k1_pay12 q k s.1) s.2.2 := rfl

theorem step1_init_m (q k v : Vec F S1x16x256x64 .bf16) : (step1 q k v init1).1 = k1_pay3 (k1_pay10 q k k1_pay5) := rfl
theorem step1_init_l (q k v : Vec F S1x16x256x64 .bf16) : (step1 q k v init1).2.1 = k1_pay1 (k1_pay13 q k k1_pay5 k1_pay5 k1_pay6) := rfl
theorem step1_init_a (q k v : Vec F S1x16x256x64 .bf16) :
    (step1 q k v init1).2.2 = k1_pay2 (k1_pay8 v) (k1_pay11 q k k1_pay5 k1_pay5) (k1_pay12 q k k1_pay5) k1_pay7 := rfl
theorem outOf1_step1 (q k v : Vec F S1x16x256x64 .bf16) (s : St1 F) :
    outOf1 (step1 q k v s) = k1_pay4 (k1_pay2 (k1_pay8 v) (k1_pay11 q k s.1 s.1) (k1_pay12 q k s.1) s.2.2) (k1_pay1 (k1_pay13 q k s.1 s.1 s.2.1)) := rfl

/-! ## The three runs -/

set_option maxHeartbeats 1000000 in
/-- CASE A (the key/value coordinate is 0). The reset stores -inf, 0, 0 into the three scratch memrefs, whatever they held; the
    loads that follow read those back; so the body leaves one step from the reset values. The output's memref is not touched. -/
theorem kernelRun1_A (c : Dev nD) (i : grid1.Coords) (arg3 : Memref sig .tc .vmem S1x16x256x64 .bf16) (harg3 : arg3.IsWhole) (arg4 : Memref sig .tc .vmem S1x16x256x64 .bf16) (harg4 : arg4.IsWhole) (arg5 : Memref sig .tc .vmem S1x16x256x64 .bf16) (harg5 : arg5.IsWhole) (arg6 : Memref sig .tc .vmem S1x256x16x64 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : cond1_0 i) (hc1 : ¬cond1_1 i)
    (q k v : Vec F S1x16x256x64 .bf16) (xi : Vec F S1x256x16x64 .bf16) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg6 fullShare xi
            ∗ owns (c : Thread nD τ) arg7 fullShare (step1 q k v init1).1 ∗ owns (c : Thread nD τ) arg8 fullShare (step1 q k v init1).2.1
            ∗ owns (c : Thread nD τ) arg9 fullShare (step1 q k v init1).2.2) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_words
    rw [View.read_writes_eq_canon _ _ _ (fun y => ⟨_, List.mem_cons_self .., View.mem_set_unit_zero hz1_3 inb_S16x256x1_S16x256x1_0_0_0 y⟩)]
    rw [View.canon_cons_unit_zero (S := S16x256x1) hz1_3, step1_init_m]
    simp only [View.readAt_eq_ld, harg3.read_unread, harg4.read_unread, harg5.read_unread, View.ld_unit_zero (S := S1x16x256x64) hz1_4, View.readCov_unit_zero (S := S16x256x1) _ hz1_3, View.readCov_unit_zero (S := S16x256x64) _ hz1_3]
  isplitl [HS1]
  · iexists _; isplitr
    swap; · iexact HS1
    ipureintro
    sl_unfold_words
    rw [View.read_writes_eq_canon _ _ _ (fun y => ⟨_, List.mem_cons_self .., View.mem_set_unit_zero hz1_3 inb_S16x256x1_S16x256x1_0_0_0 y⟩)]
    rw [View.canon_cons_unit_zero (S := S16x256x1) hz1_3, step1_init_l]
    simp only [View.readAt_eq_ld, harg3.read_unread, harg4.read_unread, harg5.read_unread, View.ld_unit_zero (S := S1x16x256x64) hz1_4, View.readCov_unit_zero (S := S16x256x1) _ hz1_3, View.readCov_unit_zero (S := S16x256x64) _ hz1_3]
  iexists _; isplitr
  swap; · iexact HS2
  ipureintro
  sl_unfold_words
  rw [View.read_writes_eq_canon _ _ _ (fun y => ⟨_, List.mem_cons_self .., View.mem_set_unit_zero hz1_3 inb_S16x256x64_S16x256x64_0_0_0 y⟩)]
  rw [View.canon_cons_unit_zero (S := S16x256x64) hz1_3, step1_init_a]
  simp only [View.readAt_eq_ld, harg3.read_unread, harg4.read_unread, harg5.read_unread, View.ld_unit_zero (S := S1x16x256x64) hz1_4, View.readCov_unit_zero (S := S16x256x1) _ hz1_3, View.readCov_unit_zero (S := S16x256x64) _ hz1_3]

set_option maxHeartbeats 1000000 in
/-- CASE B (the key/value coordinate is neither 0 nor 7). The body leaves one step from the state it finds. The output's memref
    is not touched. -/
theorem kernelRun1_B (c : Dev nD) (i : grid1.Coords) (arg3 : Memref sig .tc .vmem S1x16x256x64 .bf16) (harg3 : arg3.IsWhole) (arg4 : Memref sig .tc .vmem S1x16x256x64 .bf16) (harg4 : arg4.IsWhole) (arg5 : Memref sig .tc .vmem S1x16x256x64 .bf16) (harg5 : arg5.IsWhole) (arg6 : Memref sig .tc .vmem S1x256x16x64 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : ¬cond1_0 i) (hc1 : ¬cond1_1 i)
    (q k v : Vec F S1x16x256x64 .bf16) (s : St1 F) (xi : Vec F S1x256x16x64 .bf16) (E : Set ℕ) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare xi
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare xi
            ∗ owns (c : Thread nD τ) arg7 fullShare (step1 q k v s).1 ∗ owns (c : Thread nD τ) arg8 fullShare (step1 q k v s).2.1
            ∗ owns (c : Thread nD τ) arg9 fullShare (step1 q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HS0]
  · iexists _; isplitr
    swap; · iexact HS0
    ipureintro
    sl_unfold_words
    rw [View.read_writes_eq_canon _ _ _ (fun y => ⟨_, List.mem_singleton_self _, View.mem_set_unit_zero hz1_3 inb_S16x256x1_S16x256x1_0_0_0 y⟩)]
    rw [View.canon_unit_zero hz1_3, step1_m]
    simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3]
  isplitl [HS1]
  · iexists _; isplitr
    swap; · iexact HS1
    ipureintro
    sl_unfold_words
    rw [View.read_writes_eq_canon _ _ _ (fun y => ⟨_, List.mem_singleton_self _, View.mem_set_unit_zero hz1_3 inb_S16x256x1_S16x256x1_0_0_0 y⟩)]
    rw [View.canon_unit_zero hz1_3, step1_l]
    simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3]
  iexists _; isplitr
  swap; · iexact HS2
  ipureintro
  sl_unfold_words
  rw [View.read_writes_eq_canon _ _ _ (fun y => ⟨_, List.mem_singleton_self _, View.mem_set_unit_zero hz1_3 inb_S16x256x64_S16x256x64_0_0_0 y⟩)]
  rw [View.canon_unit_zero hz1_3, step1_a]
  simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3]

set_option maxHeartbeats 1000000 in
/-- CASE C (the key/value coordinate is 7). The body leaves one step from the state it finds, reads the new numerator and
    denominator back, and stores their quotient into the output's memref, whatever it held. -/
theorem kernelRun1_C (c : Dev nD) (i : grid1.Coords) (arg3 : Memref sig .tc .vmem S1x16x256x64 .bf16) (harg3 : arg3.IsWhole) (arg4 : Memref sig .tc .vmem S1x16x256x64 .bf16) (harg4 : arg4.IsWhole) (arg5 : Memref sig .tc .vmem S1x16x256x64 .bf16) (harg5 : arg5.IsWhole) (arg6 : Memref sig .tc .vmem S1x256x16x64 .bf16) (harg6 : arg6.IsWhole) (arg7 : Memref sig .tc .vmem S16x256x1 .f32) (harg7 : arg7.IsWhole) (arg8 : Memref sig .tc .vmem S16x256x1 .f32) (harg8 : arg8.IsWhole) (arg9 : Memref sig .tc .vmem S16x256x64 .f32) (harg9 : arg9.IsWhole) (hc0 : ¬cond1_0 i) (hc1 : cond1_1 i)
    (q k v : Vec F S1x16x256x64 .bf16) (s : St1 F) (E : Set ℕ) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare (outOf1 (step1 q k v s))
            ∗ owns (c : Thread nD τ) arg7 fullShare (step1 q k v s).1 ∗ owns (c : Thread nD τ) arg8 fullShare (step1 q k v s).2.1
            ∗ owns (c : Thread nD τ) arg9 fullShare (step1 q k v s).2.2) -∗ K ⟨⟩))
      ⊢ wp frame (wpE (defs₀ (F := F)) Variants.none c none) E (cc1__flash_attn_kernel i arg3 harg3 arg4 harg4 arg5 harg5 arg6 harg6 arg7 harg7 arg8 harg8 arg9 harg9) K := by
  simp only [cc1__flash_attn_kernel_eq_skeleton]; unfold cc1__flash_attn_kernel_skel
  simp only [k1_part1_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_singleton_self _, View.mem_set_unit_zero hz1_4 inb_S1x256x16x64_S1x256x16x64_0_0_0_0 y⟩)]
    rw [View.canon_unit_zero hz1_4, outOf1_step1]
    simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3, View.readCov_unit_zero (S := S16x256x1) _ hz1_3, View.readCov_unit_zero (S := S16x256x64) _ hz1_3]
  isplitl [HS0]
  · iexists _; isplitr
    swap; · iexact HS0
    ipureintro
    sl_unfold_words
    rw [View.read_writes_eq_canon _ _ _ (fun y => ⟨_, List.mem_singleton_self _, View.mem_set_unit_zero hz1_3 inb_S16x256x1_S16x256x1_0_0_0 y⟩)]
    rw [View.canon_unit_zero hz1_3, step1_m]
    simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3]
  isplitl [HS1]
  · iexists _; isplitr
    swap; · iexact HS1
    ipureintro
    sl_unfold_words
    rw [View.read_writes_eq_canon _ _ _ (fun y => ⟨_, List.mem_singleton_self _, View.mem_set_unit_zero hz1_3 inb_S16x256x1_S16x256x1_0_0_0 y⟩)]
    rw [View.canon_unit_zero hz1_3, step1_l]
    simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3]
  iexists _; isplitr
  swap; · iexact HS2
  ipureintro
  sl_unfold_words
  rw [View.read_writes_eq_canon _ _ _ (fun y => ⟨_, List.mem_singleton_self _, View.mem_set_unit_zero hz1_3 inb_S16x256x64_S16x256x64_0_0_0 y⟩)]
  rw [View.canon_unit_zero hz1_3, step1_a]
  simp only [View.readAt_eq_ld, harg3.read_unread, harg4.read_unread, harg5.read_unread, harg7.read_unread, harg8.read_unread, harg9.read_unread, View.ld_unit_zero (S := S1x16x256x64) hz1_4, View.ld_unit_zero (S := S16x256x1) hz1_3, View.ld_unit_zero (S := S16x256x64) hz1_3]

end Cert.KernelIdeal.Fr

end
-- ==== Proof.Fr.Attn.lean ====
/- The attention kernel's body meets the pipeline's obligation at every grid point, and its invariant starts and ends at the plain one. -/
import proofs.«431026_j14723147891227_3_alg».proof.Proof.Fr.AttnRuns

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant: the scoped buffers no window stages, with the three scratch buffers' places open -/

/-- The chain of scoped buffers no window of the region stages: the twelve that are no scratch of this kernel each at anything,
    three given assertions in the places of the running maximum, denominator and numerator; and the generator register at
    some state. -/
def rest1 (c : Dev nD) (P0 P1 P2 : sProp 𝕄) : sProp 𝕄 :=
  iprop(iprop(
      (∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ P0 ∗ P1 ∗ P2
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f))
      ∗ (∃ r, prngReg c r))

/-- The twelve other buffers and the generator register alone. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg3_1), ((c : Thread nD τ).loc cc2_stg3_1) ↦{fullShare} f)
      ∗ (∃ r, prngReg c r))

theorem rest1_split (c : Dev nD) (P0 P1 P2 : sProp 𝕄) : rest1 c P0 P1 P2 ⊢ iprop(P0 ∗ P1 ∗ P2 ∗ others1 (F := F) c) := by
  unfold rest1 others1
  iintro ⟨⟨A0, A1, A2, A3, A4, A5, H0, H1, H2, B0, B1, B2, B3, B4, B5⟩, Hg⟩
  isplitl [H0]; · iexact H0
  isplitl [H1]; · iexact H1
  isplitl [H2]; · iexact H2
  isplitl [A0]; · iexact A0
  isplitl [A1]; · iexact A1
  isplitl [A2]; · iexact A2
  isplitl [A3]; · iexact A3
  isplitl [A4]; · iexact A4
  isplitl [A5]; · iexact A5
  isplitl [B0]; · iexact B0
  isplitl [B1]; · iexact B1
  isplitl [B2]; · iexact B2
  isplitl [B3]; · iexact B3
  isplitl [B4]; · iexact B4
  isplitl [B5]; · iexact B5
  iexact Hg

theorem rest1_join (c : Dev nD) (P0 P1 P2 : sProp 𝕄) : iprop(P0 ∗ P1 ∗ P2 ∗ others1 (F := F) c) ⊢ rest1 c P0 P1 P2 := by
  unfold rest1 others1
  iintro ⟨H0, H1, H2, A0, A1, A2, A3, A4, A5, B0, B1, B2, B3, B4, B5, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [H0]; · iexact H0
  isplitl [H1]; · iexact H1
  isplitl [H2]; · iexact H2
  isplitl [B0]; · iexact B0
  isplitl [B1]; · iexact B1
  isplitl [B2]; · iexact B2
  isplitl [B3]; · iexact B3
  isplitl [B4]; · iexact B4
  iexact B5

/-- The plain invariant of the region is the chain with each scratch buffer owned, as a memref, at some contents. -/
theorem PhiA1_eq (c : Dev nD) :
    (Pipeline.ΦA spec1 c : sProp 𝕄)
      = rest1 c (iprop(∃ d, owns (c : Thread nD τ) scM1_0 fullShare d)) (iprop(∃ d, owns (c : Thread nD τ) scM1_1 fullShare d))
          (iprop(∃ d, owns (c : Thread nD τ) scM1_2 fullShare d)) := by
  unfold Pipeline.ΦA rest1; rw [scopedRest1_eq]; simp only [scM1_0, scM1_1, scM1_2, owns_whole]; try rfl

theorem PhiS1_zero (c : Dev nD) (n : ℕ) (h : n ≤ cfg1.N) (hz : n = 0) : PhiS1 V c n h = Pipeline.ΦA spec1 c := by
  subst hz; rfl

/-- After a point: the three scratch buffers at that point's state. -/
theorem PhiS1_succ (c : Dev nD) (n : ℕ) (hn : n < cfg1.N) :
    PhiS1 V c (n + 1) hn = rest1 c (owns (c : Thread nD τ) scM1_0 fullShare (mlaAt1 V c n hn).1)
      (owns (c : Thread nD τ) scM1_1 fullShare (mlaAt1 V c n hn).2.1) (owns (c : Thread nD τ) scM1_2 fullShare (mlaAt1 V c n hn).2.2) := rfl

/-- Before a point that is not the first: the three scratch buffers at what the point before left. -/
theorem PhiS1_pos (c : Dev nD) (n : ℕ) (h : n ≤ cfg1.N) (hz : n ≠ 0) :
    PhiS1 V c n h = rest1 c (owns (c : Thread nD τ) scM1_0 fullShare (mlaAt1 V c (n - 1) (by omega)).1)
      (owns (c : Thread nD τ) scM1_1 fullShare (mlaAt1 V c (n - 1) (by omega)).2.1)
      (owns (c : Thread nD τ) scM1_2 fullShare (mlaAt1 V c (n - 1) (by omega)).2.2) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The recurrence at a point -/

theorem mlaAt1_first (c : Dev nD) (t : Fin cfg1.N) (h : t.val % 8 = 0) :
    mlaAt1 V c t.val t.isLt = step1 (iblk1 V c 0 t) (iblk1 V c 1 t) (iblk1 V c 2 t) init1 := by
  obtain ⟨n, hn⟩ := t
  cases n with
  | zero => rfl
  | succ n => exact congrArg (step1 (iblk1 V c 0 ⟨n + 1, hn⟩) (iblk1 V c 1 ⟨n + 1, hn⟩) (iblk1 V c 2 ⟨n + 1, hn⟩)) (if_pos h)

theorem mlaAt1_next (c : Dev nD) (t : Fin cfg1.N) (h : ¬t.val % 8 = 0) :
    mlaAt1 V c t.val t.isLt = step1 (iblk1 V c 0 t) (iblk1 V c 1 t) (iblk1 V c 2 t)
      (mlaAt1 V c (t.val - 1) (Nat.lt_of_le_of_lt (Nat.sub_le _ _) t.isLt)) := by
  obtain ⟨n, hn⟩ := t
  cases n with
  | zero => exact absurd (Nat.zero_mod _) h
  | succ n => exact congrArg (step1 (iblk1 V c 0 ⟨n + 1, hn⟩) (iblk1 V c 1 ⟨n + 1, hn⟩) (iblk1 V c 2 ⟨n + 1, hn⟩)) (if_neg h)

/-! ## Where the windows are live, and where the output is written back -/

/-- The three inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output is idle, and not written back, off the last key/value tile; live on it. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## What the body finds in the inputs' staging buffers -/

/-- An input's current staging buffer holds its block at every point, fetched there or not: unfetched, the block index has not
    moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation at a point -/

/-- What the body is called with at a point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the key/value coordinate says which case the point is in.
    On a first key/value tile the scratch buffers are handed over at anything (the plain invariant at the first point of all,
    the state of the point before otherwise, forgotten) and come back one step from the reset values; elsewhere they are
    handed over at the state the point before left and come back one step on. The output's buffer is handed back untouched
    off the last key/value tile and left at numerator over denominator on it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t hc1) (noFlush1_3 t hc1)]
    rw [mlaAt1_first V c t h0]
    by_cases hz : t.val = 0
    · rw [PhiS1_castSucc V c t, PhiS1_zero V c _ _ hz, PhiA1_eq]
      iintro ⟨HR, Ho, ⟨%d0, H0⟩, ⟨%d1, H1⟩, ⟨%d2, H2⟩, ⟨%d3, H3⟩⟩
      ihave HR' := rest1_split c _ _ _ $$ HR
      icases HR' with ⟨HS0, HS1, HS2, HO⟩
      iapply (kernelRun1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HO]
      · iapply rest1_join c
        isplitl [HS0]; · iexact HS0
        isplitl [HS1]; · iexact HS1
        isplitl [HS2]; · iexact HS2
        iexact HO
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨HR, Ho, ⟨%d0, H0⟩, ⟨%d1, H1⟩, ⟨%d2, H2⟩, ⟨%d3, H3⟩⟩
      ihave HR' := rest1_split c _ _ _ $$ HR
      icases HR' with ⟨HS0, HS1, HS2, HO⟩
      iapply (kernelRun1_A c (grid1.coords t) _ _ _ _ _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 HO]
      · iapply rest1_join c
        isplitl [HS0]; · iexact HS0
        isplitl [HS1]; · iexact HS1
        isplitl [HS2]; · iexact HS2
        iexact HO
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun e => h0 (by rw [e])
    rw [mlaAt1_next V c t h0]
    rw [PhiS1_castSucc V c t, PhiS1_pos V c _ _ hz]
    by_cases h7 : t.val % 8 = 7
    · have hc1 : cond1_1 (grid1.coords t) := (hcond1_1 t).mpr h7
      rw [show (dat1 V c).leavesExact 3 t = owns (c : Thread nD τ) (st1_3 t) fullShare ((dat1 V c).after 3 t) from by
        unfold Dat.leavesExact; rw [liveAt1_3 t hc1], after1_3, mlaAt1_next V c t h0]
      iintro ⟨HR, Ho, ⟨%d0, H0⟩, ⟨%d1, H1⟩, ⟨%d2, H2⟩, ⟨%d3, H3⟩⟩
      ihave HR' := rest1_split c _ _ _ $$ HR
      icases HR' with ⟨HS0, HS1, HS2, HO⟩
      iapply (kernelRun1_C c (grid1.coords t) _ _ _ _ _ _ _ _ _ _ _ _ _ _ hc0 hc1 (iblk1 V c 0 t) (iblk1 V c 1 t) (iblk1 V c 2 t)
        (mlaAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 HO]
      · iapply rest1_join c
        isplitl [HS0]; · iexact HS0
        isplitl [HS1]; · iexact HS1
        isplitl [HS2]; · iexact HS2
        iexact HO
      isplitl [Ho]; · iexact Ho
      isplitl [H0]; · iexact H0
      isplitl [H1]; · iexact H1
      isplitl [H2]; · iexact H2
      iexact H3
    · have hc1 : ¬cond1_1 (grid1.coords t) := fun h => h7 ((hcond1_1 t).mp h)
      rw [Dat.leavesExact_idle (dat1 V c) 3 t (idleAt1_3 t hc1) (noFlush1_3 t hc1)]
      iintro ⟨HR, Ho, ⟨%d0, H0⟩, ⟨%d1, H1⟩, ⟨%d2, H2⟩, ⟨%d3, H3⟩⟩
      ihave HR' := rest1_split c _ _ _ $$ HR
      icases HR' with ⟨HS0, HS1, HS2, HO⟩
      iapply (kernelRun1_B c (grid1.coords t) _ _ _ _ _ _ _ _ _ _ _ _ _ _ hc0 hc1 (iblk1 V c 0 t) (iblk1 V c 1 t) (iblk1 V c 2 t)
        (mlaAt1 V c (t.val - 1) (Nat.lt_of_le_of_lt (Nat.sub_le _ _) t.isLt)) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 HO]
      · iapply rest1_join c
        isplitl [HS0]; · iexact HS0
        isplitl [HS1]; · iexact HS1
        isplitl [HS2]; · iexact HS2
        iexact HO
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the scratch contents are forgotten. -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro HR
  ihave HR' := rest1_split c _ _ _ $$ HR
  icases HR' with ⟨HS0, HS1, HS2, HO⟩
  iapply rest1_join c
  isplitl [HS0]; · iexists _; iexact HS0
  isplitl [HS1]; · iexists _; iexact HS1
  isplitl [HS2]; · iexists _; iexact HS2
  iexact HO

end Cert.KernelIdeal.Fr

end
-- ==== Proof.Fr.Run.lean ====
/- The whole program's run: every weakly fair execution ends with each unscoped buffer at the last boundary's contents. -/
import proofs.«431026_j14723147891227_3_alg».proof.Proof.Fr.Bounds
import proofs.«431026_j14723147891227_3_alg».proof.Proof.Fr.Qkv
import proofs.«431026_j14723147891227_3_alg».proof.Proof.Fr.OutProj
import proofs.«431026_j14723147891227_3_alg».proof.Proof.Fr.Attn
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

variable (V : (c : Dev nD) → (b : Ref sig .tc) → Buf (Elt F) ((c : Thread nD τ).loc b))

/-! ## The attention region's arrays: four windows on two buffers -/

/-- The two buffers behind the attention region's windows. -/
theorem arrImage1 : Finset.univ.image (Pipeline.arrRef spec1) = {main_v7, main_v8} := by decide

/-- The attention region's four windowed arrays are two buffers held whole: the three input windows read one array, each
    holding one part of its share (a half, a quarter, a quarter: together the whole), at the same contents; the output
    window holds its array at the full share. -/
theorem arrays1_iff (c : Dev nD) (G : (w : Fin cfg1.W) → Buf (Elt F) ((cfg1.win w).arr.view.loc (c : Thread nD τ)))
    (A : Buf (Elt F) ((c : Thread nD τ).loc main_v7)) (h0 : G 0 = A) (h1 : G 1 = A) (h2 : G 2 = A) :
    ((dat1 V c).arrays G : sProp 𝕄)
      ⊣⊢ iprop((((c : Thread nD τ).loc main_v7) ↦{fullShare} A) ∗ (((c : Thread nD τ).loc main_v8) ↦{fullShare} G 3)) := by
  have e0 : ((cfg1.win 0).arr.view.loc (c : Thread nD τ) ↦[(cfg1.win 0).arr.view.set]{(dat1 V c).share 0} G 0 : sProp 𝕄)
      = (((c : Thread nD τ).loc main_v7) ↦{fullShare.left} A) := by
    rw [h0, (arr_whole1 0).set_eq_univ]; rfl
  have e1 : ((cfg1.win 1).arr.view.loc (c : Thread nD τ) ↦[(cfg1.win 1).arr.view.set]{(dat1 V c).share 1} G 1 : sProp 𝕄)
      = (((c : Thread nD τ).loc main_v7) ↦{fullShare.right.left} A) := by
    rw [h1, (arr_whole1 1).set_eq_univ]; rfl
  have e2 : ((cfg1.win 2).arr.view.loc (c : Thread nD τ) ↦[(cfg1.win 2).arr.view.set]{(dat1 V c).share 2} G 2 : sProp 𝕄)
      = (((c : Thread nD τ).loc main_v7) ↦{fullShare.right.right} A) := by
    rw [h2, (arr_whole1 2).set_eq_univ]; rfl
  have e3 : ((cfg1.win 3).arr.view.loc (c : Thread nD τ) ↦[(cfg1.win 3).arr.view.set]{(dat1 V c).share 3} G 3 : sProp 𝕄)
      = (((c : Thread nD τ).loc main_v8) ↦{fullShare} G 3) := by
    rw [(arr_whole1 3).set_eq_univ]; rfl
  have s1 : ((((c : Thread nD τ).loc main_v7) ↦{fullShare} A) : sProp 𝕄)
      ⊣⊢ iprop((((c : Thread nD τ).loc main_v7) ↦{fullShare.left} A) ∗ (((c : Thread nD τ).loc main_v7) ↦{fullShare.right} A)) :=
    pointsTo_share (PosShare.mem_left_op_right fullShare)
  have s2 : ((((c : Thread nD τ).loc main_v7) ↦{fullShare.right} A) : sProp 𝕄)
      ⊣⊢ iprop((((c : Thread nD τ).loc main_v7) ↦{fullShare.right.left} A) ∗ (((c : Thread nD τ).loc main_v7) ↦{fullShare.right.right} A)) :=
    pointsTo_share (PosShare.mem_left_op_right fullShare.right)
  unfold Dat.arrays
  rw [bigSep_W1, e0, e1, e2, e3]
  constructor
  · iintro ⟨H0, H1, H2, H3⟩
    isplitr [H3]
    · iapply s1.2
      isplitl [H0]; · iexact H0
      iapply s2.2
      isplitl [H1] <;> iassumption
    · iexact H3
  · iintro ⟨H7, H8⟩
    ihave H := s1.1 $$ H7
    icases H with ⟨H0, Hr⟩
    ihave H := s2.1 $$ Hr
    icases H with ⟨H1, H2⟩
    isplitl [H0]; · iexact H0
    isplitl [H1]; · iexact H1
    isplitl [H2]; · iexact H2
    iexact H8

/-- The buffers behind the attention region's windows, one by one. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_v7) ↦{fullShare} X main_v7) ∗ (((c : Thread nD τ).loc main_v8) ↦{fullShare} X main_v8)) := by
  unfold Pipeline.arrBufs
  rw [arrImage1, BI.bigSep_insert (by decide), BI.bigSep_singleton]
  rfl

/-- A core's unscoped buffers are the buffers behind the attention region's windows and the rest. -/
theorem unscopedBufs_split1 (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) :=
  Pipeline.unscopedBufs_split₀ cfgs 1 winFacts₀1.arr_unscoped c X

/-- ENTRY: a core's unscoped buffers at the entry contents are the attention region's arrays at the proof data's entry
    contents and the unscoped rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  rw [unscopedBufs_split1 c (V c)]
  refine sep_mono ?_ .rfl
  rw [arrBufs1_eq]
  exact (arrays1_iff V c ((dat1 V c).arrAt · 0) (V c main_v7) rfl rfl rfl).2

/-- EXIT: the attention region's arrays at their final contents and the unscoped rest as entered are the core's unscoped
    buffers at any contents that have the output array at what the write-backs leave and agree with the entry contents
    off it: an input window's array ends as entered. -/
theorem unscopedBufs_of_arrays1 (c : Dev nD) (X : (b : Ref sig .tc) → Buf (Elt F) ((c : Thread nD τ).loc b))
    (h8 : (dat1 V c).arrAt 3 cfg1.N = X main_v8) (hrest : ∀ b, b ≠ main_v8 → X b = V c b) :
    iprop((dat1 V c).arrays ((dat1 V c).arrAt · cfg1.N) ∗ Pipeline.unscopedRest spec1 c (V c))
      ⊢ (unscopedBufs (Ix := Unit) (Name := ℕ) (U := UR sig nD τ) (Lvl := ℕ) c X : sProp 𝕄) := by
  rw [unscopedBufs_split1 c X, arrBufs1_eq]
  refine sep_mono ?_ (Entails.of_eq ?_)
  · refine (arrays1_iff V c ((dat1 V c).arrAt · cfg1.N) (V c main_v7)
      ((dat1 V c).arrAt_in 0 rfl _) ((dat1 V c).arrAt_in 1 rfl _) ((dat1 V c).arrAt_in 2 rfl _)).1.trans (Entails.of_eq ?_)
    rw [hrest main_v7 (by decide)]
    exact congrArg _ (congrArg _ h8)
  · unfold Pipeline.unscopedRest
    exact bigSep_congr fun b hb => by
      rw [hrest b fun e => (Finset.mem_sdiff.mp hb).2 (e ▸ Finset.mem_image.mpr ⟨3, Finset.mem_univ _, rfl⟩)]

/-! ## The thread state that rides through every segment -/

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state and its debts, at nothing. -/
abbrev R (c : Dev nD) : sProp 𝕄 := iprop((∃ r, prngReg c r) ∗ ∃ W, owes (c : Thread nD τ) (0 : CellTallies nD τ sig Unit) W)
/-- A stretch of host operations as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- The last thread state without the debts: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The two projections' exit contents: the output array at what the write-backs leave, every other buffer as entered -/

abbrev V2 : (c : Dev nD) → (b : Ref sig .tc) → Buf (Elt F) ((c : Thread nD τ).loc b) := fun c b => W2 m c b
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b

theorem hF0 (c : Dev nD) : ∀ w : Fin cfg0.W, (dat0 (V1 m) c).arrAt w cfg0.N = V2 m c (Pipeline.arrRef spec0 w) :=
  show ∀ w : Fin 4, _ from fun
  | 0 => ((dat0 (V1 m) c).arrAt_in 0 rfl _).trans ((A_eq0 (V1 m) c 0).trans (W2_of_ne m c _ (by decide)).symm)
  | 1 => ((dat0 (V1 m) c).arrAt_in 1 rfl _).trans ((A_eq0 (V1 m) c 1).trans (W2_of_ne m c _ (by decide)).symm)
  | 2 => ((dat0 (V1 m) c).arrAt_in 2 rfl _).trans ((A_eq0 (V1 m) c 2).trans (W2_of_ne m c _ (by decide)).symm)
  | 3 => (W2_out m c).symm
  | ⟨_ + 4, h⟩ => absurd h (Nat.not_lt.2 (Nat.le_add_left _ _))
theorem hrest0 (c : Dev nD) : ∀ b, b ∉ Finset.univ.image (Pipeline.arrRef spec0) → V2 m c b = V1 m c b :=
  fun b hb => W2_of_ne m c b fun e => hb (e ▸ Finset.mem_image.mpr ⟨3, Finset.mem_univ _, rfl⟩)

theorem hF2 (c : Dev nD) : ∀ w : Fin cfg2.W, (dat2 (V5 m) c).arrAt w cfg2.N = V6 m c (Pipeline.arrRef spec2 w) :=
  show ∀ w : Fin 4, _ from fun
  | 0 => ((dat2 (V5 m) c).arrAt_in 0 rfl _).trans ((A_eq2 (V5 m) c 0).trans (W6_of_ne m c _ (by decide)).symm)
  | 1 => ((dat2 (V5 m) c).arrAt_in 1 rfl _).trans ((A_eq2 (V5 m) c 1).trans (W6_of_ne m c _ (by decide)).symm)
  | 2 => ((dat2 (V5 m) c).arrAt_in 2 rfl _).trans ((A_eq2 (V5 m) c 2).trans (W6_of_ne m c _ (by decide)).symm)
  | 3 => (W6_out m c).symm
  | ⟨_ + 4, h⟩ => absurd h (Nat.not_lt.2 (Nat.le_add_left _ _))
theorem hrest2 (c : Dev nD) : ∀ b, b ∉ Finset.univ.image (Pipeline.arrRef spec2) → V6 m c b = V5 m c b :=
  fun b hb => W6_of_ne m c b fun e => hb (e ▸ Finset.mem_image.mpr ⟨3, Finset.mem_univ _, rfl⟩)

set_option backward.isDefEq.respectTransparency.types false in
/-- The attention region as a segment: entered from every unscoped buffer at the contents after the head split, left
    with its output array at what the write-backs leave. Its three input windows read one array: that buffer's share
    is parted among them at entry and rejoined at exit, the contents being those entered with. Its invariant carries
    the running softmax state between grid points: it starts from, and ends in, the plain one. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays1_of_unscopedBufs (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := unscopedBufs_of_arrays1 (V3 m) c (V4 m c) (W4_out m c).symm (fun b hb => W4_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The QKV projection as a segment: entered from every unscoped buffer at the contents before it, left with its
    output array at what the write-backs leave. Its four arrays are distinct buffers, split out of the unscoped buffers
    at entry and put back at exit; the generator register goes into the invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection as a segment: entered from every unscoped buffer at the contents before it, left with its
    output array at what the write-backs leave. Its four arrays are distinct buffers, split out of the unscoped buffers
    at entry and put back at exit; the generator register goes into the invariant and comes out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order: a host stretch from each boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]
/-- The program is the run of the segments. -/
theorem main_run (c : Dev nD) : main (F := F) c = Pipeline.Seg.run (segs m) := (main_chain c).trans (by chain_rfl)

end Run

open Run

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c =>
      show iprop(StableHlo.held (c : Thread nD τ) (Pipeline.ucRefs τ sig) (W7 m c) ∗ R c)
        ⊢ iprop(Tₙ m c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Fr

end
-- ==== Proof.Fr.Args.lean ====
/- The argument arrays at the program's last boundary are the launch memory: no host operation writes an argument and each kernel region changes only its own output array. -/
import proofs.«431026_j14723147891227_3_alg».proof.Proof.Fr.Bounds

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- An unscoped TensorCore reference is among those the run's last state is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A host stretch leaves a buffer none of its operations writes as it was. -/
local macro "keep_tac" : tactic => `(tactic| (
  refine StableHlo.after_of_forall_not_mem _ _ (List.forall_iff_forall_mem.mp ?_)
  simp only [hostOps0, hostOps1, hostOps2, hostOps3, List.Forall, StableHlo.nullary_writes, StableHlo.unary_writes, StableHlo.binary_writes,
    StableHlo.reshape_writes, Finset.mem_singleton]
  repeat' apply And.intro
  all_goals exact StableHlo.devRef_ne_of_ne (by decide)))

theorem W7_main_arg0 (c : Dev nD) : W7 m c (Proc.devRef .tc main_arg0) = m ((c : Thread nD τ).loc main_arg0) :=
  calc W7 m c (Proc.devRef .tc main_arg0)
    _ = W6 m c (Proc.devRef .tc main_arg0) := by keep_tac
    _ = W5 m c (Proc.devRef .tc main_arg0) := W6_of_ne m c main_arg0 (by decide)
    _ = W4 m c (Proc.devRef .tc main_arg0) := by keep_tac
    _ = W3 m c (Proc.devRef .tc main_arg0) := W4_of_ne m c main_arg0 (by decide)
    _ = W2 m c (Proc.devRef .tc main_arg0) := by keep_tac
    _ = W1 m c (Proc.devRef .tc main_arg0) := W2_of_ne m c main_arg0 (by decide)
    _ = W0 m c (Proc.devRef .tc main_arg0) := by keep_tac
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := by keep_tac
    _ = W5 m c (Proc.devRef .tc main_arg1) := W6_of_ne m c main_arg1 (by decide)
    _ = W4 m c (Proc.devRef .tc main_arg1) := by keep_tac
    _ = W3 m c (Proc.devRef .tc main_arg1) := W4_of_ne m c main_arg1 (by decide)
    _ = W2 m c (Proc.devRef .tc main_arg1) := by keep_tac
    _ = W1 m c (Proc.devRef .tc main_arg1) := W2_of_ne m c main_arg1 (by decide)
    _ = W0 m c (Proc.devRef .tc main_arg1) := by keep_tac
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := by keep_tac
    _ = W5 m c (Proc.devRef .tc main_arg2) := W6_of_ne m c main_arg2 (by decide)
    _ = W4 m c (Proc.devRef .tc main_arg2) := by keep_tac
    _ = W3 m c (Proc.devRef .tc main_arg2) := W4_of_ne m c main_arg2 (by decide)
    _ = W2 m c (Proc.devRef .tc main_arg2) := by keep_tac
    _ = W1 m c (Proc.devRef .tc main_arg2) := W2_of_ne m c main_arg2 (by decide)
    _ = W0 m c (Proc.devRef .tc main_arg2) := by keep_tac
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := by keep_tac
    _ = W5 m c (Proc.devRef .tc main_arg3) := W6_of_ne m c main_arg3 (by decide)
    _ = W4 m c (Proc.devRef .tc main_arg3) := by keep_tac
    _ = W3 m c (Proc.devRef .tc main_arg3) := W4_of_ne m c main_arg3 (by decide)
    _ = W2 m c (Proc.devRef .tc main_arg3) := by keep_tac
    _ = W1 m c (Proc.devRef .tc main_arg3) := W2_of_ne m c main_arg3 (by decide)
    _ = W0 m c (Proc.devRef .tc main_arg3) := by keep_tac
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := by keep_tac
    _ = W5 m c (Proc.devRef .tc main_arg4) := W6_of_ne m c main_arg4 (by decide)
    _ = W4 m c (Proc.devRef .tc main_arg4) := by keep_tac
    _ = W3 m c (Proc.devRef .tc main_arg4) := W4_of_ne m c main_arg4 (by decide)
    _ = W2 m c (Proc.devRef .tc main_arg4) := by keep_tac
    _ = W1 m c (Proc.devRef .tc main_arg4) := W2_of_ne m c main_arg4 (by decide)
    _ = W0 m c (Proc.devRef .tc main_arg4) := by keep_tac
    _ = m ((c : Thread nD τ).loc main_arg4) := rfl

end Cert.KernelIdeal.Fr

end
-- ==== Proof.Val.Spec.lean ====
/-
  The mathematics both programs compute, as plain functions on the extended reals over finite index tuples.
  A linear layer is a row of the input against a row of the weight plus a bias entry. One attention row is the
  softmax, over the keys, of the scaled scores of one query against every key, applied to one column of the values:
  each weight is exp (score - the row's largest score) over the sum of those exponentials. The online form visits the
  keys tile by tile and keeps a running maximum, a running denominator and a running numerator, rescaling the two sums
  by exp (old maximum - new maximum) at every tile; from -inf, 0, 0 it ends at numerator over denominator.
-/
import Idealize.ShloMosaic.PureOps.Ideal
import Mathlib.Algebra.BigOperators.Fin
import Mathlib.Order.CompleteLattice.Finset

noncomputable section

namespace Cert.KernelIdeal.Spec

open Idealize.ShloMosaic

/-- A linear layer at row `r`, output feature `f`: the row of `x` against the row `f` of `w`, plus `b f`. -/
def lin {R K N : ℕ} (x : Fin R → Fin K → EReal) (w : Fin N → Fin K → EReal) (b : Fin N → EReal) (r : Fin R) (f : Fin N) : EReal :=
  (∑ k : Fin K, x r k * w f k) + b f

/-- The scaled score of the query `q` against key `mm`: their inner product over 8 (the square root of the head width 64). -/
def score {D M : ℕ} (q : Fin D → EReal) (k : Fin M → Fin D → EReal) (mm : Fin M) : EReal :=
  Ideal.div (∑ d : Fin D, q d * k mm d) 8

/-- The softmax of the scores `s` applied to the values `v`. -/
def softRow {M : ℕ} (s : Fin M → EReal) (v : Fin M → EReal) : EReal :=
  ∑ mm : Fin M, Ideal.div (Ideal.exp (s mm - Finset.univ.sup s)) (∑ mm' : Fin M, Ideal.exp (s mm' - Finset.univ.sup s)) * v mm

/-- One attention row: query `q`, keys `k`, values `v`, output column `d`. -/
def attRow {D M : ℕ} (q : Fin D → EReal) (k v : Fin M → Fin D → EReal) (d : Fin D) : EReal :=
  softRow (score q k) (fun mm => v mm d)

/-! ## The online form, over key positions counted in tiles of `B` -/

/-- The running maximum after `j` tiles. -/
def onlM (B : ℕ) (s : ℕ → EReal) : ℕ → EReal
  | 0 => ⊥
  | j + 1 => max (onlM B s j) ((Finset.range B).sup fun kk => s (j * B + kk))

/-- The running denominator after `j` tiles. -/
def onlL (B : ℕ) (s : ℕ → EReal) : ℕ → EReal
  | 0 => 0
  | j + 1 => Ideal.exp (onlM B s j - onlM B s (j + 1)) * onlL B s j
      + ∑ kk ∈ Finset.range B, Ideal.exp (s (j * B + kk) - onlM B s (j + 1))

/-- The running numerator after `j` tiles. -/
def onlA (B : ℕ) (s v : ℕ → EReal) : ℕ → EReal
  | 0 => 0
  | j + 1 => Ideal.exp (onlM B s j - onlM B s (j + 1)) * onlA B s v j
      + ∑ kk ∈ Finset.range B, Ideal.exp (s (j * B + kk) - onlM B s (j + 1)) * v (j * B + kk)

/-- A real sequence on the 2048 key positions, read at any position (0 beyond the last). -/
def ext (f : Fin 2048 → ℝ) (mm : ℕ) : EReal := if h : mm < 2048 then ((f ⟨mm, h⟩ : ℝ) : EReal) else 0

/-! ## Where a head sits in the fused feature axis and in the fused batch-head axis -/

/-- Feature `part · 1024 + head · 64 + d` of the 3072 fused q/k/v features. -/
def feat (part : Fin 3) (h : Fin 16) (d : Fin 64) : Fin 3072 := ⟨part.val * 1024 + h.val * 64 + d.val, by omega⟩
/-- Column `head · 64 + d` of the 1024 attention features. -/
def col (h : Fin 16) (d : Fin 64) : Fin 1024 := ⟨h.val * 64 + d.val, by omega⟩
/-- Row `batch · 2048 + n` of the 8192 flattened rows. -/
def row (bi : Fin 4) (n : Fin 2048) : Fin 8192 := ⟨bi.val * 2048 + n.val, by omega⟩
/-- Entry `batch · 16 + head` of the 64 fused batch-head entries. -/
def bh (bi : Fin 4) (h : Fin 16) : Fin 64 := ⟨bi.val * 16 + h.val, by omega⟩

/-! ## The whole function -/

/-- The fused q/k/v projection at batch `bi`, row `n`, feature `f`. -/
def qkvS (x : Fin 4 → Fin 2048 → Fin 1024 → EReal) (wq : Fin 3072 → Fin 1024 → EReal) (bq : Fin 3072 → EReal)
    (bi : Fin 4) (n : Fin 2048) (f : Fin 3072) : EReal :=
  (∑ k : Fin 1024, x bi n k * wq f k) + bq f

/-- Attention of head `h` at batch `bi`, query row `n`, column `d`, from the fused projection. -/
def attS (qkv : Fin 4 → Fin 2048 → Fin 3072 → EReal) (bi : Fin 4) (n : Fin 2048) (h : Fin 16) (d : Fin 64) : EReal :=
  attRow (fun d' => qkv bi n (feat 0 h d')) (fun mm d' => qkv bi mm (feat 1 h d')) (fun mm d' => qkv bi mm (feat 2 h d')) d

/-- The output projection at batch `bi`, row `n`, feature `o`, the heads' columns side by side. -/
def outS (att : Fin 4 → Fin 2048 → Fin 16 → Fin 64 → EReal) (wo : Fin 1024 → Fin 1024 → EReal) (bo : Fin 1024 → EReal)
    (bi : Fin 4) (n : Fin 2048) (o : Fin 1024) : EReal :=
  (∑ cc : Fin 1024, att bi n ⟨cc.val / 64, by omega⟩ ⟨cc.val % 64, by omega⟩ * wo o cc) + bo o

/-- Multi-head attention: projection, attention per head, output projection. -/
def full (x : Fin 4 → Fin 2048 → Fin 1024 → EReal) (wq : Fin 3072 → Fin 1024 → EReal) (bq : Fin 3072 → EReal)
    (wo : Fin 1024 → Fin 1024 → EReal) (bo : Fin 1024 → EReal) (bi : Fin 4) (n : Fin 2048) (o : Fin 1024) : EReal :=
  outS (attS (qkvS x wq bq)) wo bo bi n o

end Cert.KernelIdeal.Spec

end
-- ==== Proof.Val.Arr.lean ====
/- The arrays the three kernel regions read and write, each named at its literal shape over the extended reals. -/
import proofs.«431026_j14723147891227_3_alg».proof.Proof.Fr.Data
import proofs.«431026_j14723147891227_3_alg».proof.Proof.Val.Spec
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec
variable (V : (c : Dev nD) → (b : Ref sig .tc) → Buf (Elt Ideal) ((c : Thread nD τ).loc b))

/-- The QKV projection's input rows, its transposed weight, its bias row, and what it leaves in its output array. -/
abbrev aX (c : Dev nD) : S8192x1024.Idx → EReal := V c main_v0
abbrev aWq (c : Dev nD) : S1024x3072.Idx → EReal := V c main_v2
abbrev aBq (c : Dev nD) : S1x3072.Idx → EReal := V c main_v3
abbrev oQkv (c : Dev nD) : S8192x3072.Idx → EReal := (dat0 V c).arrAt 3 cfg0.N
/-- The attention region's one input array (q, k, v by part and batch-head) and what it leaves in its output array. -/
abbrev aQkv (c : Dev nD) : S3x64x2048x64.Idx → EReal := V c main_v7
abbrev oAtt (c : Dev nD) : S4x2048x16x64.Idx → EReal := (dat1 V c).arrAt 3 cfg1.N
/-- The output projection's input rows, its transposed weight, its bias row, and what it leaves in its output array. -/
abbrev aAtt (c : Dev nD) : S8192x1024.Idx → EReal := V c main_v9
abbrev aWo (c : Dev nD) : S1024x1024.Idx → EReal := V c main_v11
abbrev aBo (c : Dev nD) : S1x1024.Idx → EReal := V c main_v12
abbrev oOut (c : Dev nD) : S8192x1024.Idx → EReal := (dat2 V c).arrAt 3 cfg2.N

end Cert.KernelIdeal.Val

end
-- ==== Proof.Val.K0.lean ====
/- What the QKV projection leaves in its output array: each entry is the row of the input against the column of the transposed weight, plus the bias row's entry. -/
import proofs.«431026_j14723147891227_3_alg».proof.Proof.Val.Arr
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec
variable (V : (c : Dev nD) → (b : Ref sig .tc) → Buf (Elt Ideal) ((c : Thread nD τ).loc b))

/-! ## The body's stored value at an index

On the extended reals a change of format and a cast between equal shapes are the identity, the product into the zero
accumulator is the sum over the contracted axis, and the bias row is repeated down the rows. -/

/-- The product's operand indices at output index i and contraction index q: the left operand at (row of i, q), -/
theorem mm_lhs_0 (i : S1024x3072.Idx) (q : dot_S1024x1024_S1024x3072_S1024x3072_1_0_0_1_n_n.contr.Idx) :
    (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
  rfl
theorem mm_lhs_1 (i : S1024x3072.Idx) (q : dot_S1024x1024_S1024x3072_S1024x3072_1_0_0_1_n_n.contr.Idx) :
    (dot_S1024x1024_S1024x3072_S1024x3072_1_0_0_1_n_n.lhsIdx i q 1).val = (q ⟨0, by decide⟩).val :=
  dot_S1024x1024_S1024x3072_S1024x3072_1_0_0_1_n_n.lhsIdx_val_of_single rfl i q
/-- the right operand at (q, column of i). -/
theorem mm_rhs_0 (i : S1024x3072.Idx) (q : dot_S1024x1024_S1024x3072_S1024x3072_1_0_0_1_n_n.contr.Idx) :
    (dot_S1024x1024_S1024x3072_S1024x3072_1_0_0_1_n_n.rhsIdx i q 0).val = (q ⟨0, by decide⟩).val :=
  dot_S1024x1024_S1024x3072_S1024x3072_1_0_0_1_n_n.rhsIdx_val_of_single rfl i q
theorem mm_rhs_1 (i : S1024x3072.Idx) (q : dot_S1024x1024_S1024x3072_S1024x3072_1_0_0_1_n_n.contr.Idx) :
    (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
  rfl

/-- The product into the zero accumulator, at (p, q): the row p of the left operand against the column q of the right. -/
theorem mm_apply (a : S1024x1024.Idx → EReal) (b : S1024x3072.Idx → EReal) (p : Fin 1024) (q : Fin 3072) :
    FloatOps.matmul (F := Ideal) (φ₁ := .bf16) (φ₂ := .bf16) dot_S1024x1024_S1024x3072_S1024x3072_1_0_0_1_n_n none a b (constant (F := Ideal) S1024x3072 .f32 0x00000000#32) (ix2 p q)
      = ∑ k : Fin 1024, a (ix2 p k) * b (ix2 k q) := by
  rw [Ideal.matmul_constant_zero_apply, ← Equiv.sum_comp (contrEquiv1 dot_S1024x1024_S1024x3072_S1024x3072_1_0_0_1_n_n 1024 rfl rfl).symm]
  refine Finset.sum_congr rfl fun k _ => ?_
  have hk := contrEquiv1_symm_val dot_S1024x1024_S1024x3072_S1024x3072_1_0_0_1_n_n 1024 rfl rfl k
  have el : dot_S1024x1024_S1024x3072_S1024x3072_1_0_0_1_n_n.lhsIdx (ix2 p q) ((contrEquiv1 dot_S1024x1024_S1024x3072_S1024x3072_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S1024x1024_S1024x3072_S1024x3072_1_0_0_1_n_n.rhsIdx (ix2 p q) ((contrEquiv1 dot_S1024x1024_S1024x3072_S1024x3072_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-- The bias row repeated down the rows, at (p, q): the row's entry q. -/
theorem bias_apply (b : S1x3072.Idx → EReal) (p : Fin 1024) (q : Fin 3072) :
    broadcastTo S1024x3072 b broadcasts_S1x3072_S1024x3072 (ix2 p q) = b (ix2 0 q) :=
  broadcastTo_apply b broadcasts_S1x3072_S1024x3072 (ix2 p q) (ix2 0 q) (fun a => by
    match a with
    | ⟨0, _⟩ => rfl
    | ⟨1, _⟩ => rfl)

/-- The body's stored value at (p, q): row p of the rows' block against column q of the weight's block, plus the bias
    row's entry q. -/
theorem pay_apply (x0 : S1024x1024.Idx → EReal) (x1 : S1024x3072.Idx → EReal) (x2 : S1x3072.Idx → EReal) (p : Fin 1024) (q : Fin 3072) :
    k0_pay1 (F := Ideal) x0 x1 x2 (ix2 p q) = (∑ k : Fin 1024, x0 (ix2 p k) * x1 (ix2 k q)) + x2 (ix2 0 q) := by
  unfold k0_pay1
  simp only [shapeCast_self]
  rw [truncf_apply, addf_apply, bias_apply]
  exact congrArg (· + x2 (ix2 0 q)) (mm_apply _ _ p q)

/-! ## From blocks to the array

The grid is 8 × 1. Point t reads rows 1024·t … 1024·t + 1023 of the input (all 1024 columns), the whole weight and
the whole bias row, and writes back rows 1024·t … 1024·t + 1023 of the output (all 3072 columns). -/

/-- What the output array ends holding: the row of the input against the column of the weight, plus the bias entry. -/
abbrev qkvOf (x : S8192x1024.Idx → EReal) (w : S1024x3072.Idx → EReal) (b : S1x3072.Idx → EReal) : S8192x3072.Idx → EReal :=
  fun i => (∑ k : Fin 1024, x (ix2 (i 0) k) * w (ix2 k (i 1))) + b (ix2 0 (i 1))

/-- The block indices of the four windows, decided over the grid's 8 points: the rows' and the output's blocks move
    down with the point, the weight's and the bias's stay. -/
theorem blk_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The rows' block at point t is rows 1024·t … of the input. -/
theorem blkX_apply (c : Dev nD) (t : Fin cfg0.N) (x : S1024x1024.Idx) (k : S8192x1024.Idx)
    (hk0 : (k 0).val = 1024 * t.val + (x 0).val) (hk1 : (k 1).val = (x 1).val) :
    (iblk0 V c 0 t : S1024x1024.Idx → EReal) x = aX V c k := by
  obtain ⟨e0, e1, -⟩ := blk_idx t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The weight's block at every point is the weight. -/
theorem blkW_apply (c : Dev nD) (t : Fin cfg0.N) (x : S1024x3072.Idx) :
    (iblk0 V c 1 t : S1024x3072.Idx → EReal) x = aWq V c x := by
  obtain ⟨-, -, e0, e1, -⟩ := blk_idx t
  unfold iblk0
  rw [View.read_apply]
  show V c main_v2 _ = V c main_v2 _
  congr 1
  funext a
  apply Fin.ext
  match a with
  | ⟨0, _⟩ => show win0_1.index t (0 : Fin 2) * 1024 + 1 * (x 0).val = (x 0).val; rw [e0]; omega
  | ⟨1, _⟩ => show win0_1.index t (1 : Fin 2) * 3072 + 1 * (x 1).val = (x 1).val; rw [e1]; omega

/-- The bias's block at every point is the bias row. -/
theorem blkB_apply (c : Dev nD) (t : Fin cfg0.N) (x : S1x3072.Idx) :
    (iblk0 V c 2 t : S1x3072.Idx → EReal) x = aBq V c x := by
  obtain ⟨-, -, -, -, e0, e1, -⟩ := blk_idx t
  unfold iblk0
  rw [View.read_apply]
  show V c main_v3 _ = V c main_v3 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-- What point t writes back is block t of the closed form. -/
theorem flushed_qkv (c : Dev nD) (t : Fin cfg0.N) :
    (dat0 V c).flushed 3 t = ((cfg0.win 3).blk t).view.read (Elt Ideal) (qkvOf (aX V c) (aWq V c) (aBq V c)) := by
  show (cfg0.win 3).cut (grid0.coords t) ((dat0 V c).after 3 t) = _
  rw [after0_3]
  obtain ⟨-, -, -, -, -, -, e0, e1⟩ := blk_idx t
  funext j
  obtain ⟨p, q, rfl⟩ : ∃ (p : Fin 1024) (q : Fin 3072), j = ix2 p q := ⟨j 0, j 1, eq_ix2 j⟩
  rw [View.read_apply]
  show k0_pay1 (F := Ideal) (iblk0 V c 0 t) (iblk0 V c 1 t) (iblk0 V c 2 t) (ix2 p q) = qkvOf (aX V c) (aWq V c) (aBq V c) (((cfg0.win 3).blk t).view.emb (ix2 p q))
  rw [pay_apply]
  have hr : ((((cfg0.win 3).blk t).view.emb (ix2 p q)) 0).val = 1024 * t.val + p.val := by
    show win0_3.index t (0 : Fin 2) * 1024 + 1 * p.val = _; rw [e0]; omega
  have hc : ((((cfg0.win 3).blk t).view.emb (ix2 p q)) 1).val = q.val := by
    show win0_3.index t (1 : Fin 2) * 3072 + 1 * q.val = _; rw [e1]; omega
  have hq : (((cfg0.win 3).blk t).view.emb (ix2 p q)) 1 = q := Fin.ext hc
  show _ = (∑ k : Fin 1024, aX V c (ix2 ((((cfg0.win 3).blk t).view.emb (ix2 p q)) 0) k) * aWq V c (ix2 k ((((cfg0.win 3).blk t).view.emb (ix2 p q)) 1))) + aBq V c (ix2 0 ((((cfg0.win 3).blk t).view.emb (ix2 p q)) 1))
  rw [hq, blkB_apply]
  refine congrArg (· + aBq V c (ix2 0 q)) (Finset.sum_congr rfl fun k _ => ?_)
  rw [blkW_apply, blkX_apply V c t (ix2 p k) (ix2 ((((cfg0.win 3).blk t).view.emb (ix2 p q)) 0) k) hr rfl]

/-- An index of the output array is in point t's block iff each coordinate is in the block's range on its axis. -/
theorem mem_blk_out (t : Fin cfg0.N) (i : S8192x3072.Idx) :
    i ∈ ((cfg0.win 3).blk t).view.set ↔ ∀ a : Fin 2, win0_3.index t a * S1024x3072.size a ≤ (i a).val ∧ (i a).val < win0_3.index t a * S1024x3072.size a + S1024x3072.size a := by
  show i ∈ ((View.whole main_v4).slice (win0_3.rect t)).set ↔ _
  rw [View.set_slice_whole, Rect.mem_set_unit]
  exact Iff.rfl

/-- Every index of the output array is in some point's block: row r is in point r / 1024's. -/
theorem covered_out (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  have hN : cfg0.N = 8 := N_0
  refine ⟨⟨(i 0).val / 1024, by rw [hN]; omega⟩, flush0_3 _, ?_⟩
  rw [mem_blk_out]
  obtain ⟨-, -, -, -, -, -, e0, e1⟩ := blk_idx ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 3072 ≤ (i 1).val ∧ (i 1).val < win0_3.index _ (1 : Fin 2) * 3072 + 3072
    rw [e1]; omega

/-- So the output array ends holding the closed form. -/
theorem arr_qkv (c : Dev nD) : (dat0 V c).arrAt 3 cfg0.N = qkvOf (aX V c) (aWq V c) (aBq V c) :=
  (dat0 V c).arrAt_eq_of_cover 3 (qkvOf (aX V c) (aWq V c) (aBq V c)) (fun t _ => flushed_qkv V c t) covered_out

theorem qkv_arr (c : Dev nD) (r : Fin 8192) (f : Fin 3072) :
    oQkv V c (ix2 r f) = (∑ k : Fin 1024, aX V c (ix2 r k) * aWq V c (ix2 k f)) + aBq V c (ix2 0 f) :=
  congrFun (arr_qkv V c) (ix2 r f)

end Cert.KernelIdeal.Val

end
-- ==== Proof.Val.AttnStep.lean ====
/- One online-softmax step of the attention body, read entry by entry on the extended reals. -/
import proofs.«431026_j14723147891227_3_alg».proof.Proof.Fr.Data
import proofs.«431026_j14723147891227_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec

variable (q k v : Vec Ideal S1x16x256x64 .bf16) (s : St1 Ideal) (h : Fin 16) (r : Fin 256)

/-- The body's score of query row `r` of head `h` against key row `kk` of the tile: the query entries scaled by the
    literal 0.125 before the inner product. -/
def sc (q k : Vec Ideal S1x16x256x64 .bf16) (h : Fin 16) (r : Fin 256) (kk : Fin 256) : EReal :=
  ∑ d : Fin 64, ((q (ix4 0 h r d) : EReal) * Ideal.ofBits .f32 0x3E000000#32) * (k (ix4 0 h kk d) : EReal)

/-- The literal 0.125 is the real 1/8. -/
theorem ofBits_eighth : Ideal.ofBits .f32 0x3E000000#32 = (((1 / 8 : ℝ) : ℝ) : EReal) := by
  simp [Ideal.ofBits, Ideal.ieee, -EReal.coe_mul] <;> norm_num

namespace StepVal

/-! ## The literals -/

/-- The word 0xFF800000 is minus infinity, the least extended real. -/
theorem ofBits_neg_inf : Ideal.ofBits .f32 0xFF800000#32 = ⊥ := by
  simp [Ideal.ofBits, Ideal.ieee]

/-- A fold of `max` from the least element is the supremum. -/
theorem fold_max_bot {ι : Type} (t : Finset ι) (f : ι → EReal) : t.fold max ⊥ f = t.sup f := by
  classical
  induction t using Finset.induction_on with
  | empty => rfl
  | insert a t ha ih => rw [Finset.fold_insert ha, Finset.sup_insert, ih]

/-! ## The layout operations of the body, read at an index -/

/-- A row-per-(head, query) vector given a trailing unit axis reads its (head, query) entry. -/
theorem cast_col_apply {α : Type} (x : (⟨2, ![16, 256]⟩ : Shape).Idx → α)
    (hc : (⟨2, ![16, 256]⟩ : Shape).ShapeCasts ⟨3, ![16, 256, 1]⟩) (h : Fin 16) (r : Fin 256) (u : Fin 1) :
    shapeCast ⟨3, ![16, 256, 1]⟩ x hc (ix3 h r u) = x (ix2 h r) :=
  shapeCast_apply x hc _ _ (by
    have hu : u.val = 0 := by omega
    rw [Shape.rowMajor_val_two, Shape.rowMajor_val_three]
    show h.val * 256 + r.val = (h.val * 256 + r.val) * 1 + u.val
    omega)

/-- A column broadcast along the key axis reads the column's entry. -/
theorem bcast_keys_apply {α : Type} (x : (⟨3, ![16, 256, 1]⟩ : Shape).Idx → α)
    (hb : (⟨3, ![16, 256, 1]⟩ : Shape).Broadcasts ⟨3, ![16, 256, 256]⟩) (h : Fin 16) (r : Fin 256) (kk : Fin 256) :
    broadcastTo ⟨3, ![16, 256, 256]⟩ x hb (ix3 h r kk) = x (ix3 h r 0) :=
  broadcastTo_apply x hb _ _ (fun a => match a with
    | ⟨0, _⟩ => by show h.val = if (16 : Nat) = 1 then 0 else h.val; rw [if_neg (by decide)]
    | ⟨1, _⟩ => by show r.val = if (256 : Nat) = 1 then 0 else r.val; rw [if_neg (by decide)]
    | ⟨2, _⟩ => by show 0 = if (1 : Nat) = 1 then 0 else kk.val; rw [if_pos rfl])

/-- A column broadcast along the feature axis reads the column's entry. -/
theorem bcast_feat_apply {α : Type} (x : (⟨3, ![16, 256, 1]⟩ : Shape).Idx → α)
    (hb : (⟨3, ![16, 256, 1]⟩ : Shape).Broadcasts ⟨3, ![16, 256, 64]⟩) (h : Fin 16) (r : Fin 256) (d : Fin 64) :
    broadcastTo ⟨3, ![16, 256, 64]⟩ x hb (ix3 h r d) = x (ix3 h r 0) :=
  broadcastTo_apply x hb _ _ (fun a => match a with
    | ⟨0, _⟩ => by show h.val = if (16 : Nat) = 1 then 0 else h.val; rw [if_neg (by decide)]
    | ⟨1, _⟩ => by show r.val = if (256 : Nat) = 1 then 0 else r.val; rw [if_neg (by decide)]
    | ⟨2, _⟩ => by show 0 = if (1 : Nat) = 1 then 0 else d.val; rw [if_pos rfl])

/-- Heads and rows exchanged: the entry at (row, head, feature) is the operand's at (head, row, feature). -/
theorem transpose_heads_apply {α : Type} (x : (⟨3, ![16, 256, 64]⟩ : Shape).Idx → α)
    (ht : (⟨3, ![16, 256, 64]⟩ : Shape).Transposes [1, 0, 2] ⟨3, ![256, 16, 64]⟩) (h : Fin 16) (r : Fin 256) (d : Fin 64) :
    transpose ⟨3, ![256, 16, 64]⟩ [1, 0, 2] x ht (ix3 r h d) = x (ix3 h r d) :=
  transpose_apply _ x ht _ _ fun c => match c with | ⟨0, _⟩ => rfl | ⟨1, _⟩ => rfl | ⟨2, _⟩ => rfl

/-! ## The two batched products of the body, read at an index

The score product contracts the feature axis of queries [head, query, feature] and keys [head, key, feature] into
[head, query, key]; the value product contracts the key axis of weights [head, query, key] and values
[head, key, feature] into [head, query, feature]. The head axis is a batch axis of both. -/

theorem lhs_qk_0 (i : S16x256x256.Idx) (c : dot_S16x256x64_S16x256x64_S16x256x256_2_2_1_1_0_0.contr.Idx) :
    (dot_S16x256x64_S16x256x64_S16x256x256_2_2_1_1_0_0.lhsIdx i c 0).val = (i 0).val := by
  unfold DotDims.lhsIdx
  rw [dif_pos (show (0 : Fin S16x256x64.rank) ∈ dot_S16x256x64_S16x256x64_S16x256x256_2_2_1_1_0_0.lhsBatch by decide)]
  rfl
theorem lhs_qk_1 (i : S16x256x256.Idx) (c : dot_S16x256x64_S16x256x64_S16x256x256_2_2_1_1_0_0.contr.Idx) :
    (dot_S16x256x64_S16x256x64_S16x256x256_2_2_1_1_0_0.lhsIdx i c 1).val = (i 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem lhs_qk_2 (i : S16x256x256.Idx) (c : dot_S16x256x64_S16x256x64_S16x256x256_2_2_1_1_0_0.contr.Idx) :
    (dot_S16x256x64_S16x256x64_S16x256x256_2_2_1_1_0_0.lhsIdx i c 2).val = (c ⟨0, by decide⟩).val :=
  dot_S16x256x64_S16x256x64_S16x256x256_2_2_1_1_0_0.lhsIdx_val_of_single rfl i c
theorem rhs_qk_0 (i : S16x256x256.Idx) (c : dot_S16x256x64_S16x256x64_S16x256x256_2_2_1_1_0_0.contr.Idx) :
    (dot_S16x256x64_S16x256x64_S16x256x256_2_2_1_1_0_0.rhsIdx i c 0).val = (i 0).val := by
  unfold DotDims.rhsIdx
  rw [dif_pos (show (0 : Fin S16x256x64.rank) ∈ dot_S16x256x64_S16x256x64_S16x256x256_2_2_1_1_0_0.rhsBatch by decide)]
  rfl
theorem rhs_qk_1 (i : S16x256x256.Idx) (c : dot_S16x256x64_S16x256x64_S16x256x256_2_2_1_1_0_0.contr.Idx) :
    (dot_S16x256x64_S16x256x64_S16x256x256_2_2_1_1_0_0.rhsIdx i c 1).val = (i 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem rhs_qk_2 (i : S16x256x256.Idx) (c : dot_S16x256x64_S16x256x64_S16x256x256_2_2_1_1_0_0.contr.Idx) :
    (dot_S16x256x64_S16x256x64_S16x256x256_2_2_1_1_0_0.rhsIdx i c 2).val = (c ⟨0, by decide⟩).val :=
  dot_S16x256x64_S16x256x64_S16x256x256_2_2_1_1_0_0.rhsIdx_val_of_single rfl i c

/-- The score product into the zero accumulator: at (head, query, key) the inner product over the features. -/
theorem matmul_qk_apply (a b : FVec Ideal S16x256x64 .bf16) (h : Fin 16) (r kk : Fin 256) :
    matmul (F := Ideal) dot_S16x256x64_S16x256x64_S16x256x256_2_2_1_1_0_0 none a b (constant (F := Ideal) S16x256x256 .f32 0x00000000#32) (ix3 h r kk)
      = ∑ d : Fin 64, a (ix3 h r d) * b (ix3 h kk d) := by
  simp only [matmul]
  rw [Ideal.matmul_constant_zero_apply, ← Equiv.sum_comp (ValueIdx.contrEquiv1 dot_S16x256x64_S16x256x64_S16x256x256_2_2_1_1_0_0 64 rfl rfl).symm]
  refine Finset.sum_congr rfl fun d _ => ?_
  have hk := ValueIdx.contrEquiv1_symm_val dot_S16x256x64_S16x256x64_S16x256x256_2_2_1_1_0_0 64 rfl rfl d
  have el : dot_S16x256x64_S16x256x64_S16x256x256_2_2_1_1_0_0.lhsIdx (ix3 h r kk) ((ValueIdx.contrEquiv1 dot_S16x256x64_S16x256x64_S16x256x256_2_2_1_1_0_0 64 rfl rfl).symm d) = ix3 h r d := funext fun a => Fin.ext (by
    match a with
    | ⟨0, _⟩ => exact lhs_qk_0 _ _
    | ⟨1, _⟩ => exact lhs_qk_1 _ _
    | ⟨2, _⟩ => exact (lhs_qk_2 _ _).trans hk)
  have er : dot_S16x256x64_S16x256x64_S16x256x256_2_2_1_1_0_0.rhsIdx (ix3 h r kk) ((ValueIdx.contrEquiv1 dot_S16x256x64_S16x256x64_S16x256x256_2_2_1_1_0_0 64 rfl rfl).symm d) = ix3 h kk d := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pv_0 (i : S16x256x64.Idx) (c : dot_S16x256x256_S16x256x64_S16x256x64_2_1_1_2_0_0.contr.Idx) :
    (dot_S16x256x256_S16x256x64_S16x256x64_2_1_1_2_0_0.lhsIdx i c 0).val = (i 0).val := by
  unfold DotDims.lhsIdx
  rw [dif_pos (show (0 : Fin S16x256x256.rank) ∈ dot_S16x256x256_S16x256x64_S16x256x64_2_1_1_2_0_0.lhsBatch by decide)]
  rfl
theorem lhs_pv_1 (i : S16x256x64.Idx) (c : dot_S16x256x256_S16x256x64_S16x256x64_2_1_1_2_0_0.contr.Idx) :
    (dot_S16x256x256_S16x256x64_S16x256x64_2_1_1_2_0_0.lhsIdx i c 1).val = (i 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem lhs_pv_2 (i : S16x256x64.Idx) (c : dot_S16x256x256_S16x256x64_S16x256x64_2_1_1_2_0_0.contr.Idx) :
    (dot_S16x256x256_S16x256x64_S16x256x64_2_1_1_2_0_0.lhsIdx i c 2).val = (c ⟨0, by decide⟩).val :=
  dot_S16x256x256_S16x256x64_S16x256x64_2_1_1_2_0_0.lhsIdx_val_of_single rfl i c
theorem rhs_pv_0 (i : S16x256x64.Idx) (c : dot_S16x256x256_S16x256x64_S16x256x64_2_1_1_2_0_0.contr.Idx) :
    (dot_S16x256x256_S16x256x64_S16x256x64_2_1_1_2_0_0.rhsIdx i c 0).val = (i 0).val := by
  unfold DotDims.rhsIdx
  rw [dif_pos (show (0 : Fin S16x256x64.rank) ∈ dot_S16x256x256_S16x256x64_S16x256x64_2_1_1_2_0_0.rhsBatch by decide)]
  rfl
theorem rhs_pv_1 (i : S16x256x64.Idx) (c : dot_S16x256x256_S16x256x64_S16x256x64_2_1_1_2_0_0.contr.Idx) :
    (dot_S16x256x256_S16x256x64_S16x256x64_2_1_1_2_0_0.rhsIdx i c 1).val = (c ⟨0, by decide⟩).val :=
  dot_S16x256x256_S16x256x64_S16x256x64_2_1_1_2_0_0.rhsIdx_val_of_single rfl i c
theorem rhs_pv_2 (i : S16x256x64.Idx) (c : dot_S16x256x256_S16x256x64_S16x256x64_2_1_1_2_0_0.contr.Idx) :
    (dot_S16x256x256_S16x256x64_S16x256x64_2_1_1_2_0_0.rhsIdx i c 2).val = (i 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-- The value product into the zero accumulator: at (head, query, feature) the sum over the keys. -/
theorem matmul_pv_apply (a : FVec Ideal S16x256x256 .bf16) (b : FVec Ideal S16x256x64 .bf16) (h : Fin 16) (r : Fin 256) (d : Fin 64) :
    matmul (F := Ideal) dot_S16x256x256_S16x256x64_S16x256x64_2_1_1_2_0_0 none a b (constant (F := Ideal) S16x256x64 .f32 0x00000000#32) (ix3 h r d)
      = ∑ kk : Fin 256, a (ix3 h r kk) * b (ix3 h kk d) := by
  simp only [matmul]
  rw [Ideal.matmul_constant_zero_apply, ← Equiv.sum_comp (ValueIdx.contrEquiv1 dot_S16x256x256_S16x256x64_S16x256x64_2_1_1_2_0_0 256 rfl rfl).symm]
  refine Finset.sum_congr rfl fun kk _ => ?_
  have hk := ValueIdx.contrEquiv1_symm_val dot_S16x256x256_S16x256x64_S16x256x64_2_1_1_2_0_0 256 rfl rfl kk
  have el : dot_S16x256x256_S16x256x64_S16x256x64_2_1_1_2_0_0.lhsIdx (ix3 h r d) ((ValueIdx.contrEquiv1 dot_S16x256x256_S16x256x64_S16x256x64_2_1_1_2_0_0 256 rfl rfl).symm kk) = ix3 h r kk := funext fun a => Fin.ext (by
    match a with
    | ⟨0, _⟩ => exact lhs_pv_0 _ _
    | ⟨1, _⟩ => exact lhs_pv_1 _ _
    | ⟨2, _⟩ => exact (lhs_pv_2 _ _).trans hk)
  have er : dot_S16x256x256_S16x256x64_S16x256x64_2_1_1_2_0_0.rhsIdx (ix3 h r d) ((ValueIdx.contrEquiv1 dot_S16x256x256_S16x256x64_S16x256x64_2_1_1_2_0_0 256 rfl rfl).symm kk) = ix3 h kk d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## The body's values at an index -/

/-- The score block is the body's score. -/
theorem pay9_apply (q k : Vec Ideal S1x16x256x64 .bf16) (h : Fin 16) (r kk : Fin 256) :
    (k1_pay9 q k (ix3 h r kk) : EReal) = sc q k h r kk := by
  simp only [k1_pay9, sc]
  rw [matmul_qk_apply]
  refine Finset.sum_congr rfl fun d _ => ?_
  rw [truncf_apply, mulf_apply, extf_apply, broadcast_apply, shapeCast_1abc_abc_apply, shapeCast_1abc_abc_apply]
  rfl

/-- The new running maximum: the old one against the largest score of the tile. -/
theorem pay10_apply (q k : Vec Ideal S1x16x256x64 .bf16) (m : Vec Ideal S16x256x1 .f32) (h : Fin 16) (r : Fin 256) :
    (k1_pay10 q k m (ix3 h r 0) : EReal) = max (m (ix3 h r 0) : EReal) (Finset.univ.sup (sc q k h r)) := by
  simp only [k1_pay10]
  rw [maximumf_apply, cast_col_apply]
  refine congrArg (fun z : EReal => max (m (ix3 h r 0) : EReal) z) ?_
  refine (Ideal.multiReduction_maximumf_single (k1_pay9 q k) 0xFF800000#32 reduces_S16x256x256_S16x256 (.inl rfl) rfl (ix2 h r)).trans ?_
  rw [Ideal.ofBits_def, ofBits_neg_inf, fold_max_bot]
  show (Finset.univ : Finset (Fin 256)).sup (fun kk => k1_pay9 q k (reduces_S16x256x256_S16x256.lift (ix2 h r) kk)) = _
  refine congrArg (Finset.univ.sup) (funext fun kk => ?_)
  rw [show reduces_S16x256x256_S16x256.lift (ix2 h r) kk = ix3 h r kk from
    funext fun a => Fin.ext (by match a with | ⟨0, _⟩ => rfl | ⟨1, _⟩ => rfl | ⟨2, _⟩ => rfl)]
  exact pay9_apply q k h r kk

/-- The rescaling factor: exp (old maximum - new maximum). -/
theorem pay11_apply (q k : Vec Ideal S1x16x256x64 .bf16) (m m' : Vec Ideal S16x256x1 .f32) (h : Fin 16) (r : Fin 256) :
    (k1_pay11 q k m m' (ix3 h r 0) : EReal)
      = Ideal.exp ((m' (ix3 h r 0) : EReal) - (k1_pay10 q k m (ix3 h r 0) : EReal)) := rfl

/-- The tile's weights: exp (score - new maximum). -/
theorem pay12_apply (q k : Vec Ideal S1x16x256x64 .bf16) (m : Vec Ideal S16x256x1 .f32) (h : Fin 16) (r kk : Fin 256) :
    (k1_pay12 q k m (ix3 h r kk) : EReal) = Ideal.exp (sc q k h r kk - (k1_pay10 q k m (ix3 h r 0) : EReal)) := by
  simp only [k1_pay12]
  show Ideal.exp ((k1_pay9 q k (ix3 h r kk) : EReal)
    - broadcastTo S16x256x256 (k1_pay10 q k m) broadcasts_S16x256x1_S16x256x256 (ix3 h r kk)) = _
  rw [pay9_apply, bcast_keys_apply]

/-- The new running denominator: the old one rescaled plus the tile's weights summed over the keys. -/
theorem pay13_apply (q k : Vec Ideal S1x16x256x64 .bf16) (m m' l : Vec Ideal S16x256x1 .f32) (h : Fin 16) (r : Fin 256) :
    (k1_pay13 q k m m' l (ix3 h r 0) : EReal)
      = (k1_pay11 q k m m' (ix3 h r 0) : EReal) * (l (ix3 h r 0) : EReal) + ∑ kk : Fin 256, (k1_pay12 q k m (ix3 h r kk) : EReal) := by
  simp only [k1_pay13]
  rw [addf_apply, mulf_apply, cast_col_apply]
  refine congrArg (fun z : EReal => (k1_pay11 q k m m' (ix3 h r 0) : EReal) * (l (ix3 h r 0) : EReal) + z) ?_
  refine (Ideal.multiReduction_add_single (k1_pay12 q k m) 0x00000000#32 reduces_S16x256x256_S16x256 (.inl rfl) rfl (ix2 h r)).trans ?_
  refine Finset.sum_congr rfl fun kk _ => ?_
  exact congrArg (k1_pay12 q k m) (funext fun a => Fin.ext (by match a with | ⟨0, _⟩ => rfl | ⟨1, _⟩ => rfl | ⟨2, _⟩ => rfl))

/-- The new running numerator: the old one rescaled plus the tile's weights against the value column. -/
theorem pay2_apply (vv : FVec Ideal S16x256x64 .bf16) (e : FVec Ideal S16x256x1 .f32) (p : FVec Ideal S16x256x256 .f32)
    (a : Vec Ideal S16x256x64 .f32) (h : Fin 16) (r : Fin 256) (d : Fin 64) :
    (k1_pay2 vv e p a (ix3 h r d) : EReal)
      = (e (ix3 h r 0) : EReal) * (a (ix3 h r d) : EReal) + ∑ kk : Fin 256, (p (ix3 h r kk) : EReal) * (vv (ix3 h kk d) : EReal) := by
  simp only [k1_pay2]
  rw [shapeCast_self, addf_apply, mulf_apply, bcast_feat_apply, matmul_pv_apply]
  rfl

/-- The two stores of a column as it stands are shape casts to the same shape. -/
theorem pay3_eq (x : FVec Ideal S16x256x1 .f32) : k1_pay3 x = x := shapeCast_self x _
theorem pay1_eq (x : FVec Ideal S16x256x1 .f32) : k1_pay1 x = x := shapeCast_self x _

/-- The step's first component is the new running maximum as the body computes it. -/
theorem step1_fst : (step1 q k v s).1 = k1_pay10 q k s.1 := by
  show k1_pay3 (k1_pay10 q k s.1) = _
  exact pay3_eq _

end StepVal

open StepVal

/-! ## One step, the reset values and the output block -/

theorem step1_m : ((step1 q k v s).1 (ix3 h r 0) : EReal) = max (s.1 (ix3 h r 0) : EReal) (Finset.univ.sup (sc q k h r)) := by
  rw [step1_fst]
  exact pay10_apply q k s.1 h r

theorem step1_l : ((step1 q k v s).2.1 (ix3 h r 0) : EReal)
    = Ideal.exp ((s.1 (ix3 h r 0) : EReal) - ((step1 q k v s).1 (ix3 h r 0) : EReal)) * (s.2.1 (ix3 h r 0) : EReal)
      + ∑ kk : Fin 256, Ideal.exp (sc q k h r kk - ((step1 q k v s).1 (ix3 h r 0) : EReal)) := by
  rw [step1_fst]
  have e : (step1 q k v s).2.1 = k1_pay13 q k s.1 s.1 s.2.1 := by
    show k1_pay1 (k1_pay13 q k s.1 s.1 s.2.1) = _
    exact pay1_eq _
  rw [e, pay13_apply, pay11_apply]
  refine congrArg (fun z : EReal => Ideal.exp ((s.1 (ix3 h r 0) : EReal) - (k1_pay10 q k s.1 (ix3 h r 0) : EReal)) * (s.2.1 (ix3 h r 0) : EReal) + z)
    (Finset.sum_congr rfl fun kk _ => ?_)
  exact pay12_apply q k s.1 h r kk

theorem step1_a (d : Fin 64) : ((step1 q k v s).2.2 (ix3 h r d) : EReal)
    = Ideal.exp ((s.1 (ix3 h r 0) : EReal) - ((step1 q k v s).1 (ix3 h r 0) : EReal)) * (s.2.2 (ix3 h r d) : EReal)
      + ∑ kk : Fin 256, Ideal.exp (sc q k h r kk - ((step1 q k v s).1 (ix3 h r 0) : EReal)) * (v (ix4 0 h kk d) : EReal) := by
  rw [step1_fst]
  have e : (step1 q k v s).2.2 = k1_pay2 (k1_pay8 v) (k1_pay11 q k s.1 s.1) (k1_pay12 q k s.1) s.2.2 := rfl
  rw [e, pay2_apply, pay11_apply]
  refine congrArg (fun z : EReal => Ideal.exp ((s.1 (ix3 h r 0) : EReal) - (k1_pay10 q k s.1 (ix3 h r 0) : EReal)) * (s.2.2 (ix3 h r d) : EReal) + z)
    (Finset.sum_congr rfl fun kk _ => ?_)
  rw [pay12_apply]
  refine congrArg (fun z : EReal => Ideal.exp (sc q k h r kk - (k1_pay10 q k s.1 (ix3 h r 0) : EReal)) * z) ?_
  simp only [k1_pay8]
  exact shapeCast_1abc_abc_apply v _ h kk d

theorem init1_m : ((init1 (F := Ideal)).1 (ix3 h r 0) : EReal) = ⊥ := by
  show (k1_pay5 (F := Ideal) (ix3 h r 0) : EReal) = ⊥
  simp only [k1_pay5]
  rw [shapeCast_self, broadcast_apply]
  exact ofBits_neg_inf
theorem init1_l : ((init1 (F := Ideal)).2.1 (ix3 h r 0) : EReal) = 0 := by
  show (k1_pay6 (F := Ideal) (ix3 h r 0) : EReal) = 0
  simp only [k1_pay6]
  rw [shapeCast_self, broadcast_apply]
  exact Ideal.ofBits_zero_f32
theorem init1_a (d : Fin 64) : ((init1 (F := Ideal)).2.2 (ix3 h r d) : EReal) = 0 := by
  show (k1_pay7 (F := Ideal) (ix3 h r d) : EReal) = 0
  simp only [k1_pay7]
  rw [shapeCast_self, broadcast_apply]
  exact Ideal.ofBits_zero_f32

/-- The output block: numerator over denominator, rows before heads. -/
theorem outOf1_apply (d : Fin 64) : (outOf1 s (ix4 0 r h d) : EReal) = Ideal.div (s.2.2 (ix3 h r d) : EReal) (s.2.1 (ix3 h r 0) : EReal) := by
  show (k1_pay4 s.2.2 s.2.1 (ix4 0 r h d) : EReal) = _
  simp only [k1_pay4]
  rw [shapeCast_abc_1abc_apply, transpose_heads_apply, truncf_apply, divf_apply, bcast_feat_apply]

end Cert.KernelIdeal.Val

end
-- ==== Proof.Val.Softmax.lean ====
/- The online softmax is the softmax: over real scores and values the tile-by-tile recurrence ends at the softmax-weighted sum; and a scale folded into the query is the scale applied to the inner product. -/
import proofs.«431026_j14723147891227_3_alg».proof.Proof.Val.Spec

noncomputable section

namespace Cert.KernelIdeal.Spec

open Idealize.ShloMosaic

/-! ## Real sums, maxima and exponentials seen among the extended reals -/

/-- The coercion of a finite real sum is the sum of the coercions. -/
private theorem coe_sum' {ι : Type*} (t : Finset ι) (f : ι → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

/-- The larger of two reals, taken among the extended reals, is the coercion of the larger. -/
private theorem coe_max' (a b : ℝ) : max ((a : ℝ) : EReal) ((b : ℝ) : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The supremum of finitely many reals, taken among the extended reals, is ⊥ (no real at all) or a real. -/
private theorem sup_coe_cases {ι : Type*} (t : Finset ι) (f : ι → ℝ) :
    t.sup (fun i => ((f i : ℝ) : EReal)) = ⊥ ∨ ∃ m : ℝ, t.sup (fun i => ((f i : ℝ) : EReal)) = (m : EReal) := by
  classical
  refine Finset.induction_on t (Or.inl (by simp)) ?_
  intro a t _ ih
  right
  rw [Finset.sup_insert]
  rcases ih with h | ⟨m, h⟩
  · exact ⟨f a, by rw [h]; exact sup_bot_eq _⟩
  · exact ⟨max (f a) m, by rw [h]; exact coe_max' _ _⟩

/-- Over a nonempty index set it is a real. -/
private theorem sup_coe_real {ι : Type*} (t : Finset ι) (ht : t.Nonempty) (f : ι → ℝ) :
    ∃ m : ℝ, t.sup (fun i => ((f i : ℝ) : EReal)) = (m : EReal) := by
  rcases sup_coe_cases t f with h | h
  · exfalso
    obtain ⟨a, ha⟩ := ht
    have h1 : ((f a : ℝ) : EReal) ≤ t.sup (fun i => ((f i : ℝ) : EReal)) :=
      Finset.le_sup (f := fun i => ((f i : ℝ) : EReal)) ha
    rw [h] at h1
    exact EReal.coe_ne_bot _ (le_bot_iff.1 h1)
  · exact h

/-- The exponential of a difference of reals. -/
private theorem exp_sub_coe (a b : ℝ) :
    Ideal.exp (((a : ℝ) : EReal) - ((b : ℝ) : EReal)) = ((Real.exp (a - b) : ℝ) : EReal) := by
  rw [← EReal.coe_sub, Ideal.exp_coe]

/-! ## The scale folded into the query -/

/-- Scaling every query entry by 1/8 is dividing the inner product by 8. -/
theorem score_fold (q k : Fin 64 → ℝ) :
    (∑ d : Fin 64, (((q d : ℝ) : EReal) * (((1 / 8 : ℝ) : ℝ) : EReal)) * ((k d : ℝ) : EReal))
      = Ideal.div (∑ d : Fin 64, ((q d : ℝ) : EReal) * ((k d : ℝ) : EReal)) 8 := by
  have h8 : (8 : EReal) = ((8 : ℝ) : EReal) := by norm_cast
  rw [h8, Ideal.div_coe (by norm_num : (8 : ℝ) ≠ 0)]
  simp only [← EReal.coe_mul, ← coe_sum']
  congr 1
  rw [Finset.sum_mul]
  refine Finset.sum_congr rfl fun d _ => ?_
  ring

/-! ## The recurrence over real sequences -/

section Online

variable (B : ℕ) (s v : ℕ → ℝ)

private theorem onlM_succ (S : ℕ → EReal) (j : ℕ) :
    onlM B S (j + 1) = max (onlM B S j) ((Finset.range B).sup fun kk => S (j * B + kk)) := rfl

private theorem onlL_succ (S : ℕ → EReal) (j : ℕ) :
    onlL B S (j + 1) = Ideal.exp (onlM B S j - onlM B S (j + 1)) * onlL B S j
      + ∑ kk ∈ Finset.range B, Ideal.exp (S (j * B + kk) - onlM B S (j + 1)) := rfl

private theorem onlA_succ (S V : ℕ → EReal) (j : ℕ) :
    onlA B S V (j + 1) = Ideal.exp (onlM B S j - onlM B S (j + 1)) * onlA B S V j
      + ∑ kk ∈ Finset.range B, Ideal.exp (S (j * B + kk) - onlM B S (j + 1)) * V (j * B + kk) := rfl

/-- One tile's share of the denominator, against a real reference point `m`. -/
private theorem tile_den (j : ℕ) (m : ℝ) :
    ∑ kk ∈ Finset.range B, Ideal.exp (((s (j * B + kk) : ℝ) : EReal) - ((m : ℝ) : EReal))
      = ((∑ kk ∈ Finset.range B, Real.exp (s (j * B + kk) - m) : ℝ) : EReal) := by
  rw [coe_sum']
  exact Finset.sum_congr rfl fun kk _ => exp_sub_coe _ _

/-- One tile's share of the numerator. -/
private theorem tile_num (j : ℕ) (m : ℝ) :
    ∑ kk ∈ Finset.range B, Ideal.exp (((s (j * B + kk) : ℝ) : EReal) - ((m : ℝ) : EReal)) * ((v (j * B + kk) : ℝ) : EReal)
      = ((∑ kk ∈ Finset.range B, Real.exp (s (j * B + kk) - m) * v (j * B + kk) : ℝ) : EReal) := by
  rw [coe_sum']
  exact Finset.sum_congr rfl fun kk _ => by rw [exp_sub_coe, EReal.coe_mul]

/-- Moving the reference point of a sum of exponentials from `m` to `m'` is one common factor. -/
private theorem rescale (n : ℕ) (m m' : ℝ) (w : ℕ → ℝ) :
    Real.exp (m - m') * ∑ mm ∈ Finset.range n, Real.exp (s mm - m) * w mm
      = ∑ mm ∈ Finset.range n, Real.exp (s mm - m') * w mm := by
  rw [Finset.mul_sum]
  refine Finset.sum_congr rfl fun mm _ => ?_
  rw [← mul_assoc, ← Real.exp_add]
  congr 2
  ring

/-- After `j + 1` tiles the running maximum is a real `m`, and the two running sums are the sums of
    `exp (s - m)` and of `exp (s - m) · v` over all positions visited so far. -/
private theorem online_inv (hB : 0 < B) (j : ℕ) :
    ∃ m : ℝ, onlM B (fun mm => ((s mm : ℝ) : EReal)) (j + 1) = ((m : ℝ) : EReal)
      ∧ onlL B (fun mm => ((s mm : ℝ) : EReal)) (j + 1)
          = ((∑ mm ∈ Finset.range ((j + 1) * B), Real.exp (s mm - m) : ℝ) : EReal)
      ∧ onlA B (fun mm => ((s mm : ℝ) : EReal)) (fun mm => ((v mm : ℝ) : EReal)) (j + 1)
          = ((∑ mm ∈ Finset.range ((j + 1) * B), Real.exp (s mm - m) * v mm : ℝ) : EReal) := by
  have hne : (Finset.range B).Nonempty := Finset.nonempty_range_iff.2 hB.ne'
  induction j with
  | zero =>
    obtain ⟨b, hb⟩ := sup_coe_real (Finset.range B) hne (fun kk => s (0 * B + kk))
    have hM : onlM B (fun mm => ((s mm : ℝ) : EReal)) (0 + 1) = ((b : ℝ) : EReal) := by
      rw [onlM_succ, hb]
      exact bot_sup_eq _
    have h0 : onlM B (fun mm => ((s mm : ℝ) : EReal)) 0 = ⊥ := rfl
    refine ⟨b, hM, ?_, ?_⟩
    · rw [onlL_succ, hM, h0, EReal.bot_sub, Ideal.exp_bot, zero_mul, zero_add, tile_den]
      simp only [Nat.zero_mul, zero_add, one_mul]
    · rw [onlA_succ, hM, h0, EReal.bot_sub, Ideal.exp_bot, zero_mul, zero_add, tile_num]
      simp only [Nat.zero_mul, zero_add, one_mul]
  | succ j ih =>
    obtain ⟨m, hM, hL, hA⟩ := ih
    obtain ⟨b, hb⟩ := sup_coe_real (Finset.range B) hne (fun kk => s ((j + 1) * B + kk))
    have hM' : onlM B (fun mm => ((s mm : ℝ) : EReal)) (j + 1 + 1) = ((max m b : ℝ) : EReal) := by
      rw [onlM_succ, hM, hb]
      exact coe_max' _ _
    have hsplit : (j + 1 + 1) * B = (j + 1) * B + B := by ring
    refine ⟨max m b, hM', ?_, ?_⟩
    · rw [onlL_succ, hM', hM, hL, exp_sub_coe, tile_den, ← EReal.coe_mul, ← EReal.coe_add, hsplit,
        Finset.sum_range_add]
      congr 2
      have := rescale s ((j + 1) * B) m (max m b) (fun _ => 1)
      simpa using this
    · rw [onlA_succ, hM', hM, hA, exp_sub_coe, tile_num, ← EReal.coe_mul, ← EReal.coe_add, hsplit,
        Finset.sum_range_add]
      congr 2
      exact rescale s ((j + 1) * B) m (max m b) v

end Online

/-! ## The softmax over real scores -/

/-- The softmax-weighted sum does not depend on the reference point subtracted from the scores. -/
private theorem shift_ratio {ι : Type*} (t : Finset ι) (s v : ι → ℝ) (m m' : ℝ) :
    (∑ i ∈ t, Real.exp (s i - m) * v i) / (∑ i ∈ t, Real.exp (s i - m))
      = (∑ i ∈ t, Real.exp (s i - m') * v i) / (∑ i ∈ t, Real.exp (s i - m')) := by
  have key : ∀ i, Real.exp (s i - m) = Real.exp (m' - m) * Real.exp (s i - m') := by
    intro i
    rw [← Real.exp_add]
    congr 1
    ring
  simp_rw [key, mul_assoc, ← Finset.mul_sum]
  rw [mul_div_mul_left _ _ (Real.exp_pos _).ne']

/-- Over real scores and values the softmax row is a real: numerator over denominator at some real reference point. -/
private theorem softRow_coe (s v : Fin 2048 → ℝ) :
    ∃ m' : ℝ, softRow (fun mm => ((s mm : ℝ) : EReal)) (fun mm => ((v mm : ℝ) : EReal))
      = (((∑ mm : Fin 2048, Real.exp (s mm - m') * v mm) / (∑ mm : Fin 2048, Real.exp (s mm - m')) : ℝ) : EReal) := by
  obtain ⟨m', hm'⟩ := sup_coe_real (Finset.univ : Finset (Fin 2048)) ⟨⟨0, by norm_num⟩, Finset.mem_univ _⟩ s
  refine ⟨m', ?_⟩
  have hZ : (∑ mm : Fin 2048, Real.exp (s mm - m')) ≠ 0 := by
    have : 0 < ∑ mm : Fin 2048, Real.exp (s mm - m') :=
      Finset.sum_pos (fun i _ => Real.exp_pos _) ⟨⟨0, by norm_num⟩, Finset.mem_univ _⟩
    exact this.ne'
  unfold softRow
  rw [hm']
  simp only [exp_sub_coe, ← coe_sum']
  simp only [Ideal.div_coe hZ, ← EReal.coe_mul, ← coe_sum']
  refine congrArg (fun x : ℝ => (x : EReal)) ?_
  rw [Finset.sum_div]
  refine Finset.sum_congr rfl fun mm _ => ?_
  ring

/-- The extension of a real sequence beyond the last key position is a real sequence. -/
private theorem ext_eq (f : Fin 2048 → ℝ) :
    ext f = fun mm => (((if h : mm < 2048 then f ⟨mm, h⟩ else 0 : ℝ) : ℝ) : EReal) := by
  funext mm
  unfold ext
  split_ifs <;> simp

/-- Over real scores `s` and real values `v` on 2048 key positions, eight tiles of 256: numerator over denominator of the
    online recurrence is the softmax of `s` applied to `v`. -/
theorem online_softmax (s v : Fin 2048 → ℝ) :
    Ideal.div (onlA 256 (ext s) (ext v) 8) (onlL 256 (ext s) 8)
      = softRow (fun mm => ((s mm : ℝ) : EReal)) (fun mm => ((v mm : ℝ) : EReal)) := by
  obtain ⟨m', hR⟩ := softRow_coe s v
  rw [hR, ext_eq s, ext_eq v]
  obtain ⟨m, -, hL, hA⟩ := online_inv 256 (fun mm => if h : mm < 2048 then s ⟨mm, h⟩ else 0)
    (fun mm => if h : mm < 2048 then v ⟨mm, h⟩ else 0) (by norm_num) 7
  have h2048 : (7 + 1) * 256 = 2048 := by norm_num
  rw [h2048, Finset.sum_range] at hL hA
  simp only [Fin.is_lt, dite_true, Fin.eta] at hL hA
  have e8 : (7 : ℕ) + 1 = 8 := rfl
  rw [e8] at hL hA
  have hZ : (∑ mm : Fin 2048, Real.exp (s mm - m)) ≠ 0 := by
    have : 0 < ∑ mm : Fin 2048, Real.exp (s mm - m) :=
      Finset.sum_pos (fun i _ => Real.exp_pos _) ⟨⟨0, by norm_num⟩, Finset.mem_univ _⟩
    exact this.ne'
  rw [hL, hA, Ideal.div_coe hZ, ← EReal.coe_mul]
  refine congrArg (fun x : ℝ => (x : EReal)) ?_
  rw [← shift_ratio Finset.univ s v m m', mul_one_div]

end Cert.KernelIdeal.Spec

end
-- ==== Proof.Val.K1.lean ====
/- What the attention region leaves in its output array: over finite q, k, v each entry is one softmax-attention row. -/
import proofs.«431026_j14723147891227_3_alg».proof.Proof.Val.Arr
import proofs.«431026_j14723147891227_3_alg».proof.Proof.Val.AttnStep
import proofs.«431026_j14723147891227_3_alg».proof.Proof.Val.Softmax

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec
variable (V : (c : Dev nD) → (b : Ref sig .tc) → Buf (Elt Ideal) ((c : Thread nD τ).loc b))

namespace AttnVal

/-! ## The printed index maps, decided once over the 256 grid points -/

theorem idx_facts : ∀ t : Fin cfg1.N,
    win1_0.index t (0 : Fin 4) = 0 ∧ win1_0.index t (1 : Fin 4) = t.val / 64 ∧ win1_0.index t (2 : Fin 4) = t.val / 8 % 8 ∧ win1_0.index t (3 : Fin 4) = 0
    ∧ win1_1.index t (0 : Fin 4) = 1 ∧ win1_1.index t (1 : Fin 4) = t.val / 64 ∧ win1_1.index t (2 : Fin 4) = t.val % 8 ∧ win1_1.index t (3 : Fin 4) = 0
    ∧ win1_2.index t (0 : Fin 4) = 2 ∧ win1_2.index t (1 : Fin 4) = t.val / 64 ∧ win1_2.index t (2 : Fin 4) = t.val % 8 ∧ win1_2.index t (3 : Fin 4) = 0
    ∧ win1_3.index t (0 : Fin 4) = t.val / 64 ∧ win1_3.index t (1 : Fin 4) = t.val / 8 % 8 ∧ win1_3.index t (2 : Fin 4) = 0 ∧ win1_3.index t (3 : Fin 4) = 0 :=
  (by decide +kernel : ∀ t : Fin grid1.N, _)

/-! ## The three input blocks of a grid point, read off the one input array -/

/-- The query, key and value blocks of point `t`, at their literal shape. -/
abbrev qblk (c : Dev nD) (t : Fin cfg1.N) : Vec Ideal S1x16x256x64 .bf16 := iblk1 V c 0 t
abbrev kblk (c : Dev nD) (t : Fin cfg1.N) : Vec Ideal S1x16x256x64 .bf16 := iblk1 V c 1 t
abbrev vblk (c : Dev nD) (t : Fin cfg1.N) : Vec Ideal S1x16x256x64 .bf16 := iblk1 V c 2 t

/-- Point `bi·64 + qi·8 + kj`'s query block holds, at head `h` and row `r`, row `qi·256 + r` of part 0 of batch-head `bi·16 + h`. -/
theorem qblk_apply (c : Dev nD) (t : Fin cfg1.N) (bi : Fin 4) (qi kj : Fin 8) (ht : t.val = bi.val * 64 + qi.val * 8 + kj.val)
    (h : Fin 16) (r : Fin 256) (d : Fin 64) (n : Fin 2048) (hn : n.val = qi.val * 256 + r.val) :
    qblk V c t (ix4 0 h r d) = aQkv V c (ix4 0 (bh bi h) n d) := by
  obtain ⟨e0, e1, e2, e3, -⟩ := idx_facts t
  unfold qblk iblk1
  rw [View.read_apply]
  show V c main_v7 (((cfg1.win 0).blk t).view.emb (ix4 0 h r d)) = V c main_v7 (ix4 0 (bh bi h) n d)
  congr 1
  funext a; apply Fin.ext
  match a with
  | ⟨0, _⟩ => show win1_0.index t (0 : Fin 4) * 1 + 1 * 0 = 0; omega
  | ⟨1, _⟩ => show win1_0.index t (1 : Fin 4) * 16 + 1 * h.val = bi.val * 16 + h.val; omega
  | ⟨2, _⟩ => show win1_0.index t (2 : Fin 4) * 256 + 1 * r.val = n.val; omega
  | ⟨3, _⟩ => show win1_0.index t (3 : Fin 4) * 64 + 1 * d.val = d.val; omega

/-- … its key block, at head `h` and row `kk`, row `kj·256 + kk` of part 1 … -/
theorem kblk_apply (c : Dev nD) (t : Fin cfg1.N) (bi : Fin 4) (qi kj : Fin 8) (ht : t.val = bi.val * 64 + qi.val * 8 + kj.val)
    (h : Fin 16) (kk : Fin 256) (d : Fin 64) (mm : Fin 2048) (hm : mm.val = kj.val * 256 + kk.val) :
    kblk V c t (ix4 0 h kk d) = aQkv V c (ix4 1 (bh bi h) mm d) := by
  obtain ⟨-, -, -, -, e0, e1, e2, e3, -⟩ := idx_facts t
  unfold kblk iblk1
  rw [View.read_apply]
  show V c main_v7 (((cfg1.win 1).blk t).view.emb (ix4 0 h kk d)) = V c main_v7 (ix4 1 (bh bi h) mm d)
  congr 1
  funext a; apply Fin.ext
  match a with
  | ⟨0, _⟩ => show win1_1.index t (0 : Fin 4) * 1 + 1 * 0 = 1; omega
  | ⟨1, _⟩ => show win1_1.index t (1 : Fin 4) * 16 + 1 * h.val = bi.val * 16 + h.val; omega
  | ⟨2, _⟩ => show win1_1.index t (2 : Fin 4) * 256 + 1 * kk.val = mm.val; omega
  | ⟨3, _⟩ => show win1_1.index t (3 : Fin 4) * 64 + 1 * d.val = d.val; omega

/-- … and its value block the same row of part 2. -/
theorem vblk_apply (c : Dev nD) (t : Fin cfg1.N) (bi : Fin 4) (qi kj : Fin 8) (ht : t.val = bi.val * 64 + qi.val * 8 + kj.val)
    (h : Fin 16) (kk : Fin 256) (d : Fin 64) (mm : Fin 2048) (hm : mm.val = kj.val * 256 + kk.val) :
    vblk V c t (ix4 0 h kk d) = aQkv V c (ix4 2 (bh bi h) mm d) := by
  obtain ⟨-, -, -, -, -, -, -, -, e0, e1, e2, e3, -⟩ := idx_facts t
  unfold vblk iblk1
  rw [View.read_apply]
  show V c main_v7 (((cfg1.win 2).blk t).view.emb (ix4 0 h kk d)) = V c main_v7 (ix4 2 (bh bi h) mm d)
  congr 1
  funext a; apply Fin.ext
  match a with
  | ⟨0, _⟩ => show win1_2.index t (0 : Fin 4) * 1 + 1 * 0 = 2; omega
  | ⟨1, _⟩ => show win1_2.index t (1 : Fin 4) * 16 + 1 * h.val = bi.val * 16 + h.val; omega
  | ⟨2, _⟩ => show win1_2.index t (2 : Fin 4) * 256 + 1 * kk.val = mm.val; omega
  | ⟨3, _⟩ => show win1_2.index t (3 : Fin 4) * 64 + 1 * d.val = d.val; omega

/-! ## The running state, point by point -/

/-- At a first key/value tile the state is one step from the reset values … -/
theorem mlaAt1_reset (c : Dev nD) (n : ℕ) (hn : n < cfg1.N) (h0 : n % 8 = 0) :
    mlaAt1 V c n hn = step1 (qblk V c ⟨n, hn⟩) (kblk V c ⟨n, hn⟩) (vblk V c ⟨n, hn⟩) init1 := by
  cases n with
  | zero => rfl
  | succ n => unfold mlaAt1; rw [if_pos h0]

/-- … and at any other tile one step from what the point before left. -/
theorem mlaAt1_step (c : Dev nD) (n : ℕ) (hn : n + 1 < cfg1.N) (h0 : (n + 1) % 8 ≠ 0) :
    mlaAt1 V c (n + 1) hn = step1 (qblk V c ⟨n + 1, hn⟩) (kblk V c ⟨n + 1, hn⟩) (vblk V c ⟨n + 1, hn⟩)
      (mlaAt1 V c n (Nat.lt_of_succ_lt hn)) := by
  rw [mlaAt1]; rw [if_neg h0]

/-! ## One step of the recurrence is one step of the online form -/

/-- A supremum over `Fin n` of a function of the position is the supremum over `range n`. -/
theorem sup_univ_eq_sup_range (n : ℕ) (f : ℕ → EReal) : (Finset.univ.sup fun i : Fin n => f i.val) = (Finset.range n).sup f := by
  apply le_antisymm
  · exact Finset.sup_le fun i _ => Finset.le_sup (f := f) (Finset.mem_range.mpr i.isLt)
  · exact Finset.sup_le fun i hi => Finset.le_sup (f := fun i : Fin n => f i.val) (Finset.mem_univ ⟨i, Finset.mem_range.mp hi⟩)

/-- If the tile's scores and values are the positions `j·256 + kk` of the sequences `S` and `Vd`, and the state's entries are
    the online form after `j` tiles, the next state's entries are the online form after `j + 1` tiles. -/
theorem step_onl (q k v : Vec Ideal S1x16x256x64 .bf16) (st : St1 Ideal) (h : Fin 16) (r : Fin 256) (d : Fin 64)
    (S Vd : ℕ → EReal) (j : ℕ)
    (hS : ∀ kk : Fin 256, sc q k h r kk = S (j * 256 + kk.val))
    (hV : ∀ kk : Fin 256, (v (ix4 0 h kk d) : EReal) = Vd (j * 256 + kk.val))
    (hm : (st.1 (ix3 h r 0) : EReal) = onlM 256 S j) (hl : (st.2.1 (ix3 h r 0) : EReal) = onlL 256 S j)
    (ha : (st.2.2 (ix3 h r d) : EReal) = onlA 256 S Vd j) :
    ((step1 q k v st).1 (ix3 h r 0) : EReal) = onlM 256 S (j + 1)
    ∧ ((step1 q k v st).2.1 (ix3 h r 0) : EReal) = onlL 256 S (j + 1)
    ∧ ((step1 q k v st).2.2 (ix3 h r d) : EReal) = onlA 256 S Vd (j + 1) := by
  have em : ((step1 q k v st).1 (ix3 h r 0) : EReal) = onlM 256 S (j + 1) := by
    rw [step1_m, hm]
    show _ = max (onlM 256 S j) ((Finset.range 256).sup fun kk => S (j * 256 + kk))
    rw [← sup_univ_eq_sup_range 256 (fun kk => S (j * 256 + kk))]
    congr 2
    funext kk
    exact hS kk
  refine ⟨em, ?_, ?_⟩
  · rw [step1_l, em, hm, hl]
    show _ = Ideal.exp (onlM 256 S j - onlM 256 S (j + 1)) * onlL 256 S j
      + ∑ kk ∈ Finset.range 256, Ideal.exp (S (j * 256 + kk) - onlM 256 S (j + 1))
    rw [← Fin.sum_univ_eq_sum_range (fun kk => Ideal.exp (S (j * 256 + kk) - onlM 256 S (j + 1))) 256]
    congr 1
    exact Finset.sum_congr rfl fun kk _ => by rw [hS kk]
  · rw [step1_a, em, hm, ha]
    show _ = Ideal.exp (onlM 256 S j - onlM 256 S (j + 1)) * onlA 256 S Vd j
      + ∑ kk ∈ Finset.range 256, Ideal.exp (S (j * 256 + kk) - onlM 256 S (j + 1)) * Vd (j * 256 + kk)
    rw [← Fin.sum_univ_eq_sum_range (fun kk => Ideal.exp (S (j * 256 + kk) - onlM 256 S (j + 1)) * Vd (j * 256 + kk)) 256]
    congr 1
    exact Finset.sum_congr rfl fun kk _ => by rw [hS kk, hV kk]

/-! ## The tile's scores and values are positions of the row's score and value sequences -/

/-- The body's score of query row `n` of batch-head `bi·16 + h` against key position `mm`, on the array. -/
def scA (a : S3x64x2048x64.Idx → EReal) (b : Fin 64) (n mm : Fin 2048) : EReal :=
  ∑ d : Fin 64, (a (ix4 0 b n d) * Ideal.ofBits .f32 0x3E000000#32) * a (ix4 1 b mm d)

theorem tile_scores (c : Dev nD) (t : Fin cfg1.N) (bi : Fin 4) (qi kj : Fin 8) (ht : t.val = bi.val * 64 + qi.val * 8 + kj.val)
    (h : Fin 16) (r : Fin 256) (n : Fin 2048) (hn : n.val = qi.val * 256 + r.val)
    (S : ℕ → EReal) (hS : ∀ mm : Fin 2048, S mm.val = scA (aQkv V c) (bh bi h) n mm) (kk : Fin 256) :
    sc (qblk V c t) (kblk V c t) h r kk = S (kj.val * 256 + kk.val) := by
  have hlt : kj.val * 256 + kk.val < 2048 := by have := kj.isLt; have := kk.isLt; omega
  rw [show S (kj.val * 256 + kk.val) = S (⟨kj.val * 256 + kk.val, hlt⟩ : Fin 2048).val from rfl, hS]
  unfold sc scA
  exact Finset.sum_congr rfl fun d _ => by
    rw [qblk_apply V c t bi qi kj ht h r d n hn, kblk_apply V c t bi qi kj ht h kk d ⟨kj.val * 256 + kk.val, hlt⟩ rfl]

theorem tile_values (c : Dev nD) (t : Fin cfg1.N) (bi : Fin 4) (qi kj : Fin 8) (ht : t.val = bi.val * 64 + qi.val * 8 + kj.val)
    (h : Fin 16) (d : Fin 64)
    (Vd : ℕ → EReal) (hV : ∀ mm : Fin 2048, Vd mm.val = aQkv V c (ix4 2 (bh bi h) mm d)) (kk : Fin 256) :
    (vblk V c t (ix4 0 h kk d) : EReal) = Vd (kj.val * 256 + kk.val) := by
  have hlt : kj.val * 256 + kk.val < 2048 := by have := kj.isLt; have := kk.isLt; omega
  rw [show Vd (kj.val * 256 + kk.val) = Vd (⟨kj.val * 256 + kk.val, hlt⟩ : Fin 2048).val from rfl, hV]
  exact vblk_apply V c t bi qi kj ht h kk d ⟨kj.val * 256 + kk.val, hlt⟩ rfl

/-! ## The invariant: after key/value tile `kj` the state's entries are the online form after `kj + 1` tiles -/

theorem state_onl (c : Dev nD) (bi : Fin 4) (qi : Fin 8) (h : Fin 16) (r : Fin 256) (d : Fin 64)
    (n : Fin 2048) (hn : n.val = qi.val * 256 + r.val) (S Vd : ℕ → EReal)
    (hS : ∀ mm : Fin 2048, S mm.val = scA (aQkv V c) (bh bi h) n mm)
    (hV : ∀ mm : Fin 2048, Vd mm.val = aQkv V c (ix4 2 (bh bi h) mm d)) :
    ∀ (kj : ℕ) (hk : kj < 8) (p : ℕ) (hp : p < cfg1.N), p = bi.val * 64 + qi.val * 8 + kj →
      ((mlaAt1 V c p hp).1 (ix3 h r 0) : EReal) = onlM 256 S (kj + 1)
      ∧ ((mlaAt1 V c p hp).2.1 (ix3 h r 0) : EReal) = onlL 256 S (kj + 1)
      ∧ ((mlaAt1 V c p hp).2.2 (ix3 h r d) : EReal) = onlA 256 S Vd (kj + 1)
  | 0, hk, p, hp, e => by
    rw [mlaAt1_reset V c p hp (by omega)]
    have ht : (⟨p, hp⟩ : Fin cfg1.N).val = bi.val * 64 + qi.val * 8 + (0 : Fin 8).val := e
    have := step_onl (qblk V c ⟨p, hp⟩) (kblk V c ⟨p, hp⟩) (vblk V c ⟨p, hp⟩) init1 h r d S Vd 0
      (fun kk => tile_scores V c ⟨p, hp⟩ bi qi 0 ht h r n hn S hS kk)
      (fun kk => tile_values V c ⟨p, hp⟩ bi qi 0 ht h d Vd hV kk)
      (init1_m h r) (init1_l h r) (init1_a h r d)
    exact this
  | kj + 1, hk, p, hp, e => by
    obtain ⟨p', rfl⟩ : ∃ p', p = p' + 1 := ⟨bi.val * 64 + qi.val * 8 + kj, by omega⟩
    rw [mlaAt1_step V c p' hp (by omega)]
    obtain ⟨im, il, ia⟩ := state_onl c bi qi h r d n hn S Vd hS hV kj (by omega) p' (Nat.lt_of_succ_lt hp) (by omega)
    have ht : (⟨p' + 1, hp⟩ : Fin cfg1.N).val = bi.val * 64 + qi.val * 8 + (⟨kj + 1, hk⟩ : Fin 8).val := e
    exact step_onl (qblk V c ⟨p' + 1, hp⟩) (kblk V c ⟨p' + 1, hp⟩) (vblk V c ⟨p' + 1, hp⟩) (mlaAt1 V c p' (Nat.lt_of_succ_lt hp)) h r d S Vd (kj + 1)
      (fun kk => tile_scores V c ⟨p' + 1, hp⟩ bi qi ⟨kj + 1, hk⟩ ht h r n hn S hS kk)
      (fun kk => tile_values V c ⟨p' + 1, hp⟩ bi qi ⟨kj + 1, hk⟩ ht h d Vd hV kk)
      im il ia

/-! ## Finite entries: the online form ends at the attention row -/

/-- A finite sum of reals is a real. -/
theorem exists_real_sum {ι : Type} (s : Finset ι) (f : ι → ℝ) : ∃ x : ℝ, ∑ i ∈ s, ((f i : ℝ) : EReal) = ((x : ℝ) : EReal) := by
  classical
  induction s using Finset.induction_on with
  | empty => exact ⟨0, by simp⟩
  | insert a s ha ih =>
    obtain ⟨x, hx⟩ := ih
    exact ⟨f a + x, by rw [Finset.sum_insert ha, hx, EReal.coe_add]⟩

/-- The scaled score of a real query against a real key is a real. -/
theorem score_real (q : Fin 64 → ℝ) (k : Fin 2048 → Fin 64 → ℝ) (mm : Fin 2048) :
    ∃ x : ℝ, score (fun d => ((q d : ℝ) : EReal)) (fun mm d => ((k mm d : ℝ) : EReal)) mm = ((x : ℝ) : EReal) := by
  obtain ⟨x, hx⟩ := exists_real_sum Finset.univ (fun d => q d * k mm d)
  refine ⟨x * (1 / 8), ?_⟩
  show Ideal.div (∑ d : Fin 64, ((q d : ℝ) : EReal) * ((k mm d : ℝ) : EReal)) 8 = _
  simp only [← EReal.coe_mul]
  rw [hx, show (8 : EReal) = ((8 : ℝ) : EReal) from rfl, Ideal.div_coe (by norm_num), EReal.coe_mul]

/-- THE ENTRY a last key/value tile's state gives: the attention row. -/
theorem out_entry (c : Dev nD) (hfin : ∀ i, ∃ x : ℝ, aQkv V c i = ((x : ℝ) : EReal)) (t : Fin cfg1.N) (bi : Fin 4) (qi : Fin 8)
    (ht : t.val = bi.val * 64 + qi.val * 8 + 7) (r : Fin 256) (h : Fin 16) (d : Fin 64) (n : Fin 2048)
    (hn : n.val = qi.val * 256 + r.val) :
    (outOf1 (mlaAt1 V c t.val t.isLt) (ix4 0 r h d) : EReal)
      = attRow (fun d' => aQkv V c (ix4 0 (bh bi h) n d')) (fun mm d' => aQkv V c (ix4 1 (bh bi h) mm d'))
          (fun mm d' => aQkv V c (ix4 2 (bh bi h) mm d')) d := by
  choose ar har using hfin
  have eq : (fun d' => aQkv V c (ix4 0 (bh bi h) n d')) = fun d' => ((ar (ix4 0 (bh bi h) n d') : ℝ) : EReal) := funext fun d' => har _
  have ek : (fun mm d' => aQkv V c (ix4 1 (bh bi h) mm d')) = fun (mm : Fin 2048) (d' : Fin 64) => ((ar (ix4 1 (bh bi h) mm d') : ℝ) : EReal) :=
    funext fun mm => funext fun d' => har _
  have hsc : ∀ mm : Fin 2048, ∃ x : ℝ, score (fun d' => aQkv V c (ix4 0 (bh bi h) n d')) (fun mm d' => aQkv V c (ix4 1 (bh bi h) mm d')) mm = ((x : ℝ) : EReal) := by
    intro mm
    rw [eq, ek]
    exact score_real _ _ mm
  choose s hs using hsc
  have hS : ∀ mm : Fin 2048, ext s mm.val = scA (aQkv V c) (bh bi h) n mm := by
    intro mm
    unfold ext
    rw [dif_pos mm.isLt]
    show ((s mm : ℝ) : EReal) = _
    rw [← hs mm, eq, ek]
    unfold scA
    rw [ofBits_eighth]
    simp only [har]
    exact (score_fold (fun d' => ar (ix4 0 (bh bi h) n d')) (fun d' => ar (ix4 1 (bh bi h) mm d'))).symm
  have hV : ∀ mm : Fin 2048, ext (fun mm => ar (ix4 2 (bh bi h) mm d)) mm.val = aQkv V c (ix4 2 (bh bi h) mm d) := by
    intro mm
    unfold ext
    rw [dif_pos mm.isLt]
    exact (har _).symm
  obtain ⟨-, il, ia⟩ := state_onl V c bi qi h r d n hn (ext s) (ext fun mm => ar (ix4 2 (bh bi h) mm d)) hS hV 7 (by omega) t.val t.isLt ht
  rw [outOf1_apply, il, ia]
  refine (online_softmax s (fun mm => ar (ix4 2 (bh bi h) mm d))).trans ?_
  unfold attRow
  congr 1
  · funext mm; exact (hs mm).symm
  · funext mm; exact (har _).symm

/-! ## From the blocks to the array -/

/-- The whole output array: entry (batch, row, head, column) is the attention row of that batch-head at that query row and column. -/
def attG (a : S3x64x2048x64.Idx → EReal) : S4x2048x16x64.Idx → EReal := fun i =>
  attRow (fun d' => a (ix4 0 (bh (i 0) (i 2)) (i 1) d')) (fun mm d' => a (ix4 1 (bh (i 0) (i 2)) mm d'))
    (fun mm d' => a (ix4 2 (bh (i 0) (i 2)) mm d')) (i 3)

/-- WHAT A LAST KEY/VALUE TILE WRITES BACK is its block of the whole-array function. -/
theorem flushed_eq (c : Dev nD) (hfin : ∀ i, ∃ x : ℝ, aQkv V c i = ((x : ℝ) : EReal)) (t : Fin cfg1.N)
    (hf : (cfg1.win 3).flush t = true) :
    (dat1 V c).flushed 3 t = ((cfg1.win 3).blk t).view.read (Elt Ideal) (attG (aQkv V c)) := by
  have h7 : t.val % 8 = 7 := (flush1_3 t).mp hf
  have hN : cfg1.N = 256 := N_1
  have htl : t.val < cfg1.N := t.isLt
  obtain ⟨-, -, -, -, -, -, -, -, -, -, -, -, e0, e1, e2, e3⟩ := idx_facts t
  show (cfg1.win 3).cut (grid1.coords t) ((dat1 V c).after 3 t) = _
  rw [after1_3]
  funext y
  rw [View.read_apply]
  have y0 : (y 0).val < 1 := (y 0).isLt
  have y1 : (y 1).val < 256 := (y 1).isLt
  have y2 : (y 2).val < 16 := (y 2).isLt
  have y3 : (y 3).val < 64 := (y 3).isLt
  have hx : (cfg1.win 3).xinj (grid1.coords t) y = ix4 (0 : Fin 1) (⟨(y 1).val, y1⟩ : Fin 256) (⟨(y 2).val, y2⟩ : Fin 16) (⟨(y 3).val, y3⟩ : Fin 64) := by
    funext a; apply Fin.ext
    match a with
    | ⟨0, _⟩ => show (y 0).val = 0; omega
    | ⟨1, _⟩ => rfl
    | ⟨2, _⟩ => rfl
    | ⟨3, _⟩ => rfl
  have he : ((cfg1.win 3).blk t).view.emb y = ix4 (⟨t.val / 64, by omega⟩ : Fin 4) (⟨t.val / 8 % 8 * 256 + (y 1).val, by omega⟩ : Fin 2048)
      (⟨(y 2).val, y2⟩ : Fin 16) (⟨(y 3).val, y3⟩ : Fin 64) := by
    funext a; apply Fin.ext
    match a with
    | ⟨0, _⟩ => show win1_3.index t (0 : Fin 4) * 1 + 1 * (y 0).val = t.val / 64; omega
    | ⟨1, _⟩ => show win1_3.index t (1 : Fin 4) * 256 + 1 * (y 1).val = t.val / 8 % 8 * 256 + (y 1).val; omega
    | ⟨2, _⟩ => show win1_3.index t (2 : Fin 4) * 16 + 1 * (y 2).val = (y 2).val; omega
    | ⟨3, _⟩ => show win1_3.index t (3 : Fin 4) * 64 + 1 * (y 3).val = (y 3).val; omega
  show (outOf1 (mlaAt1 V c t.val t.isLt) ((cfg1.win 3).xinj (grid1.coords t) y) : EReal) = attG (aQkv V c) (((cfg1.win 3).blk t).view.emb y)
  rw [hx, he]
  exact out_entry V c hfin t ⟨t.val / 64, by omega⟩ ⟨t.val / 8 % 8, by omega⟩ (by show t.val = t.val / 64 * 64 + t.val / 8 % 8 * 8 + 7; omega)
    ⟨(y 1).val, y1⟩ ⟨(y 2).val, y2⟩ ⟨(y 3).val, y3⟩ ⟨t.val / 8 % 8 * 256 + (y 1).val, by omega⟩ rfl

/-- Every entry of the output array is in the block of the last key/value tile of its batch and query tile. -/
theorem covered (i : S4x2048x16x64.Idx) :
    ∃ t : Fin cfg1.N, (cfg1.win 3).flush t = true ∧ i ∈ ((cfg1.win 3).blk t).view.set := by
  have hN : cfg1.N = 256 := N_1
  have i0 : (i 0).val < 4 := (i 0).isLt
  have i1 : (i 1).val < 2048 := (i 1).isLt
  have i2 : (i 2).val < 16 := (i 2).isLt
  have i3 : (i 3).val < 64 := (i 3).isLt
  have hp : (i 0).val * 64 + (i 1).val / 256 * 8 + 7 < cfg1.N := by omega
  refine ⟨⟨(i 0).val * 64 + (i 1).val / 256 * 8 + 7, hp⟩, (flush1_3 _).mpr (by show ((i 0).val * 64 + (i 1).val / 256 * 8 + 7) % 8 = 7; omega), ?_⟩
  obtain ⟨-, -, -, -, -, -, -, -, -, -, -, -, e0, e1, e2, e3⟩ := idx_facts ⟨(i 0).val * 64 + (i 1).val / 256 * 8 + 7, hp⟩
  have f0 : win1_3.index ⟨(i 0).val * 64 + (i 1).val / 256 * 8 + 7, hp⟩ (0 : Fin 4) = ((i 0).val * 64 + (i 1).val / 256 * 8 + 7) / 64 := e0
  have f1 : win1_3.index ⟨(i 0).val * 64 + (i 1).val / 256 * 8 + 7, hp⟩ (1 : Fin 4) = ((i 0).val * 64 + (i 1).val / 256 * 8 + 7) / 8 % 8 := e1
  show i ∈ ((View.whole main_v8).slice (win1_3.rect ⟨(i 0).val * 64 + (i 1).val / 256 * 8 + 7, hp⟩)).set
  rw [View.set_slice_whole, Rect.mem_set_unit]
  intro a
  match a with
  | ⟨0, _⟩ =>
    show win1_3.index ⟨(i 0).val * 64 + (i 1).val / 256 * 8 + 7, hp⟩ (0 : Fin 4) * 1 ≤ (i 0).val
      ∧ (i 0).val < win1_3.index ⟨(i 0).val * 64 + (i 1).val / 256 * 8 + 7, hp⟩ (0 : Fin 4) * 1 + 1
    omega
  | ⟨1, _⟩ =>
    show win1_3.index ⟨(i 0).val * 64 + (i 1).val / 256 * 8 + 7, hp⟩ (1 : Fin 4) * 256 ≤ (i 1).val
      ∧ (i 1).val < win1_3.index ⟨(i 0).val * 64 + (i 1).val / 256 * 8 + 7, hp⟩ (1 : Fin 4) * 256 + 256
    omega
  | ⟨2, _⟩ =>
    show win1_3.index ⟨(i 0).val * 64 + (i 1).val / 256 * 8 + 7, hp⟩ (2 : Fin 4) * 16 ≤ (i 2).val
      ∧ (i 2).val < win1_3.index ⟨(i 0).val * 64 + (i 1).val / 256 * 8 + 7, hp⟩ (2 : Fin 4) * 16 + 16
    omega
  | ⟨3, _⟩ =>
    show win1_3.index ⟨(i 0).val * 64 + (i 1).val / 256 * 8 + 7, hp⟩ (3 : Fin 4) * 64 ≤ (i 3).val
      ∧ (i 3).val < win1_3.index ⟨(i 0).val * 64 + (i 1).val / 256 * 8 + 7, hp⟩ (3 : Fin 4) * 64 + 64
    omega

/-- So the output array ends holding the attention rows. -/
theorem arr_eq (c : Dev nD) (hfin : ∀ i, ∃ x : ℝ, aQkv V c i = ((x : ℝ) : EReal)) : oAtt V c = attG (aQkv V c) :=
  (dat1 V c).arrAt_eq_of_cover 3 (attG (aQkv V c)) (fun t hf => flushed_eq V c hfin t hf) covered

end AttnVal

theorem attn_arr (c : Dev nD) (hfin : ∀ i, ∃ x : ℝ, aQkv V c i = ((x : ℝ) : EReal))
    (bi : Fin 4) (n : Fin 2048) (h : Fin 16) (d : Fin 64) :
    oAtt V c (ix4 bi n h d)
      = attRow (fun d' => aQkv V c (ix4 0 (bh bi h) n d')) (fun mm d' => aQkv V c (ix4 1 (bh bi h) mm d'))
          (fun mm d' => aQkv V c (ix4 2 (bh bi h) mm d')) d :=
  (congrFun (AttnVal.arr_eq V c hfin) (ix4 bi n h d)).trans rfl

end Cert.KernelIdeal.Val

end
-- ==== Proof.Val.K2.lean ====
/- What the output projection leaves in its output array: each entry is the row of the attention output against the column of the transposed weight, plus the bias row's entry. -/
import proofs.«431026_j14723147891227_3_alg».proof.Proof.Val.Arr
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec
variable (V : (c : Dev nD) → (b : Ref sig .tc) → Buf (Elt Ideal) ((c : Thread nD τ).loc b))

namespace OutVal

/-! ## The block product's operand indices

The block product contracts the left operand's second axis against the right operand's first: at output index
`(p, q)` and contraction position `k` it reads the left operand at `(p, k)` and the right at `(k, q)`. One fact per
operand axis. -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero accumulator, at row `p` and column `q`: the row of the left block against the
    column of the right block. -/
theorem mm_apply (x0 x1 : S1024x1024.Idx → EReal) (p q : Fin 1024) :
    matmul (F := Ideal) (φ₁ := .bf16) (φ₂ := .bf16) dot_S1024x1024_S1024x1024_S1024x1024_1_0_0_1_n_n none x0 x1 (constant (F := Ideal) S1024x1024 .f32 0x00000000#32) (ix2 p q)
      = ∑ k : Fin 1024, x0 (ix2 p k) * x1 (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The body's stored value at row `p`, column `q` of the block: the row of the activations' block against the
    column of the weight's block, plus the bias row's entry at `q`. -/
theorem pay_apply (x0 x1 : S1024x1024.Idx → EReal) (x2 : S1x1024.Idx → EReal) (p q : Fin 1024) :
    k2_pay1 (F := Ideal) x0 x1 x2 (ix2 p q) = (∑ k : Fin 1024, x0 (ix2 p k) * x1 (ix2 k q)) + x2 (ix2 0 q) := by
  unfold k2_pay1
  rw [addf_apply]
  simp only [shapeCast_self]
  rw [mm_apply, broadcastTo_apply x2 broadcasts_S1x1024_S1024x1024 (ix2 p q) (ix2 0 q) (fun a => match a with
    | ⟨0, _⟩ => by show (0 : Nat) = if (1 : Nat) = 1 then 0 else _; rw [if_pos rfl]
    | ⟨1, _⟩ => by show q.val = if (1024 : Nat) = 1 then 0 else q.val; rw [if_neg (by decide)])]

/-! ## From the blocks to the array

The grid has 8 points; point `t` works on rows `1024 t … 1024 t + 1023` and all 1024 columns: the activations'
window and the output's window are at block `(t, 0)`, the weight's and the bias row's at block `(0, 0)`. -/

/-- The whole output array as one function of the three input arrays: at row `i 0` and feature `i 1`, the row of the
    activations against the column of the transposed weight, plus the bias row's entry. -/
abbrev outG (a : S8192x1024.Idx → EReal) (w : S1024x1024.Idx → EReal) (b : S1x1024.Idx → EReal) : S8192x1024.Idx → EReal :=
  fun i => (∑ k : Fin 1024, a (ix2 (n0 := 8192) (n1 := 1024) (i 0) k) * w (ix2 (n0 := 1024) (n1 := 1024) k (i 1)))
    + b (ix2 (n0 := 1) (n1 := 1024) 0 (i 1))

/-- The block indices of the four windows at every grid point, decided over the 8 points. -/
theorem blk_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored value at row `p`, column `q` of the block is `outG` of the arrays at the array index `i`, once
    each input block is the matching part of its array: the activations' block row `p` is the array's row `i 0`, the
    weight's block column `q` is the weight's column `i 1`, and the bias row's block entry `q` is the bias row's
    entry `i 1`. -/
theorem pay_eq_outG (a : S8192x1024.Idx → EReal) (w : S1024x1024.Idx → EReal) (b : S1x1024.Idx → EReal)
    (x0 x1 : S1024x1024.Idx → EReal) (x2 : S1x1024.Idx → EReal) (p q : Fin 1024) (i : S8192x1024.Idx)
    (h0 : ∀ k : Fin 1024, x0 (ix2 p k) = a (ix2 (n0 := 8192) (n1 := 1024) (i 0) k))
    (h1 : ∀ k : Fin 1024, x1 (ix2 k q) = w (ix2 (n0 := 1024) (n1 := 1024) k (i 1)))
    (h2 : x2 (ix2 0 q) = b (ix2 (n0 := 1) (n1 := 1024) 0 (i 1))) :
    k2_pay1 (F := Ideal) x0 x1 x2 (ix2 p q) = outG a w b i := by
  rw [pay_apply, h2]
  exact congrArg (· + b (ix2 (n0 := 1) (n1 := 1024) 0 (i 1))) (Finset.sum_congr rfl fun k _ => by rw [h0 k, h1 k])

/-- What point `t` writes back is block `t` of `outG` of the three input arrays as the region finds them. -/
theorem flushed_eq (c : Dev nD) (t : Fin cfg2.N) :
    (dat2 V c).flushed 3 t = ((cfg2.win 3).blk t).view.read (Elt Ideal) (outG (aAtt V c) (aWo V c) (aBo V c)) := by
  show (cfg2.win 3).cut (grid2.coords t) ((dat2 V c).after 3 t) = _
  rw [after2_3]
  obtain ⟨e00, e01, e10, e11, e20, e21, e30, e31⟩ := blk_idx t
  funext j
  obtain ⟨p, q, rfl⟩ : ∃ (p q : Fin 1024), j = ix2 p q := ⟨j 0, j 1, eq_ix2 j⟩
  show k2_pay1 (F := Ideal) (iblk2 V c 0 t) (iblk2 V c 1 t) (iblk2 V c 2 t) (ix2 p q)
    = outG (aAtt V c) (aWo V c) (aBo V c) (((cfg2.win 3).blk t).view.emb (ix2 p q))
  refine pay_eq_outG _ _ _ _ _ _ p q _ (fun k => ?_) (fun k => ?_) ?_
  · have h : ((cfg2.win 0).blk t).view.emb (ix2 p k)
        = ix2 (n0 := 8192) (n1 := 1024) (((cfg2.win 3).blk t).view.emb (ix2 p q) 0) k := by
      funext a; apply Fin.ext
      match a with
      | ⟨0, _⟩ => show win2_0.index t (0 : Fin 2) * 1024 + 1 * p.val = win2_3.index t (0 : Fin 2) * 1024 + 1 * p.val; omega
      | ⟨1, _⟩ => show win2_0.index t (1 : Fin 2) * 1024 + 1 * k.val = k.val; omega
    show V c main_v9 (((cfg2.win 0).blk t).view.emb (ix2 p k)) = V c main_v9 _
    rw [h]
  · have h : ((cfg2.win 1).blk t).view.emb (ix2 k q)
        = ix2 (n0 := 1024) (n1 := 1024) k (((cfg2.win 3).blk t).view.emb (ix2 p q) 1) := by
      funext a; apply Fin.ext
      match a with
      | ⟨0, _⟩ => show win2_1.index t (0 : Fin 2) * 1024 + 1 * k.val = k.val; omega
      | ⟨1, _⟩ => show win2_1.index t (1 : Fin 2) * 1024 + 1 * q.val = win2_3.index t (1 : Fin 2) * 1024 + 1 * q.val; omega
    show V c main_v11 (((cfg2.win 1).blk t).view.emb (ix2 k q)) = V c main_v11 _
    rw [h]
  · have h : ((cfg2.win 2).blk t).view.emb (ix2 0 q)
        = ix2 (n0 := 1) (n1 := 1024) 0 (((cfg2.win 3).blk t).view.emb (ix2 p q) 1) := by
      funext a; apply Fin.ext
      match a with
      | ⟨0, _⟩ => show win2_2.index t (0 : Fin 2) * 1 + 1 * 0 = 0; omega
      | ⟨1, _⟩ => show win2_2.index t (1 : Fin 2) * 1024 + 1 * q.val = win2_3.index t (1 : Fin 2) * 1024 + 1 * q.val; omega
    show V c main_v12 (((cfg2.win 2).blk t).view.emb (ix2 0 q)) = V c main_v12 _
    rw [h]

/-- An index of the output array is in point `t`'s block iff each coordinate is in the block's range on its axis. -/
theorem mem_blk (t : Fin cfg2.N) (i : S8192x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v13).slice (win2_3.rect t)).set ↔ _
  rw [View.set_slice_whole, Rect.mem_set_unit]
  exact Iff.rfl

/-- Every row block is some point's: block `(b, 0)` is point `b`'s. -/
theorem blk_onto : ∀ b : Fin 8, ∃ t : Fin cfg2.N, win2_3.index t (0 : Fin 2) = b.val ∧ win2_3.index t (1 : Fin 2) = 0 :=
  (by decide +kernel : ∀ b : Fin 8, ∃ t : Fin grid2.N, _)

/-- Every index of the output array is in the block of a point that writes it back: row `r` is in the block of point
    `r / 1024`, and every point writes its block back. -/
theorem covered (i : S8192x1024.Idx) :
    ∃ t : Fin cfg2.N, (cfg2.win 3).flush t = true ∧ i ∈ ((cfg2.win 3).blk t).view.set := by
  have hi0 : (i 0).val < 8192 := idx2_lt0 i
  have hi1 : (i 1).val < 1024 := idx2_lt1 i
  obtain ⟨t, ht0, ht1⟩ := blk_onto ⟨(i 0).val / 1024, by omega⟩
  have ht0' : win2_3.index t (0 : Fin 2) = (i 0).val / 1024 := ht0
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region: `outG` of the three input arrays as the region finds them. -/
theorem out_final (c : Dev nD) : (dat2 V c).arrAt 3 cfg2.N = outG (aAtt V c) (aWo V c) (aBo V c) :=
  (dat2 V c).arrAt_eq_of_cover 3 (outG (aAtt V c) (aWo V c) (aBo V c)) (fun t _ => flushed_eq V c t) covered

end OutVal

open OutVal

theorem out_arr (c : Dev nD) (r : Fin 8192) (o : Fin 1024) :
    oOut V c (ix2 r o) = (∑ k : Fin 1024, aAtt V c (ix2 r k) * aWo V c (ix2 k o)) + aBo V c (ix2 0 o) := by
  show (dat2 V c).arrAt 3 cfg2.N (ix2 r o) = _
  rw [out_final]

end Cert.KernelIdeal.Val

end
-- ==== Proof.Val.Host.lean ====
/- The host operations between the kernel regions, read entry by entry: reshapes, transposes and format changes only move entries. -/
import proofs.«431026_j14723147891227_3_alg».proof.Proof.Fr.Bounds
import proofs.«431026_j14723147891227_3_alg».proof.Proof.Val.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec

variable (m : (ℓ : Loc nD τ sig) → Buf (Elt Ideal) ℓ) (c : Dev nD)

/-- The input flattened to rows. -/
theorem host_x (bi : Fin 4) (n : Fin 2048) (k : Fin 1024) :
    (V1 m c main_v0 : S8192x1024.Idx → EReal) (ix2 (row bi n) k) = (m ((c : Thread nD τ).loc main_arg0) : S4x2048x1024.Idx → EReal) (ix3 bi n k) := by
  have e : (V1 m c main_v0 : S8192x1024.Idx → EReal)
      = shapeCast S8192x1024 (m ((c : Thread nD τ).loc main_arg0) : S4x2048x1024.Idx → EReal) shapeCasts_S4x2048x1024_S8192x1024 := by
    show StableHlo.after hostOps0 _ (Proc.devRef .tc main_v0) = _
    after_results
    rfl
  rw [e]
  refine shapeCast_apply _ _ _ _ ?_
  show (S4x2048x1024.rowMajor (ix3 bi n k)).val = (S8192x1024.rowMajor (ix2 (row bi n) k)).val
  rw [Shape.rowMajor_val_three, Shape.rowMajor_val_two]
  have h0 := bi.isLt; have h1 := n.isLt; have h2 := k.isLt
  show (bi.val * 2048 + n.val) * 1024 + k.val = (bi.val * 2048 + n.val) * 1024 + k.val
  rfl

/-- The QKV weight transposed (its change of format is the identity on the extended reals). -/
theorem host_wq (k : Fin 1024) (f : Fin 3072) :
    (V1 m c main_v2 : S1024x3072.Idx → EReal) (ix2 k f) = (m ((c : Thread nD τ).loc main_arg1) : S3072x1024.Idx → EReal) (ix2 f k) := by
  have e : (V1 m c main_v2 : S1024x3072.Idx → EReal)
      = (truncf .bf16 (transpose S1024x3072 [1, 0] (m ((c : Thread nD τ).loc main_arg1) : FVec Ideal S3072x1024 .f32) transposes_S3072x1024_S1024x3072_1_0) bitsLt_bf16_f32 : FVec Ideal S1024x3072 .bf16) := by
    show StableHlo.after hostOps0 _ (Proc.devRef .tc main_v2) = _
    after_results
  rw [e, truncf_apply]
  exact transpose_apply [1, 0] _ transposes_S3072x1024_S1024x3072_1_0 (ix2 k f) (ix2 f k) (fun b => match b with
    | ⟨0, _⟩ => rfl
    | ⟨1, _⟩ => rfl)

/-- The QKV bias as a row. -/
theorem host_bq (f : Fin 3072) :
    (V1 m c main_v3 : S1x3072.Idx → EReal) (ix2 0 f) = (m ((c : Thread nD τ).loc main_arg2) : S3072.Idx → EReal) (ix1 f) := by
  have e : (V1 m c main_v3 : S1x3072.Idx → EReal)
      = shapeCast S1x3072 (m ((c : Thread nD τ).loc main_arg2) : S3072.Idx → EReal) shapeCasts_S3072_S1x3072 := by
    show StableHlo.after hostOps0 _ (Proc.devRef .tc main_v3) = _
    after_results
    rfl
  rw [e]
  refine shapeCast_apply _ _ _ _ ?_
  show (S3072.rowMajor (ix1 f)).val = (S1x3072.rowMajor (ix2 0 f)).val
  rw [Shape.rowMajor_val_one, Shape.rowMajor_val_two]
  show f.val = 0 * 3072 + f.val
  omega

/-- q, k, v split by head: part `p`, batch-head `(bi, h)`, row `n`, column `d` is the projection's row `(bi, n)`, feature `(p, h, d)`. -/
theorem host_qkv (p : Fin 3) (bi : Fin 4) (h : Fin 16) (n : Fin 2048) (d : Fin 64) :
    (V3 m c main_v7 : S3x64x2048x64.Idx → EReal) (ix4 p (bh bi h) n d) = (W2 m c (Proc.devRef .tc main_v4) : S8192x3072.Idx → EReal) (ix2 (row bi n) (feat p h d)) := by
  have e : (V3 m c main_v7 : S3x64x2048x64.Idx → EReal)
      = shapeCast S3x64x2048x64
          (transpose S3x4x16x2048x64 [2, 0, 3, 1, 4]
            (shapeCast S4x2048x3x16x64 (W2 m c (Proc.devRef .tc main_v4) : S8192x3072.Idx → EReal) shapeCasts_S8192x3072_S4x2048x3x16x64)
            transposes_S4x2048x3x16x64_S3x4x16x2048x64_2_0_3_1_4)
          shapeCasts_S3x4x16x2048x64_S3x64x2048x64 := by
    show StableHlo.after hostOps1 _ (Proc.devRef .tc main_v7) = _
    after_results
    rfl
  rw [e]
  refine (shapeCast_apply _ shapeCasts_S3x4x16x2048x64_S3x64x2048x64 (ix4 p (bh bi h) n d) (ix5 p bi h n d) ?_).trans ?_
  · show (S3x4x16x2048x64.rowMajor (ix5 p bi h n d)).val = (S3x64x2048x64.rowMajor (ix4 p (bh bi h) n d)).val
    rw [Shape.rowMajor_val_five, Shape.rowMajor_val_four]
    show (((p.val * 4 + bi.val) * 16 + h.val) * 2048 + n.val) * 64 + d.val = ((p.val * 64 + (bi.val * 16 + h.val)) * 2048 + n.val) * 64 + d.val
    omega
  refine (transpose_apply [2, 0, 3, 1, 4] _ transposes_S4x2048x3x16x64_S3x4x16x2048x64_2_0_3_1_4 (ix5 p bi h n d) (ix5 bi n p h d) (fun b => match b with
    | ⟨0, _⟩ => rfl
    | ⟨1, _⟩ => rfl
    | ⟨2, _⟩ => rfl
    | ⟨3, _⟩ => rfl
    | ⟨4, _⟩ => rfl)).trans ?_
  refine shapeCast_apply _ shapeCasts_S8192x3072_S4x2048x3x16x64 (ix5 bi n p h d) (ix2 (row bi n) (feat p h d)) ?_
  show (S8192x3072.rowMajor (ix2 (row bi n) (feat p h d))).val = (S4x2048x3x16x64.rowMajor (ix5 bi n p h d)).val
  rw [Shape.rowMajor_val_five, Shape.rowMajor_val_two]
  show (bi.val * 2048 + n.val) * 3072 + (p.val * 1024 + h.val * 64 + d.val) = (((bi.val * 2048 + n.val) * 3 + p.val) * 16 + h.val) * 64 + d.val
  omega

/-- No operation before the output projection writes the output weight: it is as launched. -/
theorem W4_arg3 : W4 m c (Proc.devRef .tc main_arg3) = m ((c : Thread nD τ).loc main_arg3) := by
  rw [W4_of_ne m c main_arg3 (by decide)]
  have e3 : W3 m c (Proc.devRef .tc main_arg3) = W2 m c (Proc.devRef .tc main_arg3) := by
    show StableHlo.after hostOps1 _ (Proc.devRef .tc main_arg3) = _
    after_results
  rw [e3, W2_of_ne m c main_arg3 (by decide)]
  show StableHlo.after hostOps0 _ (Proc.devRef .tc main_arg3) = _
  after_results

/-- Nor the output bias. -/
theorem W4_arg4 : W4 m c (Proc.devRef .tc main_arg4) = m ((c : Thread nD τ).loc main_arg4) := by
  rw [W4_of_ne m c main_arg4 (by decide)]
  have e3 : W3 m c (Proc.devRef .tc main_arg4) = W2 m c (Proc.devRef .tc main_arg4) := by
    show StableHlo.after hostOps1 _ (Proc.devRef .tc main_arg4) = _
    after_results
  rw [e3, W2_of_ne m c main_arg4 (by decide)]
  show StableHlo.after hostOps0 _ (Proc.devRef .tc main_arg4) = _
  after_results

/-- The attention output flattened: row `(bi, n)`, column `(h, d)`. -/
theorem host_att (bi : Fin 4) (n : Fin 2048) (h : Fin 16) (d : Fin 64) :
    (V5 m c main_v9 : S8192x1024.Idx → EReal) (ix2 (row bi n) (col h d)) = (W4 m c (Proc.devRef .tc main_v8) : S4x2048x16x64.Idx → EReal) (ix4 bi n h d) := by
  have e : (V5 m c main_v9 : S8192x1024.Idx → EReal)
      = shapeCast S8192x1024 (W4 m c (Proc.devRef .tc main_v8) : S4x2048x16x64.Idx → EReal) shapeCasts_S4x2048x16x64_S8192x1024 := by
    show StableHlo.after hostOps2 _ (Proc.devRef .tc main_v9) = _
    after_results
    rfl
  rw [e]
  refine shapeCast_apply _ shapeCasts_S4x2048x16x64_S8192x1024 (ix2 (row bi n) (col h d)) (ix4 bi n h d) ?_
  show (S4x2048x16x64.rowMajor (ix4 bi n h d)).val = (S8192x1024.rowMajor (ix2 (row bi n) (col h d))).val
  rw [Shape.rowMajor_val_four, Shape.rowMajor_val_two]
  show ((bi.val * 2048 + n.val) * 16 + h.val) * 64 + d.val = (bi.val * 2048 + n.val) * 1024 + (h.val * 64 + d.val)
  omega

/-- The output weight transposed. -/
theorem host_wo (k : Fin 1024) (o : Fin 1024) :
    (V5 m c main_v11 : S1024x1024.Idx → EReal) (ix2 k o) = (m ((c : Thread nD τ).loc main_arg3) : S1024x1024.Idx → EReal) (ix2 o k) := by
  have e : (V5 m c main_v11 : S1024x1024.Idx → EReal)
      = (truncf .bf16 (transpose S1024x1024 [1, 0] (W4 m c (Proc.devRef .tc main_arg3) : FVec Ideal S1024x1024 .f32) transposes_S1024x1024_S1024x1024_1_0) bitsLt_bf16_f32 : FVec Ideal S1024x1024 .bf16) := by
    show StableHlo.after hostOps2 _ (Proc.devRef .tc main_v11) = _
    after_results
  rw [e, truncf_apply, W4_arg3 m c]
  exact transpose_apply [1, 0] _ transposes_S1024x1024_S1024x1024_1_0 (ix2 k o) (ix2 o k) (fun b => match b with
    | ⟨0, _⟩ => rfl
    | ⟨1, _⟩ => rfl)

/-- The output bias as a row. -/
theorem host_bo (o : Fin 1024) :
    (V5 m c main_v12 : S1x1024.Idx → EReal) (ix2 0 o) = (m ((c : Thread nD τ).loc main_arg4) : S1024.Idx → EReal) (ix1 o) := by
  have e : (V5 m c main_v12 : S1x1024.Idx → EReal)
      = shapeCast S1x1024 (W4 m c (Proc.devRef .tc main_arg4) : S1024.Idx → EReal) shapeCasts_S1024_S1x1024 := by
    show StableHlo.after hostOps2 _ (Proc.devRef .tc main_v12) = _
    after_results
    rfl
  rw [e, W4_arg4 m c]
  refine shapeCast_apply _ shapeCasts_S1024_S1x1024 (ix2 0 o) (ix1 o) ?_
  show (S1024.rowMajor (ix1 o)).val = (S1x1024.rowMajor (ix2 0 o)).val
  rw [Shape.rowMajor_val_one, Shape.rowMajor_val_two]
  show o.val = 0 * 1024 + o.val
  omega

/-- The result unflattened. -/
theorem host_res (bi : Fin 4) (n : Fin 2048) (o : Fin 1024) :
    (W7 m c (Proc.devRef .tc main_v14) : S4x2048x1024.Idx → EReal) (ix3 bi n o) = (W6 m c (Proc.devRef .tc main_v13) : S8192x1024.Idx → EReal) (ix2 (row bi n) o) := by
  have e : (W7 m c (Proc.devRef .tc main_v14) : S4x2048x1024.Idx → EReal)
      = shapeCast S4x2048x1024 (W6 m c (Proc.devRef .tc main_v13) : S8192x1024.Idx → EReal) shapeCasts_S8192x1024_S4x2048x1024 := by
    show StableHlo.after hostOps3 _ (Proc.devRef .tc main_v14) = _
    after_results
    rfl
  rw [e]
  refine shapeCast_apply _ shapeCasts_S8192x1024_S4x2048x1024 (ix3 bi n o) (ix2 (row bi n) o) ?_
  show (S8192x1024.rowMajor (ix2 (row bi n) o)).val = (S4x2048x1024.rowMajor (ix3 bi n o)).val
  rw [Shape.rowMajor_val_two, Shape.rowMajor_val_three]
  show (bi.val * 2048 + n.val) * 1024 + o.val = (bi.val * 2048 + n.val) * 1024 + o.val
  rfl

end Cert.KernelIdeal.Val

end
-- ==== Proof.Val.Compose.lean ====
/-
  The kernel program's result, entry by entry, is multi-head attention of its inputs: the result array is the output
  projection's array unflattened; its rows against the transposed output weight read the attention region's array, whose
  entries are softmax-attention rows of q, k, v; those are entries of the QKV projection's array, which are rows of the
  input against rows of the QKV weight plus the bias. The attention step needs q, k, v finite: a sum of products of
  reals plus a real is real.
-/
import proofs.«431026_j14723147891227_3_alg».proof.Proof.Val.K0
import proofs.«431026_j14723147891227_3_alg».proof.Proof.Val.K1
import proofs.«431026_j14723147891227_3_alg».proof.Proof.Val.K2
import proofs.«431026_j14723147891227_3_alg».proof.Proof.Val.Host

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Spec

variable (m : (ℓ : Loc nD τ sig) → Buf (Elt Ideal) ℓ) (c : Dev nD)

/-- The five inputs as functions of plain coordinates. -/
def xS (bi : Fin 4) (n : Fin 2048) (k : Fin 1024) : EReal := (m ((c : Thread nD τ).loc main_arg0) : S4x2048x1024.Idx → EReal) (ix3 bi n k)
def wqS (f : Fin 3072) (k : Fin 1024) : EReal := (m ((c : Thread nD τ).loc main_arg1) : S3072x1024.Idx → EReal) (ix2 f k)
def bqS (f : Fin 3072) : EReal := (m ((c : Thread nD τ).loc main_arg2) : S3072.Idx → EReal) (ix1 f)
def woS (o : Fin 1024) (k : Fin 1024) : EReal := (m ((c : Thread nD τ).loc main_arg3) : S1024x1024.Idx → EReal) (ix2 o k)
def boS (o : Fin 1024) : EReal := (m ((c : Thread nD τ).loc main_arg4) : S1024.Idx → EReal) (ix1 o)

/-- A finite sum of products of reals, plus a real, is a real. -/
theorem real_lin {K : ℕ} (x w : Fin K → EReal) (b : EReal) (hx : ∀ k, ∃ r : ℝ, x k = ((r : ℝ) : EReal))
    (hw : ∀ k, ∃ r : ℝ, w k = ((r : ℝ) : EReal)) (hb : ∃ r : ℝ, b = ((r : ℝ) : EReal)) :
    ∃ r : ℝ, (∑ k : Fin K, x k * w k) + b = ((r : ℝ) : EReal) := by
  choose xr hxr using hx
  choose wr hwr using hw
  obtain ⟨br, rfl⟩ := hb
  have hs : ∀ s : Finset (Fin K), (∑ k ∈ s, x k * w k) = (((∑ k ∈ s, xr k * wr k : ℝ) : ℝ) : EReal) := by
    intro s
    induction s using Finset.induction_on with
    | empty => simp
    | insert a s ha ih => rw [Finset.sum_insert ha, Finset.sum_insert ha, ih, hxr, hwr, EReal.coe_add, EReal.coe_mul]
  exact ⟨(∑ k : Fin K, xr k * wr k) + br, by rw [hs, EReal.coe_add]⟩

/-- An entry of the attention region's input array is an entry of the fused projection. -/
theorem qkv_entry (p : Fin 3) (bi : Fin 4) (h : Fin 16) (n : Fin 2048) (d : Fin 64) :
    aQkv (V3 m) c (ix4 p (bh bi h) n d) = qkvS (xS m c) (wqS m c) (bqS m c) bi n (feat p h d) := by
  have hx : ∀ k, aX (V1 m) c (ix2 (row bi n) k) = xS m c bi n k := fun k => host_x m c bi n k
  have hw : ∀ k, aWq (V1 m) c (ix2 k (feat p h d)) = wqS m c (feat p h d) k := fun k => host_wq m c k (feat p h d)
  have hb : aBq (V1 m) c (ix2 0 (feat p h d)) = bqS m c (feat p h d) := host_bq m c (feat p h d)
  refine (host_qkv m c p bi h n d).trans ?_
  refine (congrFun (W2_out m c) _).trans ?_
  refine (qkv_arr (V1 m) c (row bi n) (feat p h d)).trans ?_
  unfold qkvS
  rw [hb]
  exact congrArg (· + bqS m c (feat p h d)) (Finset.sum_congr rfl fun k _ => by rw [hx, hw])

/-- Under real inputs every entry of the attention region's input array is real. -/
theorem qkv_real (hx : ∀ bi n k, ∃ r : ℝ, xS m c bi n k = ((r : ℝ) : EReal)) (hw : ∀ f k, ∃ r : ℝ, wqS m c f k = ((r : ℝ) : EReal))
    (hb : ∀ f, ∃ r : ℝ, bqS m c f = ((r : ℝ) : EReal)) :
    ∀ i, ∃ r : ℝ, aQkv (V3 m) c i = ((r : ℝ) : EReal) := by
  intro i
  obtain ⟨p, g, n, d, rfl⟩ : ∃ (p : Fin 3) (g : Fin 64) (n : Fin 2048) (d : Fin 64), i = ix4 p g n d := ⟨i 0, i 1, i 2, i 3, eq_ix4 i⟩
  have hg : g = bh ⟨g.val / 16, by omega⟩ ⟨g.val % 16, by omega⟩ := Fin.ext (by simp only [bh]; omega)
  rw [hg, qkv_entry]
  exact real_lin _ _ _ (fun k => hx _ _ k) (fun k => hw _ k) (hb _)

/-- THE KERNEL'S VALUE: the result array at (batch, row, feature) is multi-head attention of the inputs. -/
theorem kernel_value (hx : ∀ bi n k, ∃ r : ℝ, xS m c bi n k = ((r : ℝ) : EReal)) (hw : ∀ f k, ∃ r : ℝ, wqS m c f k = ((r : ℝ) : EReal))
    (hb : ∀ f, ∃ r : ℝ, bqS m c f = ((r : ℝ) : EReal)) (bi : Fin 4) (n : Fin 2048) (o : Fin 1024) :
    (W7 m c (Proc.devRef .tc main_v14) : S4x2048x1024.Idx → EReal) (ix3 bi n o)
      = full (xS m c) (wqS m c) (bqS m c) (woS m c) (boS m c) bi n o := by
  have hfin := qkv_real m c hx hw hb
  have hatt : ∀ cc : Fin 1024, aAtt (V5 m) c (ix2 (row bi n) cc)
      = attS (qkvS (xS m c) (wqS m c) (bqS m c)) bi n ⟨cc.val / 64, by omega⟩ ⟨cc.val % 64, by omega⟩ := fun cc => by
    have hcc : cc = col ⟨cc.val / 64, by omega⟩ ⟨cc.val % 64, by omega⟩ := Fin.ext (by simp only [col]; omega)
    conv_lhs => rw [hcc]
    refine (host_att m c bi n _ _).trans ?_
    refine (congrFun (W4_out m c) _).trans ?_
    refine (attn_arr (V3 m) c hfin bi n _ _).trans ?_
    unfold attS
    exact congr (congr (congr (congrArg attRow (funext fun d' => qkv_entry m c 0 bi _ n d'))
      (funext fun mm => funext fun d' => qkv_entry m c 1 bi _ mm d')) (funext fun mm => funext fun d' => qkv_entry m c 2 bi _ mm d')) rfl
  have hwo : ∀ k, aWo (V5 m) c (ix2 k o) = woS m c o k := fun k => host_wo m c k o
  have hbo : aBo (V5 m) c (ix2 0 o) = boS m c o := host_bo m c o
  refine (host_res m c bi n o).trans ?_
  refine (congrFun (W6_out m c) _).trans ?_
  refine (out_arr (V5 m) c (row bi n) o).trans ?_
  unfold full outS
  rw [hbo]
  exact congrArg (· + boS m c o) (Finset.sum_congr rfl fun k _ => by rw [hatt, hwo])

end Cert.KernelIdeal.Val

end
-- ==== Proof.Val.Ref.lean ====
/- The reference program's result, read one operation at a time, is multi-head attention of its arguments. -/
import proofs.«431026_j14723147891227_3_alg».proof.Proof.Gen.ReferenceIdeal.Read
import proofs.«431026_j14723147891227_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen Cert.KernelIdeal.Spec

open Cert.ReferenceIdeal.Read

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-! ## The literals -/

/-- The word 0x41000000 is eight. -/
theorem ofBits_eight : Ideal.ofBits .f32 0x41000000#32 = (8 : EReal) := by
  rw [show (8 : EReal) = ((8 : ℝ) : EReal) by norm_cast]
  simp [Ideal.ofBits, Ideal.ieee, -EReal.coe_mul]; norm_num

/-- The word 0xFF800000 is minus infinity. -/
theorem ofBits_bot : Ideal.ofBits .f32 0xFF800000#32 = (⊥ : EReal) := by simp [Ideal.ofBits, Ideal.ieee]

/-! ## The fused projection -/

theorem lidx0 (bi : Fin 4) (n : Fin 2048) (f : Fin 3072) (k : Fin 1024) : lidx_main_v0 (ix3 bi n f) k = ix3 bi n k :=
  funext fun a => Fin.ext (by match a with | ⟨0, _⟩ => rfl | ⟨1, _⟩ => rfl | ⟨2, _⟩ => rfl)
theorem ridx0 (bi : Fin 4) (n : Fin 2048) (f : Fin 3072) (k : Fin 1024) : ridx_main_v0 (ix3 bi n f) k = ix2 f k :=
  funext fun a => Fin.ext (by match a with | ⟨0, _⟩ => rfl | ⟨1, _⟩ => rfl)
theorem idx12 (bi : Fin 4) (n : Fin 2048) (f : Fin 3072) : idx_main_v1 (idx_main_v2 (ix3 bi n f)) = ix1 f :=
  funext fun a => Fin.ext (by match a with | ⟨0, _⟩ => rfl)

/-- The projection at (batch, row, feature): the row of the input against the feature's weight row, plus the bias. -/
theorem proj_at (bi : Fin 4) (n : Fin 2048) (f : Fin 3072) :
    (val_main_v3 (F := Ideal) x0 x1 x2 : S4x2048x3072.Idx → EReal) (ix3 bi n f)
      = qkvS (fun bi n k => (x0 : S4x2048x1024.Idx → EReal) (ix3 bi n k)) (fun f k => (x1 : S3072x1024.Idx → EReal) (ix2 f k))
          (fun f => (x2 : S3072.Idx → EReal) (ix1 f)) bi n f := by
  rw [val_main_v3_apply, val_main_v0_apply, val_main_v2_apply, val_main_v1_apply, idx12]
  simp only [lidx0, ridx0, Ideal.addf_def]
  rfl

/-! ## Queries, keys and values: part `p` of the projection's feature axis, head by head -/

theorem idxT7 (bi : Fin 4) (h : Fin 16) (n : Fin 2048) (d : Fin 64) : idx_main_v7 (ix4 bi h n d) = ix4 bi n h d :=
  funext fun a => Fin.ext (by match a with | ⟨0, _⟩ => rfl | ⟨1, _⟩ => rfl | ⟨2, _⟩ => rfl | ⟨3, _⟩ => rfl)
theorem idxT10 (bi : Fin 4) (h : Fin 16) (n : Fin 2048) (d : Fin 64) : idx_main_v10 (ix4 bi h n d) = ix4 bi n h d := idxT7 bi h n d
theorem idxT13 (bi : Fin 4) (h : Fin 16) (n : Fin 2048) (d : Fin 64) : idx_main_v13 (ix4 bi h n d) = ix4 bi n h d := idxT7 bi h n d

/-- Dropping the unit axis: the flat position (((b·2048 + n)·16 + h)·64 + d) read back over 4 x 2048 x 1 x 16 x 64. -/
theorem idxR6 (bi : Fin 4) (n : Fin 2048) (h : Fin 16) (d : Fin 64) : idx_main_v6 (ix4 bi n h d) = ix5 bi n (0 : Fin 1) h d := by
  have := bi.isLt; have := n.isLt; have := h.isLt; have := d.isLt
  exact funext fun a => Fin.ext (by
    match a with
    | ⟨0, _⟩ => show (((bi.val * 2048 + n.val) * 16 + h.val) * 64 + d.val) / 2097152 = bi.val; omega
    | ⟨1, _⟩ => show (((bi.val * 2048 + n.val) * 16 + h.val) * 64 + d.val) / 1024 % 2048 = n.val; omega
    | ⟨2, _⟩ => rfl
    | ⟨3, _⟩ => show (((bi.val * 2048 + n.val) * 16 + h.val) * 64 + d.val) / 64 % 16 = h.val; omega
    | ⟨4, _⟩ => show (((bi.val * 2048 + n.val) * 16 + h.val) * 64 + d.val) % 64 = d.val; omega)
theorem idxR9 (bi : Fin 4) (n : Fin 2048) (h : Fin 16) (d : Fin 64) : idx_main_v9 (ix4 bi n h d) = ix5 bi n (0 : Fin 1) h d := idxR6 bi n h d
theorem idxR12 (bi : Fin 4) (n : Fin 2048) (h : Fin 16) (d : Fin 64) : idx_main_v12 (ix4 bi n h d) = ix5 bi n (0 : Fin 1) h d := idxR6 bi n h d

/-- The three slices take parts 0, 1 and 2 of the axis of size three. -/
theorem idxS5 (bi : Fin 4) (n : Fin 2048) (h : Fin 16) (d : Fin 64) : idx_main_v5 (ix5 bi n (0 : Fin 1) h d) = ix5 bi n (0 : Fin 3) h d :=
  funext fun a => Fin.ext (by match a with | ⟨0, _⟩ => rfl | ⟨1, _⟩ => rfl | ⟨2, _⟩ => rfl | ⟨3, _⟩ => rfl | ⟨4, _⟩ => rfl)
theorem idxS8 (bi : Fin 4) (n : Fin 2048) (h : Fin 16) (d : Fin 64) : idx_main_v8 (ix5 bi n (0 : Fin 1) h d) = ix5 bi n (1 : Fin 3) h d :=
  funext fun a => Fin.ext (by match a with | ⟨0, _⟩ => rfl | ⟨1, _⟩ => rfl | ⟨2, _⟩ => rfl | ⟨3, _⟩ => rfl | ⟨4, _⟩ => rfl)
theorem idxS11 (bi : Fin 4) (n : Fin 2048) (h : Fin 16) (d : Fin 64) : idx_main_v11 (ix5 bi n (0 : Fin 1) h d) = ix5 bi n (2 : Fin 3) h d :=
  funext fun a => Fin.ext (by match a with | ⟨0, _⟩ => rfl | ⟨1, _⟩ => rfl | ⟨2, _⟩ => rfl | ⟨3, _⟩ => rfl | ⟨4, _⟩ => rfl)

/-- Splitting the feature axis 3072 = 3 x 16 x 64: (part, head, column) is feature part·1024 + head·64 + column. -/
theorem idxR4 (bi : Fin 4) (n : Fin 2048) (p : Fin 3) (h : Fin 16) (d : Fin 64) : idx_main_v4 (ix5 bi n p h d) = ix3 bi n (feat p h d) := by
  have := bi.isLt; have := n.isLt; have := p.isLt; have := h.isLt; have := d.isLt
  exact funext fun a => Fin.ext (by
    match a with
    | ⟨0, _⟩ => show ((((bi.val * 2048 + n.val) * 3 + p.val) * 16 + h.val) * 64 + d.val) / 6291456 = bi.val; omega
    | ⟨1, _⟩ => show ((((bi.val * 2048 + n.val) * 3 + p.val) * 16 + h.val) * 64 + d.val) / 3072 % 2048 = n.val; omega
    | ⟨2, _⟩ => show ((((bi.val * 2048 + n.val) * 3 + p.val) * 16 + h.val) * 64 + d.val) % 3072 = p.val * 1024 + h.val * 64 + d.val; omega)

/-- The queries at (batch, head, row, column) are part 0 of the projection. -/
theorem q_at (bi : Fin 4) (h : Fin 16) (n : Fin 2048) (d : Fin 64) :
    val_main_v7 (F := Ideal) x0 x1 x2 (ix4 bi h n d) = val_main_v3 (F := Ideal) x0 x1 x2 (ix3 bi n (feat 0 h d)) := by
  rw [val_main_v7_apply, val_main_v6_apply, val_main_v5_apply, val_main_v4_apply, idxT7, idxR6, idxS5, idxR4]
/-- The keys are part 1. -/
theorem k_at (bi : Fin 4) (h : Fin 16) (n : Fin 2048) (d : Fin 64) :
    val_main_v10 (F := Ideal) x0 x1 x2 (ix4 bi h n d) = val_main_v3 (F := Ideal) x0 x1 x2 (ix3 bi n (feat 1 h d)) := by
  rw [val_main_v10_apply, val_main_v9_apply, val_main_v8_apply, val_main_v4_apply, idxT10, idxR9, idxS8, idxR4]
/-- The values are part 2. -/
theorem v_at (bi : Fin 4) (h : Fin 16) (n : Fin 2048) (d : Fin 64) :
    val_main_v13 (F := Ideal) x0 x1 x2 (ix4 bi h n d) = val_main_v3 (F := Ideal) x0 x1 x2 (ix3 bi n (feat 2 h d)) := by
  rw [val_main_v13_apply, val_main_v12_apply, val_main_v11_apply, val_main_v4_apply, idxT13, idxR12, idxS11, idxR4]

/-! ## The scores -/

theorem lidx14 (bi : Fin 4) (h : Fin 16) (n mm : Fin 2048) (k : Fin 64) : lidx_main_v14 (ix4 bi h n mm) k = ix4 bi h n k :=
  funext fun a => Fin.ext (by match a with | ⟨0, _⟩ => rfl | ⟨1, _⟩ => rfl | ⟨2, _⟩ => rfl | ⟨3, _⟩ => rfl)
theorem ridx14 (bi : Fin 4) (h : Fin 16) (n mm : Fin 2048) (k : Fin 64) : ridx_main_v14 (ix4 bi h n mm) k = ix4 bi h mm k :=
  funext fun a => Fin.ext (by match a with | ⟨0, _⟩ => rfl | ⟨1, _⟩ => rfl | ⟨2, _⟩ => rfl | ⟨3, _⟩ => rfl)

/-- The score of query row `n` against key row `mm` in head `h`: their inner product over eight. -/
theorem score_at (bi : Fin 4) (h : Fin 16) (n mm : Fin 2048) :
    (val_main_v16 (F := Ideal) x0 x1 x2 : S4x16x2048x2048.Idx → EReal) (ix4 bi h n mm)
      = score (fun d => (val_main_v3 (F := Ideal) x0 x1 x2 : S4x2048x3072.Idx → EReal) (ix3 bi n (feat 0 h d)))
          (fun mm d => (val_main_v3 (F := Ideal) x0 x1 x2 : S4x2048x3072.Idx → EReal) (ix3 bi mm (feat 1 h d))) mm := by
  rw [val_main_v16_apply, val_main_v14_apply, val_main_v15_apply, val_main_cst_apply]
  simp only [lidx14, ridx14, q_at, k_at, Ideal.hostDivf_def, Ideal.ofBits_def, ofBits_eight]
  rfl

/-! ## The row maximum -/

/-- The reduced index (batch, head, row) with key position `k` put back on the last axis. -/
theorem lift_row (hr : S4x16x2048x2048.Reduces [3] S4x16x2048) (bi : Fin 4) (h : Fin 16) (n : Fin 2048)
    (k : Fin (S4x16x2048x2048.size 3)) : hr.lift (ix3 bi h n) k = ix4 bi h n (⟨k.val, k.isLt⟩ : Fin 2048) :=
  funext fun c => Fin.ext (by match c with | ⟨0, _⟩ => rfl | ⟨1, _⟩ => rfl | ⟨2, _⟩ => rfl | ⟨3, _⟩ => rfl)

/-- The maximum with minus infinity of the maximum, from minus infinity, over the key positions is the row's supremum. -/
theorem rowmax_at (bi : Fin 4) (h : Fin 16) (n : Fin 2048) :
    (val_main_v19 (F := Ideal) x0 x1 x2 : S4x16x2048.Idx → EReal) (ix3 bi h n)
      = Finset.univ.sup fun mm : Fin 2048 => (val_main_v16 (F := Ideal) x0 x1 x2 : S4x16x2048x2048.Idx → EReal) (ix4 bi h n mm) := by
  have hr : S4x16x2048x2048.Reduces [3] S4x16x2048 := by decide
  rw [val_main_v19_apply, val_main_v18_apply, val_main_cst_1_apply]
  unfold val_main_v17
  generalize val_main_v16 (F := Ideal) x0 x1 x2 = y
  simp only [Ideal.ofBits_def, ofBits_bot, Ideal.maximumf_def]
  have hf : (y ∘ hr.lift (ix3 bi h n)) = fun k : Fin 2048 => y (ix4 bi h n k) :=
    funext fun k => congrArg y (lift_row hr bi h n k)
  refine (max_bot_left _).trans ?_
  refine (Host.reduce_eq_fold_single (FloatOps.maximumf (F := Ideal) (φ := .f32)) y _ _ hr _ (ix3 bi h n)).trans ?_
  rw [val_main_cst_0_apply]
  simp only [Ideal.ofBits_def, ofBits_bot]
  exact congrArg (fun g : Fin 2048 → EReal => Finset.univ.fold max ⊥ g) hf

/-! ## The softmax row against the values -/

theorem idx2021 (bi : Fin 4) (h : Fin 16) (n mm : Fin 2048) : idx_main_v20 (idx_main_v21 (ix4 bi h n mm)) = ix3 bi h n :=
  funext fun a => Fin.ext (by match a with | ⟨0, _⟩ => rfl | ⟨1, _⟩ => rfl | ⟨2, _⟩ => rfl)
theorem idx2526 (bi : Fin 4) (h : Fin 16) (n mm : Fin 2048) : idx_main_v25 (idx_main_v26 (ix4 bi h n mm)) = ix3 bi h n :=
  funext fun a => Fin.ext (by match a with | ⟨0, _⟩ => rfl | ⟨1, _⟩ => rfl | ⟨2, _⟩ => rfl)
theorem idx24 (bi : Fin 4) (h : Fin 16) (n k : Fin 2048) : idx_main_v24 (ix3 bi h n) k = ix4 bi h n k :=
  funext fun a => Fin.ext (by match a with | ⟨0, _⟩ => rfl | ⟨1, _⟩ => rfl | ⟨2, _⟩ => rfl | ⟨3, _⟩ => rfl)
theorem lidx28 (bi : Fin 4) (h : Fin 16) (n : Fin 2048) (d : Fin 64) (k : Fin 2048) : lidx_main_v28 (ix4 bi h n d) k = ix4 bi h n k :=
  funext fun a => Fin.ext (by match a with | ⟨0, _⟩ => rfl | ⟨1, _⟩ => rfl | ⟨2, _⟩ => rfl | ⟨3, _⟩ => rfl)
theorem ridx28 (bi : Fin 4) (h : Fin 16) (n : Fin 2048) (d : Fin 64) (k : Fin 2048) : ridx_main_v28 (ix4 bi h n d) k = ix4 bi h k d :=
  funext fun a => Fin.ext (by match a with | ⟨0, _⟩ => rfl | ⟨1, _⟩ => rfl | ⟨2, _⟩ => rfl | ⟨3, _⟩ => rfl)

/-- The exponential of a score less its row's maximum. -/
theorem exp_at (bi : Fin 4) (h : Fin 16) (n mm : Fin 2048) :
    (val_main_v23 (F := Ideal) x0 x1 x2 : S4x16x2048x2048.Idx → EReal) (ix4 bi h n mm)
      = Ideal.exp ((val_main_v16 (F := Ideal) x0 x1 x2 : S4x16x2048x2048.Idx → EReal) (ix4 bi h n mm)
          - Finset.univ.sup fun mm' : Fin 2048 => (val_main_v16 (F := Ideal) x0 x1 x2 : S4x16x2048x2048.Idx → EReal) (ix4 bi h n mm')) := by
  rw [val_main_v23_apply, val_main_v22_apply, val_main_v21_apply, val_main_v20_apply, idx2021, rowmax_at]
  simp only [Ideal.hostUnary_exp_def, Ideal.subf_def]

/-- The row's denominator: zero plus the sum of the exponentials. -/
theorem den_at (bi : Fin 4) (h : Fin 16) (n : Fin 2048) :
    (val_main_v24 (F := Ideal) x0 x1 x2 : S4x16x2048.Idx → EReal) (ix3 bi h n)
      = ∑ mm : Fin 2048, Ideal.exp ((val_main_v16 (F := Ideal) x0 x1 x2 : S4x16x2048x2048.Idx → EReal) (ix4 bi h n mm)
          - Finset.univ.sup fun mm' : Fin 2048 => (val_main_v16 (F := Ideal) x0 x1 x2 : S4x16x2048x2048.Idx → EReal) (ix4 bi h n mm')) := by
  rw [val_main_v24_apply, val_main_cst_2_apply]
  simp only [idx24, exp_at, Ideal.ofBits_def, Ideal.ofBits_zero_f32, zero_add]

/-- One attention entry: the softmax of the row's scores applied to the column of the values. -/
theorem att_at (bi : Fin 4) (h : Fin 16) (n : Fin 2048) (d : Fin 64) :
    (val_main_v28 (F := Ideal) x0 x1 x2 : S4x16x2048x64.Idx → EReal) (ix4 bi h n d)
      = softRow (fun mm : Fin 2048 => (val_main_v16 (F := Ideal) x0 x1 x2 : S4x16x2048x2048.Idx → EReal) (ix4 bi h n mm))
          (fun mm : Fin 2048 => (val_main_v13 (F := Ideal) x0 x1 x2 : S4x16x2048x64.Idx → EReal) (ix4 bi h mm d)) := by
  rw [val_main_v28_apply]
  simp only [lidx28, ridx28, val_main_v27_apply, val_main_v26_apply, val_main_v25_apply, idx2526, den_at, exp_at, Ideal.hostDivf_def]
  rfl

/-- One attention entry from the projection: head `h`'s attention of query row `n`, column `d`. -/
theorem head_at (bi : Fin 4) (h : Fin 16) (n : Fin 2048) (d : Fin 64) :
    (val_main_v28 (F := Ideal) x0 x1 x2 : S4x16x2048x64.Idx → EReal) (ix4 bi h n d)
      = attS (qkvS (fun bi n k => (x0 : S4x2048x1024.Idx → EReal) (ix3 bi n k)) (fun f k => (x1 : S3072x1024.Idx → EReal) (ix2 f k))
          (fun f => (x2 : S3072.Idx → EReal) (ix1 f))) bi n h d := by
  rw [att_at]
  simp only [score_at, v_at, proj_at]
  rfl

/-! ## The heads side by side, and the output projection -/

theorem idxT29 (bi : Fin 4) (n : Fin 2048) (h : Fin 16) (d : Fin 64) : idx_main_v29 (ix4 bi n h d) = ix4 bi h n d :=
  funext fun a => Fin.ext (by match a with | ⟨0, _⟩ => rfl | ⟨1, _⟩ => rfl | ⟨2, _⟩ => rfl | ⟨3, _⟩ => rfl)

/-- Merging 16 x 64 into 1024: column `cc` is head `cc / 64`, column `cc % 64` of it. -/
theorem idxR30 (bi : Fin 4) (n : Fin 2048) (cc : Fin 1024) :
    idx_main_v30 (ix3 bi n cc) = ix4 bi n (⟨cc.val / 64, by omega⟩ : Fin 16) (⟨cc.val % 64, by omega⟩ : Fin 64) := by
  have := bi.isLt; have := n.isLt; have := cc.isLt
  exact funext fun a => Fin.ext (by
    match a with
    | ⟨0, _⟩ => show ((bi.val * 2048 + n.val) * 1024 + cc.val) / 2097152 = bi.val; omega
    | ⟨1, _⟩ => show ((bi.val * 2048 + n.val) * 1024 + cc.val) / 1024 % 2048 = n.val; omega
    | ⟨2, _⟩ => show ((bi.val * 2048 + n.val) * 1024 + cc.val) / 64 % 16 = cc.val / 64; omega
    | ⟨3, _⟩ => show ((bi.val * 2048 + n.val) * 1024 + cc.val) % 64 = cc.val % 64; omega)

theorem lidx31 (bi : Fin 4) (n : Fin 2048) (o k : Fin 1024) : lidx_main_v31 (ix3 bi n o) k = ix3 bi n k :=
  funext fun a => Fin.ext (by match a with | ⟨0, _⟩ => rfl | ⟨1, _⟩ => rfl | ⟨2, _⟩ => rfl)
theorem ridx31 (bi : Fin 4) (n : Fin 2048) (o k : Fin 1024) : ridx_main_v31 (ix3 bi n o) k = ix2 o k :=
  funext fun a => Fin.ext (by match a with | ⟨0, _⟩ => rfl | ⟨1, _⟩ => rfl)
theorem idx3233 (bi : Fin 4) (n : Fin 2048) (o : Fin 1024) : idx_main_v32 (idx_main_v33 (ix3 bi n o)) = ix1 o :=
  funext fun a => Fin.ext (by match a with | ⟨0, _⟩ => rfl)

/-- The merged attention array at (batch, row, column) is the attention entry of the column's head. -/
theorem merged_at (bi : Fin 4) (n : Fin 2048) (cc : Fin 1024) :
    (val_main_v30 (F := Ideal) x0 x1 x2 : S4x2048x1024.Idx → EReal) (ix3 bi n cc)
      = (val_main_v28 (F := Ideal) x0 x1 x2 : S4x16x2048x64.Idx → EReal)
          (ix4 bi (⟨cc.val / 64, by omega⟩ : Fin 16) n (⟨cc.val % 64, by omega⟩ : Fin 64)) := by
  rw [val_main_v30_apply, val_main_v29_apply, idxR30, idxT29]

theorem ref_value (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) (bi : Fin 4) (n : Fin 2048) (o : Fin 1024) :
    (Cert.ReferenceIdeal.Read.val_main_v34 (F := Ideal) x0 x1 x2 x3 x4 : S4x2048x1024.Idx → EReal) (ix3 bi n o)
      = full (fun bi n k => (x0 : S4x2048x1024.Idx → EReal) (ix3 bi n k)) (fun f k => (x1 : S3072x1024.Idx → EReal) (ix2 f k))
          (fun f => (x2 : S3072.Idx → EReal) (ix1 f)) (fun o k => (x3 : S1024x1024.Idx → EReal) (ix2 o k))
          (fun o => (x4 : S1024.Idx → EReal) (ix1 o)) bi n o := by
  rw [val_main_v34_apply, val_main_v31_apply, val_main_v33_apply, val_main_v32_apply, idx3233]
  simp only [lidx31, ridx31, merged_at, head_at, Ideal.addf_def]
  rfl

end Cert.ReferenceIdeal.RefValue

end
-- ==== Proof.Val.Finite.lean ====
/- Under the precondition every entry of every input is a real number. -/
import proofs.«431026_j14723147891227_3_alg».proof.Pre_finite_inputs
import proofs.«431026_j14723147891227_3_alg».proof.Proof.Gen.Pre_finite_inputs
import Idealize.ShloMosaic.PureOps.Ideal
import Idealize.ShloMosaic.Lib.ValueIdx
import Idealize.ShloMosaic.Lib.ReduceAll

set_option maxRecDepth 16384

noncomputable section

namespace Cert.KernelIdeal.Val

open Idealize.ShloMosaic Idealize.ShloMosaic.TcCoe Idealize.ShloMosaic.ValueIdx
open Idealize.SL Idealize.SL.Sem
open Cert.Pre_finite_inputs

/-- The rank-0 shape has exactly one index. -/
instance subsingleton_S_Idx : Subsingleton S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` compares strictly below `+∞` is a real number:
    `⊤` fails because `max ⊤ ⊥ = ⊤`, and `⊥` fails because `max ⊥ ⊤ = ⊤`. -/
theorem real_of_abs_lt_inf (x : EReal)
    (hx : Ideal.cmp .olt (max x (-x)) (Ideal.ofBits .f32 0x7F800000#32) = 1#1) : ∃ r : ℝ, x = ((r : ℝ) : EReal) := by
  rw [ofBits_inf] at hx
  induction x using EReal.rec with
  | bot => simp [Ideal.cmp] at hx
  | coe r => exact ⟨r, rfl⟩
  | top => simp [Ideal.cmp] at hx

/-- One conjunct of the precondition: if the `and`-reduction over all axes of the elementwise test
    `|a i| < +∞` is 1, every entry of `a` is a real number. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant S_ .f32 0x7F800000#32)))
      (constantI S_ 1 1#1) hr hu ix0 = 1#1) (i : s.Idx) : ∃ r : ℝ, (a i : EReal) = ((r : ℝ) : EReal) :=
  real_of_abs_lt_inf (a i) (Host.reduce_andi_all _ _ hr hu ix0 e i)

/-- The five conjuncts of the precondition, each "every |entry| is below +inf", give real entries. -/
theorem real_of_pre [Cert.Pre_finite_inputs.Facts] (a0 : FVec Ideal S4x2048x1024 .f32) (a1 : FVec Ideal S3072x1024 .f32) (a2 : FVec Ideal S3072 .f32)
    (a3 : FVec Ideal S1024x1024 .f32) (a4 : FVec Ideal S1024 .f32)
    (h : Cert.Pre_finite_inputs.fn (F := Ideal) a0 a1 a2 a3 a4 = fun _ => 1#1) :
    (∀ i, ∃ x : ℝ, (a0 i : EReal) = ((x : ℝ) : EReal)) ∧ (∀ i, ∃ x : ℝ, (a1 i : EReal) = ((x : ℝ) : EReal))
      ∧ (∀ i, ∃ x : ℝ, (a2 i : EReal) = ((x : ℝ) : EReal)) ∧ (∀ i, ∃ x : ℝ, (a3 i : EReal) = ((x : ℝ) : EReal))
      ∧ (∀ i, ∃ x : ℝ, (a4 i : EReal) = ((x : ℝ) : EReal)) := by
  have h0 := congrFun h ix0
  dsimp only [Cert.Pre_finite_inputs.fn, Cert.Pre_finite_inputs.fn_part1, andi] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all _ _ _ a0 h0', real_of_all _ _ _ a1 h1, real_of_all _ _ _ a2 h2, real_of_all _ _ _ a3 h3,
    real_of_all _ _ _ a4 h4⟩

end Cert.KernelIdeal.Val

end
-- ==== Proof.lean ====
/-
  The certificate. The kernel program is a fused multi-head attention in three pipelined kernel regions among reshapes and
  transposes on the host: the fused q/k/v projection (rows of the input against the transposed weight, plus a bias row), a
  flash attention per batch and query tile that visits the key/value tiles in order keeping a running maximum, a running
  denominator and a running numerator, and the output projection. Its frame — every weakly fair execution terminates,
  nothing faults, the argument arrays end as launched — is one run of the program's segments, each region entered from the
  buffer contents the segment before left, proved once for any float family and read at the word-level program and at the
  idealized one. On the extended reals, under finite inputs, the three regions' output arrays are the linear layer, the
  softmax attention (the online recurrence telescopes: rescaling by exp (old maximum - new maximum) turns every tile's
  exponentials into exponentials against the final maximum) and the linear layer again; the reference computes the same
  three maps with the softmax written out, its scale 1/8 applied to the scores instead of the queries. The ideal pass rewrote
  nothing, so the idealized kernel is the kernel's own text.
-/
import proofs.«431026_j14723147891227_3_alg».proof.Defs
import proofs.«431026_j14723147891227_3_alg».proof.Proof.Gen.Kernel
import proofs.«431026_j14723147891227_3_alg».proof.Proof.Gen.KernelIdeal
import proofs.«431026_j14723147891227_3_alg».proof.Proof.Gen.ReferenceIdeal
import proofs.«431026_j14723147891227_3_alg».proof.Proof.Gen.Pre_finite_inputs
import proofs.«431026_j14723147891227_3_alg».proof.Proof.Gen.ReferenceIdeal.Run
import proofs.«431026_j14723147891227_3_alg».proof.Proof.Fr.Run
import proofs.«431026_j14723147891227_3_alg».proof.Proof.Fr.Args
import proofs.«431026_j14723147891227_3_alg».proof.Proof.FrK.Run
import proofs.«431026_j14723147891227_3_alg».proof.Proof.FrK.Args
import proofs.«431026_j14723147891227_3_alg».proof.Proof.Val.Compose
import proofs.«431026_j14723147891227_3_alg».proof.Proof.Val.Ref
import proofs.«431026_j14723147891227_3_alg».proof.Proof.Val.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its arguments as launched: the run of its segments, each argument read at the
    last boundary's contents. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Fr.mem_uc Cert.Kernel.main_arg0 (by decide))).trans (Cert.Kernel.Fr.W7_main_arg0 m c),
     (h c _ (Cert.Kernel.Fr.mem_uc Cert.Kernel.main_arg1 (by decide))).trans (Cert.Kernel.Fr.W7_main_arg1 m c),
     (h c _ (Cert.Kernel.Fr.mem_uc Cert.Kernel.main_arg2 (by decide))).trans (Cert.Kernel.Fr.W7_main_arg2 m c),
     (h c _ (Cert.Kernel.Fr.mem_uc Cert.Kernel.main_arg3 (by decide))).trans (Cert.Kernel.Fr.W7_main_arg3 m c),
     (h c _ (Cert.Kernel.Fr.mem_uc Cert.Kernel.main_arg4 (by decide))).trans (Cert.Kernel.Fr.W7_main_arg4 m c)⟩)
    (Cert.Kernel.Fr.run_all (F := Bits) m ρ)

/-- The idealized kernel's run with every unscoped buffer named, read at the arguments and at the result. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v14) = Cert.KernelIdeal.Fr.W7 m c (Proc.devRef .tc Cert.KernelIdeal.main_v14)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := Ideal)) _ _).mono (fun r h c =>
    ⟨h c _ (Cert.KernelIdeal.Fr.mem_uc Cert.KernelIdeal.main_v14 (by decide)),
     (h c _ (Cert.KernelIdeal.Fr.mem_uc Cert.KernelIdeal.main_arg0 (by decide))).trans (Cert.KernelIdeal.Fr.W7_main_arg0 m c),
     (h c _ (Cert.KernelIdeal.Fr.mem_uc Cert.KernelIdeal.main_arg1 (by decide))).trans (Cert.KernelIdeal.Fr.W7_main_arg1 m c),
     (h c _ (Cert.KernelIdeal.Fr.mem_uc Cert.KernelIdeal.main_arg2 (by decide))).trans (Cert.KernelIdeal.Fr.W7_main_arg2 m c),
     (h c _ (Cert.KernelIdeal.Fr.mem_uc Cert.KernelIdeal.main_arg3 (by decide))).trans (Cert.KernelIdeal.Fr.W7_main_arg3 m c),
     (h c _ (Cert.KernelIdeal.Fr.mem_uc Cert.KernelIdeal.main_arg4 (by decide))).trans (Cert.KernelIdeal.Fr.W7_main_arg4 m c)⟩)
    (Cert.KernelIdeal.Fr.run_all (F := Ideal) m ρ)

theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (run_ki m ρ)

/-- The reference is host operations only: its run, the result dropped. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

/-- Under finite inputs the two idealized programs end with one result: entry by entry both are multi-head attention of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W7 m c (Proc.devRef .tc Cert.KernelIdeal.main_v14), run_ki m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨h0, h1, h2, -, -⟩ := Cert.KernelIdeal.Val.real_of_pre _ _ _ _ _ (hpre c)
  rw [Cert.ReferenceIdeal.Read.val_main_v34_eq, (hagree c).1, (hagree c).2.1, (hagree c).2.2.1, (hagree c).2.2.2.1, (hagree c).2.2.2.2]
  funext i
  obtain ⟨bi, n, o, rfl⟩ : ∃ (bi : Fin 4) (n : Fin 2048) (o : Fin 1024), i = ix3 bi n o := ⟨i 0, i 1, i 2, eq_ix3 i⟩
  refine (Cert.ReferenceIdeal.RefValue.ref_value _ _ _ _ _ bi n o).trans ?_
  exact (Cert.KernelIdeal.Val.kernel_value m c (fun bi n k => h0 _) (fun f k => h1 _) (fun f => h2 _) bi n o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
